-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x577x768 : Shape := ⟨3, ![32, 577, 768]⟩
abbrev S576x128 : Shape := ⟨2, ![576, 128]⟩
abbrev S2304x768 : Shape := ⟨2, ![2304, 768]⟩
abbrev S768 : Shape := ⟨1, ![768]⟩
abbrev S768x768 : Shape := ⟨2, ![768, 768]⟩
abbrev S_ : Shape := ⟨0, ![]⟩

class Facts : Prop where
  bcast_S_S32x577x768 : S_.BroadcastsInDim S32x577x768 (![] : Fin 0 → Fin S32x577x768.rank)
  reducesTo_S32x577x768_S_d0_1_2 : S32x577x768.ReducesTo [0, 1, 2] S_
  h_S_ : 0 < S_.numel
  bcast_S_S576x128 : S_.BroadcastsInDim S576x128 (![] : Fin 0 → Fin S576x128.rank)
  reducesTo_S576x128_S_d0_1 : S576x128.ReducesTo [0, 1] S_
  bcast_S_S2304x768 : S_.BroadcastsInDim S2304x768 (![] : Fin 0 → Fin S2304x768.rank)
  reducesTo_S2304x768_S_d0_1 : S2304x768.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S768 .f32) (main_arg5 : FVec F S768x768 .f32) (main_arg6 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S32x577x768 .f32) (main_arg1 : FVec F S576x128 .f32) (main_arg2 : FVec F S2304x768 .f32) (main_arg3 : FVec F S768 .f32) (main_arg4 : FVec F S768 .f32) (main_arg5 : FVec F S768x768 .f32) (main_arg6 : FVec F S768 .f32) : IVec S_ 1 :=
  let main_v0 : FVec F S32x577x768 .f32 := Host.absf main_arg0
  let main_cst : FVec F S_ .f32 := constant S_ .f32 0x7F800000#32
  let main_v1 : FVec F S32x577x768 .f32 := broadcastInDim S32x577x768 ![] bcast_S_S32x577x768 main_cst
  let main_v2 : IVec S32x577x768 1 := cmpf .olt main_v0 main_v1
  let main_c : IVec S_ 1 := constantI S_ 1 1#1
  let main_v3 : IVec S_ 1 := (fun x v => Host.reduce IntOp.andi x v reducesTo_S32x577x768_S_d0_1_2 h_S_) main_v2 main_c
  let main_v4 : FVec F S576x128 .f32 := Host.absf main_arg1
  let main_cst_0 : FVec F S_ .f32 := constant S_ .f32 0x7F800000#32
  let main_v5 : FVec F S576x128 .f32 := broadcastInDim S576x128 ![] bcast_S_S576x128 main_cst_0
  let main_v6 : IVec S576x128 1 := cmpf .olt main_v4 main_v5
  let main_c_1 : IVec S_ 1 := constantI S_ 1 1#1
  let main_v7 : IVec S_ 1 := (fun x v => Host.reduce IntOp.andi x v reducesTo_S576x128_S_d0_1 h_S_) main_v6 main_c_1
  let main_v8 : IVec S_ 1 := andi main_v3 main_v7
  let main_v9 : FVec F S2304x768 .f32 := Host.absf main_arg2
  let main_cst_2 : FVec F S_ .f32 := constant S_ .f32 0x7F800000#32
  let main_v10 : FVec F S2304x768 .f32 := broadcastInDim S2304x768 ![] bcast_S_S2304x768 main_cst_2
  let main_v11 : IVec S2304x768 1 := cmpf .olt main_v9 main_v10
  let main_c_3 : IVec S_ 1 := constantI S_ 1 1#1
  let main_v12 : IVec S_ 1 := (fun x v => Host.reduce IntOp.andi x v reducesTo_S2304x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_v13 main_v16
-- ==== Kernel.lean ====
abbrev S32x577x768 : Shape := ⟨3, ![32, 577, 768]⟩
abbrev S576x128 : Shape := ⟨2, ![576, 128]⟩
abbrev S2304x768 : Shape := ⟨2, ![2304, 768]⟩
abbrev S768 : Shape := ⟨1, ![768]⟩
abbrev S768x768 : Shape := ⟨2, ![768, 768]⟩
abbrev S64x64 : Shape := ⟨2, ![64, 64]⟩
abbrev S_ : Shape := ⟨0, ![]⟩
abbrev S2304 : Shape := ⟨1, ![2304]⟩
abbrev S1x2304 : Shape := ⟨2, ![1, 2304]⟩
abbrev S768x2304 : Shape := ⟨2, ![768, 2304]⟩
abbrev S576x64 : Shape := ⟨2, ![576, 64]⟩
abbrev S1x64 : Shape := ⟨2, ![1, 64]⟩
abbrev S577x64 : Shape := ⟨2, ![577, 64]⟩
abbrev S1x768 : Shape := ⟨2, ![1, 768]⟩
abbrev S1x577x768 : Shape := ⟨3, ![1, 577, 768]⟩
abbrev S577x2304 : Shape := ⟨2, ![577, 2304]⟩
abbrev S577x768 : Shape := ⟨2, ![577, 768]⟩
abbrev S64x577 : Shape := ⟨2, ![64, 577]⟩
abbrev S577x577 : Shape := ⟨2, ![577, 577]⟩
abbrev S577 : Shape := ⟨1, ![577]⟩
abbrev S577x1 : Shape := ⟨2, ![577, 1]⟩

abbrev nBuf : Space → Nat
  | .hbm => 26
  | .vmem => 13
  | .smem => 0
  | _ => 0

abbrev bufTy : (tb : Table) → Fin (tcTables nBuf tb) → BufTy
  | .hbm, ⟨0, _⟩ => ⟨S32x577x768, .f32⟩
  | .hbm, ⟨1, _⟩ => ⟨S576x128, .f32⟩
  | .hbm, ⟨2, _⟩ => ⟨S2304x768, .f32⟩
  | .hbm, ⟨3, _⟩ => ⟨S768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S64x64, .f32⟩
  | .hbm, ⟨8, _⟩ => ⟨S_, .f32⟩
  | .hbm, ⟨9, _⟩ => ⟨S768, .f32⟩
  | .hbm, ⟨10, _⟩ => ⟨S2304, .f32⟩
  | .hbm, ⟨11, _⟩ => ⟨S1x2304, .f32⟩
  | .hbm, ⟨12, _⟩ => ⟨S768x2304, .f32⟩
  | .hbm, ⟨13, _⟩ => ⟨S768x2304, .bf16⟩
  | .hbm, ⟨14, _⟩ => ⟨S576x64, .f32⟩
  | .hbm, ⟨15, _⟩ => ⟨S576x64, .f32⟩
  | .hbm, ⟨16, _⟩ => ⟨S_, .f32⟩
  | .hbm, ⟨17, _⟩ => ⟨S1x64, .f32⟩
  | .hbm, ⟨18, _⟩ => ⟨S577x64, .f32⟩
  | .hbm, ⟨19, _⟩ => ⟨S_, .f32⟩
  | .hbm, ⟨20, _⟩ => ⟨S1x64, .f32⟩
  | .hbm, ⟨21, _⟩ => ⟨S577x64, .f32⟩
  | .hbm, ⟨22, _⟩ => ⟨S768x768, .f32⟩
  | .hbm, ⟨23, _⟩ => ⟨S768x768, .bf16⟩
  | .hbm, ⟨24, _⟩ => ⟨S1x768, .f32⟩
  | .hbm, ⟨25, _⟩ => ⟨S32x577x768, .f32⟩
  | .local _ .vmem, ⟨0, _⟩ => ⟨S1x577x768, .f32⟩
  | .local _ .vmem, ⟨1, _⟩ => ⟨S1x577x768, .f32⟩
  | .local _ .vmem, ⟨2, _⟩ => ⟨S768x2304, .bf16⟩
  | .local _ .vmem, ⟨3, _⟩ => ⟨S1x2304, .f32⟩
  | .local _ .vmem, ⟨4, _⟩ => ⟨S577x64, .f32⟩
  | .local _ .vmem, ⟨5, _⟩ => ⟨S577x64, .f32⟩
  | .local _ .vmem, ⟨6, _⟩ => ⟨S64x64, .f32⟩
  | .local _ .vmem, ⟨7, _⟩ => ⟨S768x768, .bf16⟩
  | .local _ .vmem, ⟨8, _⟩ => ⟨S1x768, .f32⟩
  | .local _ .vmem, ⟨9, _⟩ => ⟨S1x577x768, .f32⟩
  | .local _ .vmem, ⟨10, _⟩ => ⟨S1x577x768, .f32⟩
  | .local _ .vmem, ⟨11, _⟩ => ⟨S577x2304, .f32⟩
  | .local _ .vmem, ⟨12, _⟩ => ⟨S577x768, .f32⟩
  | _, _ => ⟨S32x577x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x577x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S577x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S577x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x577x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S768 : S_.BroadcastsInDim S768 (![] : Fin 0 → Fin S768.rank)
  concatenates_S768_S768_S768_S2304_d0 : Shape.Concatenates [S768, S768, S768] S2304 0
  shapeCasts_S2304_S1x2304 : S2304.ShapeCasts S1x2304
  transposes_S2304x768_S768x2304_1_0 : S2304x768.Transposes [1, 0] S768x2304
  bitsLt_bf16_f32 : FTy.bits .bf16 < FTy.bits .f32
  slices_S576x128_S576x64_0_0 : S576x128.Slices ![0, 0] S576x64
  slices_S576x128_S576x64_0_64 : S576x128.Slices ![0, 64] S576x64
  bcast_S_S1x64 : S_.BroadcastsInDim S1x64 (![] : Fin 0 → Fin S1x64.rank)
  concatenates_S1x64_S576x64_S577x64_d0 : Shape.Concatenates [S1x64, S576x64] S577x64 0
  transposes_S768x768_S768x768_1_0 : S768x768.Transposes [1, 0] S768x768
  shapeCasts_S768_S1x768 : S768.ShapeCasts S1x768
  inb_S1x577x768_S1x577x768_0_0_0 : ∀ a, (![0, 0, 0] : Fin 3 → Nat) a + S1x577x768.size a ≤ S1x577x768.size a
  h_S1x577x768 : 0 < S1x577x768.numel
  shapeCasts_S1x577x768_S577x768 : S1x577x768.ShapeCasts S577x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S577x2304 : S1x2304.Broadcasts S577x2304
  inb_S577x2304_S577x2304_0_0 : ∀ a, (![0, 0] : Fin 2 → Nat) a + S577x2304.size a ≤ S577x2304.size a
  h_S577x2304 : 0 < S577x2304.numel
  shapeCasts_S577x2304_S577x2304 : S577x2304.ShapeCasts S577x2304
  inb_S577x64_S577x64_0_0 : ∀ a, (![0, 0] : Fin 2 → Nat) a + S577x64.size a ≤ S577x64.size a
  h_S577x64 : 0 < S577x64.numel
  shapeCasts_S577x64_S577x64 : S577x64.ShapeCasts S577x64
  inb_S64x64_S64x64_0_0 : ∀ a, (![0, 0] : Fin 2 → Nat) a + S64x64.size a ≤ S64x64.size a
  h_S64x64 : 0 < S64x64.numel
  inb_S577x2304_S577x64_0_0 : ∀ a, (![0, 0] : Fin 2 → Nat) a + S577x64.size a ≤ S577x2304.size a
  inb_S577x2304_S577x64_0_768 : ∀ a, (![0, 768] : Fin 2 → Nat) a + S577x64.size a ≤ S577x2304.size a
  inb_S577x2304_S577x64_0_1536 : ∀ a, (![0, 1536] : Fin 2 → Nat) a + S577x64.size a ≤ S577x2304.size a
  transposes_S577x64_p1_0_S64x577 : S577x64.Transposes [1, 0] S64x577
  reduces_S577x577_S577 : S577x577.Reduces [1] S577
  shapeCasts_S577_S577x1 : S577.ShapeCasts S577x1
  broadcasts_S577x1_S577x577 : S577x1.Broadcasts S577x577
  inb_S577x768_S577x64_0_0 : ∀ a, (![0, 0] : Fin 2 → Nat) a + S577x64.size a ≤ S577x768.size a
  inb_S577x2304_S577x64_0_64 : ∀ a, (![0, 64] : Fin 2 → Nat) a + S577x64.size a ≤ S577x2304.size a
  inb_S577x2304_S577x64_0_832 : ∀ a, (![0, 832] : Fin 2 → Nat) a + S577x64.size a ≤ S577x2304.size a
  inb_S577x2304_S577x64_0_1600 : ∀ a, (![0, 1600] : Fin 2 → Nat) a + S577x64.size a ≤ S577x2304.size a
  inb_S577x768_S577x64_0_64 : ∀ a, (![0, 64] : Fin 2 → Nat) a + S577x64.size a ≤ S577x768.size a
  inb_S577x2304_S577x64_0_128 : ∀ a, (![0, 128] : Fin 2 → Nat) a + S577x64.size a ≤ S577x2304.size a
  inb_S577x2304_S577x64_0_896 : ∀ a, (![0, 896] : Fin 2 → Nat) a + S577x64.size a ≤ S577x2304.size a
  inb_S577x2304_S577x64_0_1664 : ∀ a, (![0, 1664] : Fin 2 → Nat) a + S577x64.size a ≤ S577x2304.size a
  inb_S577x768_S577x64_0_128 : ∀ a, (![0, 128] : Fin 2 → Nat) a + S577x64.size a ≤ S577x768.size a
  inb_S577x2304_S577x64_0_192 : ∀ a, (![0, 192] : Fin 2 → Nat) a + S577x64.size a ≤ S577x2304.size a
  inb_S577x2304_S577x64_0_960 : ∀ a, (![0, 960] : Fin 2 → Nat) a + S577x64.size a ≤ S577x2304.size a
  inb_S577x2304_S577x64_0_1728 : ∀ a, (![0, 1728] : Fin 2 → Nat) a + S577x64.size a ≤ S577x2304.size a
  inb_S577x768_S577x64_0_192 : ∀ a, (![0, 192] : Fin 2 → Nat) a + S577x64.size a ≤ S577x768.size a
  inb_S577x2304_S577x64_0_256 : ∀ a, (![0, 256] : Fin 2 → Nat) a + S577x64.size a ≤ S577x2304.size a
  inb_S577x2304_S577x64_0_1024 : ∀ a, (![0, 1024] : Fin 2 → Nat) a + S577x64.size a ≤ S577x2304.size a
  inb_S577x2304_S577x64_0_1792 : ∀ a, (![0, 1792] : Fin 2 → Nat) a + S577x64.size a ≤ S577x2304.size a
  inb_S577x768_S577x64_0_256 : ∀ a, (![0, 256] : Fin 2 → Nat) a + S577x64.size a ≤ S577x768.size a
  inb_S577x2304_S577x64_0_320 : ∀ a, (![0, 320] : Fin 2 → Nat) a + S577x64.size a ≤ S577x2304.size a
  inb_S577x2304_S577x64_0_1088 : ∀ a, (![0, 1088] : Fin 2 → Nat) a + S577x64.size a ≤ S577x2304.size a
  inb_S577x2304_S577x64_0_1856 : ∀ a, (![0, 1856] : Fin 2 → Nat) a + S577x64.size a ≤ S577x2304.size a
  inb_S577x768_S577x64_0_320 : ∀ a, (![0, 320] : Fin 2 → Nat) a + S577x64.size a ≤ S577x768.size a
  inb_S577x2304_S577x64_0_384 : ∀ a, (![0, 384] : Fin 2 → Nat) a + S577x64.size a ≤ S577x2304.size a
  inb_S577x2304_S577x64_0_1152 : ∀ a, (![0, 1152] : Fin 2 → Nat) a + S577x64.size a ≤ S577x2304.size a
  inb_S577x2304_S577x64_0_1920 : ∀ a, (![0, 1920] : Fin 2 → Nat) a + S577x64.size a ≤ S577x2304.size a
  inb_S577x768_S577x64_0_384 : ∀ a, (![0, 384] : Fin 2 → Nat) a + S577x64.size a ≤ S577x768.size a
  inb_S577x2304_S577x64_0_448 : ∀ a, (![0, 448] : Fin 2 → Nat) a + S577x64.size a ≤ S577x2304.size a
  inb_S577x2304_S577x64_0_1216 : ∀ a, (![0, 1216] : Fin 2 → Nat) a + S577x64.size a ≤ S577x2304.size a
  inb_S577x2304_S577x64_0_1984 : ∀ a, (![0, 1984] : Fin 2 → Nat) a + S577x64.size a ≤ S577x2304.size a
  inb_S577x768_S577x64_0_448 : ∀ a, (![0, 448] : Fin 2 → Nat) a + S577x64.size a ≤ S577x768.size a
  inb_S577x2304_S577x64_0_512 : ∀ a, (![0, 512] : Fin 2 → Nat) a + S577x64.size a ≤ S577x2304.size a
  inb_S577x2304_S577x64_0_1280 : ∀ a, (![0, 1280] : Fin 2 → Nat) a + S577x64.size a ≤ S577x2304.size a
  inb_S577x2304_S577x64_0_2048 : ∀ a, (![0, 2048] : Fin 2 → Nat) a + S577x64.size a ≤ S577x2304.size a
  inb_S577x768_S577x64_0_512 : ∀ a, (![0, 512] : Fin 2 → Nat) a + S577x64.size a ≤ S577x768.size a
  inb_S577x2304_S577x64_0_576 : ∀ a, (![0, 576] : Fin 2 → Nat) a + S577x64.size a ≤ S577x2304.size a
  inb_S577x2304_S577x64_0_1344 : ∀ a, (![0, 1344] : Fin 2 → Nat) a + S577x64.size a ≤ S577x2304.size a
  inb_S577x2304_S577x64_0_2112 : ∀ a, (![0, 2112] : Fin 2 → Nat) a + S577x64.size a ≤ S577x2304.size a
  inb_S577x768_S577x64_0_576 : ∀ a, (![0, 576] : Fin 2 → Nat) a + S577x64.size a ≤ S577x768.size a
  inb_S577x2304_S577x64_0_640 : ∀ a, (![0, 640] : Fin 2 → Nat) a + S577x64.size a ≤ S577x2304.size a
  inb_S577x2304_S577x64_0_1408 : ∀ a, (![0, 1408] : Fin 2 → Nat) a + S577x64.size a ≤ S577x2304.size a
  inb_S577x2304_S577x64_0_2176 : ∀ a, (![0, 2176] : Fin 2 → Nat) a + S577x64.size a ≤ S577x2304.size a
  inb_S577x768_S577x64_0_640 : ∀ a, (![0, 640] : Fin 2 → Nat) a + S577x64.size a ≤ S577x768.size a
  inb_S577x2304_S577x64_0_704 : ∀ a, (![0, 704] : Fin 2 → Nat) a + S577x64.size a ≤ S577x2304.size a
  inb_S577x2304_S577x64_0_1472 : ∀ a, (![0, 1472] : Fin 2 → Nat) a + S577x64.size a ≤ S577x2304.size a
  inb_S577x2304_S577x64_0_2240 : ∀ a, (![0, 2240] : Fin 2 → Nat) a + S577x64.size a ≤ S577x2304.size a
  inb_S577x768_S577x64_0_704 : ∀ a, (![0, 704] : Fin 2 → Nat) a + S577x64.size a ≤ S577x768.size a
  inb_S577x768_S577x768_0_0 : ∀ a, (![0, 0] : Fin 2 → Nat) a + S577x768.size a ≤ S577x768.size a
  h_S577x768 : 0 < S577x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S577x768 : S1x768.Broadcasts S577x768
  shapeCasts_S577x768_S1x577x768 : S577x768.ShapeCasts S1x577x768
  dot_S577x768_S768x2304_S577x2304_1_0_0_1_n_n_wf : DotDims.WF S577x768 S768x2304 S577x2304 [1] [0] [0] [1] [] []
  dot_S577x64_S64x64_S577x64_1_0_0_1_n_n_wf : DotDims.WF S577x64 S64x64 S577x64 [1] [0] [0] [1] [] []
  dot_S577x64_S64x577_S577x577_1_0_0_1_n_n_wf : DotDims.WF S577x64 S64x577 S577x577 [1] [0] [0] [1] [] []
  dot_S577x577_S577x64_S577x64_1_0_0_1_n_n_wf : DotDims.WF S577x577 S577x64 S577x64 [1] [0] [0] [1] [] []
  dot_S577x768_S768x768_S577x768_1_0_0_1_n_n_wf : DotDims.WF S577x768 S768x768 S577x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x577x768.size a ≤ S32x577x768.size a
  hwx0_0 : ∀ i : grid0.Coords, EltTy.bits .f32 = 32 ∨ (Rect.block (s := S32x577x768) S1x577x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S577x64.size a ≤ S577x64.size a
  hwx0_3 : ∀ i : grid0.Coords, EltTy.bits .f32 = 32 ∨ (Rect.block (s := S577x64) S577x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S577x64.size a ≤ S577x64.size a
  hwx0_4 : ∀ i : grid0.Coords, EltTy.bits .f32 = 32 ∨ (Rect.block (s := S577x64) S577x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .bf16 = 32 ∨ (Rect.block (s := S768x768) S768x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x577x768.size a ≤ S32x577x768.size a
  hwx0_8 : ∀ i : grid0.Coords, EltTy.bits .f32 = 32 ∨ (Rect.block (s := S32x577x768) S1x577x768.size (cc0_transform_8 i) (hinb0_8 i)).WholeWords (EltTy.packing .f32)

variable [Facts₀]

def dot_S577x768_S768x2304_S577x2304_1_0_0_1_n_n : DotDims S577x768 S768x2304 S577x2304 where
  lhsContracting := [1]
  rhsContracting := [0]
  lhsNonContracting := [0]
  rhsNonContracting := [1]
  lhsBatch := []
  rhsBatch := []
  wf := dot_S577x768_S768x2304_S577x2304_1_0_0_1_n_n_wf
def dot_S577x64_S64x64_S577x64_1_0_0_1_n_n : DotDims S577x64 S64x64 S577x64 where
  lhsContracting := [1]
  rhsContracting := [0]
  lhsNonContracting := [0]
  rhsNonContracting := [1]
  lhsBatch := []
  rhsBatch := []
  wf := dot_S577x64_S64x64_S577x64_1_0_0_1_n_n_wf
def dot_S577x64_S64x577_S577x577_1_0_0_1_n_n : DotDims S577x64 S64x577 S577x577 where
  lhsContracting := [1]
  rhsContracting := [0]
  lhsNonContracting := [0]
  rhsNonContracting := [1]
  lhsBatch := []
  rhsBatch := []
  wf := dot_S577x64_S64x577_S577x577_1_0_0_1_n_n_wf
def dot_S577x577_S577x64_S577x64_1_0_0_1_n_n : DotDims S577x577 S577x64 S577x64 where
  lhsContracting := [1]
  rhsContracting := [0]
  lhsNonContracting := [0]
  rhsNonContracting := [1]
  lhsBatch := []
  rhsBatch := []
  wf := dot_S577x577_S577x64_S577x64_1_0_0_1_n_n_wf
def dot_S577x768_S768x768_S577x768_1_0_0_1_n_n : DotDims S577x768 S768x768 S577x768 where
  lhsContracting := [1]
  rhsContracting := [0]
  lhsNonContracting := [0]
  rhsNonContracting := [1]
  lhsBatch := []
  rhsBatch := []
  wf := dot_S577x768_S768x768_S577x768_1_0_0_1_n_n_wf

abbrev win0_0 : Pipeline.Window sig grid0 :=
  Pipeline.Window.ofSpec (Memref.whole main_arg0) S1x577x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S577x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S577x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_cst) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x577x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x577x768 : Shape := ⟨3, ![32, 577, 768]⟩
abbrev S576x128 : Shape := ⟨2, ![576, 128]⟩
abbrev S2304x768 : Shape := ⟨2, ![2304, 768]⟩
abbrev S768 : Shape := ⟨1, ![768]⟩
abbrev S768x768 : Shape := ⟨2, ![768, 768]⟩
abbrev S_ : Shape := ⟨0, ![]⟩
abbrev S2304 : Shape := ⟨1, ![2304]⟩
abbrev S32x577x2304 : Shape := ⟨3, ![32, 577, 2304]⟩
abbrev S1x1x2304 : Shape := ⟨3, ![1, 1, 2304]⟩
abbrev S32x577x3x12x64 : Shape := ⟨5, ![32, 577, 3, 12, 64]⟩
abbrev S3x32x12x577x64 : Shape := ⟨5, ![3, 32, 12, 577, 64]⟩
abbrev S1x32x12x577x64 : Shape := ⟨5, ![1, 32, 12, 577, 64]⟩
abbrev S32x12x577x64 : Shape := ⟨4, ![32, 12, 577, 64]⟩
abbrev S32x12x1x64 : Shape := ⟨4, ![32, 12, 1, 64]⟩
abbrev S32x12x576x64 : Shape := ⟨4, ![32, 12, 576, 64]⟩
abbrev S576x64 : Shape := ⟨2, ![576, 64]⟩
abbrev S1x1x576x64 : Shape := ⟨4, ![1, 1, 576, 64]⟩
abbrev S32x12x576x32x2 : Shape := ⟨5, ![32, 12, 576, 32, 2]⟩
abbrev S32x12x576x32x1 : Shape := ⟨5, ![32, 12, 576, 32, 1]⟩
abbrev S32x12x576x32 : Shape := ⟨4, ![32, 12, 576, 32]⟩
abbrev S32x12x577x577 : Shape := ⟨4, ![32, 12, 577, 577]⟩
abbrev S32x12x577 : Shape := ⟨3, ![32, 12, 577]⟩
abbrev S32x12x577x1 : Shape := ⟨4, ![32, 12, 577, 1]⟩
abbrev S32x577x12x64 : Shape := ⟨4, ![32, 577, 12, 64]⟩
abbrev S1x1x768 : Shape := ⟨3, ![1, 1, 768]⟩

abbrev nBuf : Space → Nat
  | .hbm => 91
  | .vmem => 0
  | .smem => 0
  | _ => 0

abbrev bufTy : (tb : Table) → Fin (tcTables nBuf tb) → BufTy
  | .hbm, ⟨0, _⟩ => ⟨S32x577x768, .f32⟩
  | .hbm, ⟨1, _⟩ => ⟨S576x128, .f32⟩
  | .hbm, ⟨2, _⟩ => ⟨S2304x768, .f32⟩
  | .hbm, ⟨3, _⟩ => ⟨S768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S_, .f32⟩
  | .hbm, ⟨8, _⟩ => ⟨S768, .f32⟩
  | .hbm, ⟨9, _⟩ => ⟨S2304, .f32⟩
  | .hbm, ⟨10, _⟩ => ⟨S32x577x2304, .f32⟩
  | .hbm, ⟨11, _⟩ => ⟨S1x1x2304, .f32⟩
  | .hbm, ⟨12, _⟩ => ⟨S32x577x2304, .f32⟩
  | .hbm, ⟨13, _⟩ => ⟨S32x577x2304, .f32⟩
  | .hbm, ⟨14, _⟩ => ⟨S32x577x3x12x64, .f32⟩
  | .hbm, ⟨15, _⟩ => ⟨S3x32x12x577x64, .f32⟩
  | .hbm, ⟨16, _⟩ => ⟨S1x32x12x577x64, .f32⟩
  | .hbm, ⟨17, _⟩ => ⟨S32x12x577x64, .f32⟩
  | .hbm, ⟨18, _⟩ => ⟨S1x32x12x577x64, .f32⟩
  | .hbm, ⟨19, _⟩ => ⟨S32x12x577x64, .f32⟩
  | .hbm, ⟨20, _⟩ => ⟨S1x32x12x577x64, .f32⟩
  | .hbm, ⟨21, _⟩ => ⟨S32x12x577x64, .f32⟩
  | .hbm, ⟨22, _⟩ => ⟨S32x12x1x64, .f32⟩
  | .hbm, ⟨23, _⟩ => ⟨S32x12x576x64, .f32⟩
  | .hbm, ⟨24, _⟩ => ⟨S576x64, .f32⟩
  | .hbm, ⟨25, _⟩ => ⟨S576x64, .f32⟩
  | .hbm, ⟨26, _⟩ => ⟨S1x1x576x64, .f32⟩
  | .hbm, ⟨27, _⟩ => ⟨S32x12x576x64, .f32⟩
  | .hbm, ⟨28, _⟩ => ⟨S32x12x576x64, .f32⟩
  | .hbm, ⟨29, _⟩ => ⟨S32x12x576x32x2, .f32⟩
  | .hbm, ⟨30, _⟩ => ⟨S32x12x576x32x1, .f32⟩
  | .hbm, ⟨31, _⟩ => ⟨S32x12x576x32, .f32⟩
  | .hbm, ⟨32, _⟩ => ⟨S32x12x576x32, .f32⟩
  | .hbm, ⟨33, _⟩ => ⟨S32x12x576x32x1, .f32⟩
  | .hbm, ⟨34, _⟩ => ⟨S32x12x576x32, .f32⟩
  | .hbm, ⟨35, _⟩ => ⟨S32x12x576x32x1, .f32⟩
  | .hbm, ⟨36, _⟩ => ⟨S32x12x576x32x1, .f32⟩
  | .hbm, ⟨37, _⟩ => ⟨S32x12x576x32x2, .f32⟩
  | .hbm, ⟨38, _⟩ => ⟨S32x12x576x64, .f32⟩
  | .hbm, ⟨39, _⟩ => ⟨S1x1x576x64, .f32⟩
  | .hbm, ⟨40, _⟩ => ⟨S32x12x576x64, .f32⟩
  | .hbm, ⟨41, _⟩ => ⟨S32x12x576x64, .f32⟩
  | .hbm, ⟨42, _⟩ => ⟨S32x12x576x64, .f32⟩
  | .hbm, ⟨43, _⟩ => ⟨S32x12x577x64, .f32⟩
  | .hbm, ⟨44, _⟩ => ⟨S32x12x1x64, .f32⟩
  | .hbm, ⟨45, _⟩ => ⟨S32x12x576x64, .f32⟩
  | .hbm, ⟨46, _⟩ => ⟨S576x64, .f32⟩
  | .hbm, ⟨47, _⟩ => ⟨S576x64, .f32⟩
  | .hbm, ⟨48, _⟩ => ⟨S1x1x576x64, .f32⟩
  | .hbm, ⟨49, _⟩ => ⟨S32x12x576x64, .f32⟩
  | .hbm, ⟨50, _⟩ => ⟨S32x12x576x64, .f32⟩
  | .hbm, ⟨51, _⟩ => ⟨S32x12x576x32x2, .f32⟩
  | .hbm, ⟨52, _⟩ => ⟨S32x12x576x32x1, .f32⟩
  | .hbm, ⟨53, _⟩ => ⟨S32x12x576x32, .f32⟩
  | .hbm, ⟨54, _⟩ => ⟨S32x12x576x32, .f32⟩
  | .hbm, ⟨55, _⟩ => ⟨S32x12x576x32x1, .f32⟩
  | .hbm, ⟨56, _⟩ => ⟨S32x12x576x32, .f32⟩
  | .hbm, ⟨57, _⟩ => ⟨S32x12x576x32x1, .f32⟩
  | .hbm, ⟨58, _⟩ => ⟨S32x12x576x32x1, .f32⟩
  | .hbm, ⟨59, _⟩ => ⟨S32x12x576x32x2, .f32⟩
  | .hbm, ⟨60, _⟩ => ⟨S32x12x576x64, .f32⟩
  | .hbm, ⟨61, _⟩ => ⟨S1x1x576x64, .f32⟩
  | .hbm, ⟨62, _⟩ => ⟨S32x12x576x64, .f32⟩
  | .hbm, ⟨63, _⟩ => ⟨S32x12x576x64, .f32⟩
  | .hbm, ⟨64, _⟩ => ⟨S32x12x576x64, .f32⟩
  | .hbm, ⟨65, _⟩ => ⟨S32x12x577x64, .f32⟩
  | .hbm, ⟨66, _⟩ => ⟨S_, .f32⟩
  | .hbm, ⟨67, _⟩ => ⟨S32x12x577x64, .f32⟩
  | .hbm, ⟨68, _⟩ => ⟨S32x12x577x64, .f32⟩
  | .hbm, ⟨69, _⟩ => ⟨S32x12x577x577, .f32⟩
  | .hbm, ⟨70, _⟩ => ⟨S_, .f32⟩
  | .hbm, ⟨71, _⟩ => ⟨S32x12x577, .f32⟩
  | .hbm, ⟨72, _⟩ => ⟨S_, .f32⟩
  | .hbm, ⟨73, _⟩ => ⟨S32x12x577, .f32⟩
  | .hbm, ⟨74, _⟩ => ⟨S32x12x577, .f32⟩
  | .hbm, ⟨75, _⟩ => ⟨S32x12x577x1, .f32⟩
  | .hbm, ⟨76, _⟩ => ⟨S32x12x577x577, .f32⟩
  | .hbm, ⟨77, _⟩ => ⟨S32x12x577x577, .f32⟩
  | .hbm, ⟨78, _⟩ => ⟨S32x12x577x577, .f32⟩
  | .hbm, ⟨79, _⟩ => ⟨S_, .f32⟩
  | .hbm, ⟨80, _⟩ => ⟨S32x12x577, .f32⟩
  | .hbm, ⟨81, _⟩ => ⟨S32x12x577x1, .f32⟩
  | .hbm, ⟨82, _⟩ => ⟨S32x12x577x577, .f32⟩
  | .hbm, ⟨83, _⟩ => ⟨S32x12x577x577, .f32⟩
  | .hbm, ⟨84, _⟩ => ⟨S32x12x577x64, .f32⟩
  | .hbm, ⟨85, _⟩ => ⟨S32x577x12x64, .f32⟩
  | .hbm, ⟨86, _⟩ => ⟨S32x577x768, .f32⟩
  | .hbm, ⟨87, _⟩ => ⟨S32x577x768, .f32⟩
  | .hbm, ⟨88, _⟩ => ⟨S1x1x768, .f32⟩
  | .hbm, ⟨89, _⟩ => ⟨S32x577x768, .f32⟩
  | .hbm, ⟨90, _⟩ => ⟨S32x577x768, .f32⟩
  | _, _ => ⟨S32x577x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_0 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_1 : Ref sig .tc := ⟨.hbm, 70, rfl⟩
abbrev main_v61 : Ref sig .tc := ⟨.hbm, 71, rfl⟩
abbrev main_cst_2 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_3 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩

abbrev nD : Nat := 1
abbrev τ : Topo := Topo.v7x

variable {F : FTy → Type} [FloatOps F]

class Facts₀ : Prop where
  bcast_S_S768 : S_.BroadcastsInDim S768 (![] : Fin 0 → Fin S768.rank)
  concatenates_S768_S768_S768_S2304_d0 : Shape.Concatenates [S768, S768, S768] S2304 0
  bcast_S2304_S1x1x2304_2 : S2304.BroadcastsInDim S1x1x2304 (![2] : Fin 1 → Fin S1x1x2304.rank)
  bcast_S1x1x2304_S32x577x2304_0_1_2 : S1x1x2304.BroadcastsInDim S32x577x2304 (![0, 1, 2] : Fin 3 → Fin S32x577x2304.rank)
  shapeCasts_S32x577x2304_S32x577x3x12x64 : S32x577x2304.ShapeCasts S32x577x3x12x64
  transposes_S32x577x3x12x64_S3x32x12x577x64_2_0_3_1_4 : S32x577x3x12x64.Transposes [2, 0, 3, 1, 4] S3x32x12x577x64
  slices_S3x32x12x577x64_S1x32x12x577x64_0_0_0_0_0 : S3x32x12x577x64.Slices ![0, 0, 0, 0, 0] S1x32x12x577x64
  shapeCasts_S1x32x12x577x64_S32x12x577x64 : S1x32x12x577x64.ShapeCasts S32x12x577x64
  slices_S3x32x12x577x64_S1x32x12x577x64_1_0_0_0_0 : S3x32x12x577x64.Slices ![1, 0, 0, 0, 0] S1x32x12x577x64
  slices_S3x32x12x577x64_S1x32x12x577x64_2_0_0_0_0 : S3x32x12x577x64.Slices ![2, 0, 0, 0, 0] S1x32x12x577x64
  slices_S32x12x577x64_S32x12x1x64_0_0_0_0 : S32x12x577x64.Slices ![0, 0, 0, 0] S32x12x1x64
  slices_S32x12x577x64_S32x12x576x64_0_0_1_0 : S32x12x577x64.Slices ![0, 0, 1, 0] S32x12x576x64
  slices_S576x128_S576x64_0_0 : S576x128.Slices ![0, 0] S576x64
  slices_S576x128_S576x64_0_64 : S576x128.Slices ![0, 64] S576x64
  bcast_S576x64_S1x1x576x64_2_3 : S576x64.BroadcastsInDim S1x1x576x64 (![2, 3] : Fin 2 → Fin S1x1x576x64.rank)
  bcast_S1x1x576x64_S32x12x576x64_0_1_2_3 : S1x1x576x64.BroadcastsInDim S32x12x576x64 (![0, 1, 2, 3] : Fin 4 → Fin S32x12x576x64.rank)
  shapeCasts_S32x12x576x64_S32x12x576x32x2 : S32x12x576x64.ShapeCasts S32x12x576x32x2
  slices_S32x12x576x32x2_S32x12x576x32x1_0_0_0_0_1 : S32x12x576x32x2.Slices ![0, 0, 0, 0, 1] S32x12x576x32x1
  shapeCasts_S32x12x576x32x1_S32x12x576x32 : S32x12x576x32x1.ShapeCasts S32x12x576x32
  slices_S32x12x576x32x2_S32x12x576x32x1_0_0_0_0_0 : S32x12x576x32x2.Slices ![0, 0, 0, 0, 0] S32x12x576x32x1
  bcast_S32x12x576x32_S32x12x576x32x1_0_1_2_3 : S32x12x576x32.BroadcastsInDim S32x12x576x32x1 (![0, 1, 2, 3] : Fin 4 → Fin S32x12x576x32x1.rank)
  concatenates_S32x12x576x32x1_S32x12x576x32x1_S32x12x576x32x2_d4 : Shape.Concatenates [S32x12x576x32x1, S32x12x576x32x1] S32x12x576x32x2 4
  shapeCasts_S32x12x576x32x2_S32x12x576x64 : S32x12x576x32x2.ShapeCasts S32x12x576x64
  concatenates_S32x12x1x64_S32x12x576x64_S32x12x577x64_d2 : Shape.Concatenates [S32x12x1x64, S32x12x576x64] S32x12x577x64 2
  bcast_S_S32x12x577x64 : S_.BroadcastsInDim S32x12x577x64 (![] : Fin 0 → Fin S32x12x577x64.rank)
  reducesTo_S32x12x577x577_S32x12x577_d3 : S32x12x577x577.ReducesTo [3] S32x12x577
  h_S_ : 0 < S_.numel
  bcast_S_S32x12x577 : S_.BroadcastsInDim S32x12x577 (![] : Fin 0 → Fin S32x12x577.rank)
  bcast_S32x12x577_S32x12x577x1_0_1_2 : S32x12x577.BroadcastsInDim S32x12x577x1 (![0, 1, 2] : Fin 3 → Fin S32x12x577x1.rank)
  bcast_S32x12x577x1_S32x12x577x577_0_1_2_3 : S32x12x577x1.BroadcastsInDim S32x12x577x577 (![0, 1, 2, 3] : Fin 4 → Fin S32x12x577x577.rank)
  transposes_S32x12x577x64_S32x577x12x64_0_2_1_3 : S32x12x577x64.Transposes [0, 2, 1, 3] S32x577x12x64
  shapeCasts_S32x577x12x64_S32x577x768 : S32x577x12x64.ShapeCasts S32x577x768
  bcast_S768_S1x1x768_2 : S768.BroadcastsInDim S1x1x768 (![2] : Fin 1 → Fin S1x1x768.rank)
  bcast_S1x1x768_S32x577x768_0_1_2 : S1x1x768.BroadcastsInDim S32x577x768 (![0, 1, 2] : Fin 3 → Fin S32x577x768.rank)
  dot_S32x577x768_S2304x768_S32x577x2304_2_1_01_0_n_n_wf : DotDims.WF S32x577x768 S2304x768 S32x577x2304 [2] [1] [0, 1] [0] [] []
  dot_S32x12x577x64_S32x12x577x64_S32x12x577x577_3_3_2_2_01_01_wf : DotDims.WF S32x12x577x64 S32x12x577x64 S32x12x577x577 [3] [3] [2] [2] [0, 1] [0, 1]
  dot_S32x12x577x577_S32x12x577x64_S32x12x577x64_3_2_2_3_01_01_wf : DotDims.WF S32x12x577x577 S32x12x577x64 S32x12x577x64 [3] [2] [2] [3] [0, 1] [0, 1]
  dot_S32x577x768_S768x768_S32x577x768_2_1_01_0_n_n_wf : DotDims.WF S32x577x768 S768x768 S32x577x768 [2] [1] [0, 1] [0] [] []

variable [Facts₀]

def dot_S32x577x768_S2304x768_S32x577x2304_2_1_01_0_n_n : DotDims S32x577x768 S2304x768 S32x577x2304 where
  lhsContracting := [2]
  rhsContracting := [1]
  lhsNonContracting := [0, 1]
  rhsNonContracting := [0]
  lhsBatch := []
  rhsBatch := []
  wf := dot_S32x577x768_S2304x768_S32x577x2304_2_1_01_0_n_n_wf
def dot_S32x12x577x64_S32x12x577x64_S32x12x577x577_3_3_2_2_01_01 : DotDims S32x12x577x64 S32x12x577x64 S32x12x577x577 where
  lhsContracting := [3]
  rhsContracting := [3]
  lhsNonContracting := [2]
  rhsNonContracting := [2]
  lhsBatch := [0, 1]
  rhsBatch := [0, 1]
  wf := dot_S32x12x577x64_S32x12x577x64_S32x12x577x577_3_3_2_2_01_01_wf
def dot_S32x12x577x577_S32x12x577x64_S32x12x577x64_3_2_2_3_01_01 : DotDims S32x12x577x577 S32x12x577x64 S32x12x577x64 where
  lhsContracting := [3]
  rhsContracting := [2]
  lhsNonContracting := [2]
  rhsNonContracting := [3]
  lhsBatch := [0, 1]
  rhsBatch := [0, 1]
  wf := dot_S32x12x577x577_S32x12x577x64_S32x12x577x64_3_2_2_3_01_01_wf
def dot_S32x577x768_S768x768_S32x577x768_2_1_01_0_n_n : DotDims S32x577x768 S768x768 S32x577x768 where
  lhsContracting := [2]
  rhsContracting := [1]
  lhsNonContracting := [0, 1]
  rhsNonContracting := [0]
  lhsBatch := []
  rhsBatch := []
  wf := dot_S32x577x768_S768x768_S32x577x768_2_1_01_0_n_n_wf

class Facts : Prop extends Facts₀ where

variable [Facts]
-- ==== Proof.KKit.lean ====
/-
  The program up to its one kernel region, for any float instance: the contents of every buffer when the region is
  entered (the host operations before it folded over the launch memory), that none of those operations writes an
  argument array, each window's block at a grid point read off its array, that an input window's staging buffer
  holds its block at every point, and the frame statement read off a run that ends with every array of the pipeline
  at what the proof data says and every other buffer as the region found it.
-/
import proofs.«400891_j29738353557841_3_alg».proof.Proof.Gen.Kernel.Launch
import proofs.«400891_j29738353557841_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the eighteen host operations before it. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof data
    whose array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a frame run -/

/-- For any proof data whose arrays are the region-entry contents, a run that ends as the pipeline library says ends
    with the seven argument arrays unchanged: the first is a staged input, the other six are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

end Cert.Kernel.Hand

end
-- ==== Proof.KRun.lean ====
/-
  The kernel body run once, on any whole staging buffers: with the eight input buffers at given contents and the
  output buffer and the two scratch buffers at anything, the body runs to the end without a fault, gives the inputs
  back as they were, leaves the output buffer with a list of stored pieces written into it, and the scratch buffers at
  some contents. The list of pieces is found by running the body: it is the witness of the statement.
-/
import proofs.«400891_j29738353557841_3_alg».proof.Proof.KKit
import proofs.«400891_j29738353557841_3_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two scratch operands: whole scoped buffers of the kernel's own. -/
abbrev scM0 : Memref sig .tc .vmem S577x2304 .f32 := Memref.whole cc0_scratch0
abbrev scM1 : Memref sig .tc .vmem S577x768 .f32 := Memref.whole cc0_scratch1

/-- The region invariant with the scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

set_option maxHeartbeats 4000000 in
/-- The pieces the body's stores leave in the output buffer (last first), with the proof that the body runs. -/
noncomputable def kernelRun0 (c : Dev nD) (i : grid0.Coords) (arg1 : Memref sig .tc .vmem S1x577x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S577x64 .f32) (harg4 : arg4.IsWhole) (arg5 : Memref sig .tc .vmem S577x64 .f32) (harg5 : arg5.IsWhole) (arg6 : Memref sig .tc .vmem S64x64 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x577x768 .f32) (harg9 : arg9.IsWhole) (arg10 : Memref sig .tc .vmem S577x2304 .f32) (harg10 : arg10.IsWhole) (arg11 : Memref sig .tc .vmem S577x768 .f32) (harg11 : arg11.IsWhole)
    (x0 : Vec F S1x577x768 .f32) (x1 : Vec F S768x2304 .bf16) (x2 : Vec F S1x2304 .f32) (x3 x4 : Vec F S577x64 .f32) (x5 : Vec F S64x64 .f32) (x6 : Vec F S768x768 .bf16) (x7 : Vec F S1x768 .f32) :
    { L8 : List (View.Piece (Elt F) S1x577x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} f)
                ∗ (∃ f, arg11.view.loc (c : Thread nD τ) ↦[arg11.view.set]{fullShare} f)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.Kernel.Hand

end
-- ==== Proof.KFrame.lean ====
/-
  The frame of the program: what the body leaves in the output window's staging buffer at a grid point (the stored
  pieces read back, which cover the buffer), the proof data of the pipeline (every input window's buffer keeps its
  block, the output window's holds those contents, the scratch buffers are owned at some contents throughout and
  nothing is owed), the body's obligation at every point, the run of the whole program, and the frame statement.
-/
import proofs.«400891_j29738353557841_3_alg».proof.Proof.KRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated (the choice does not matter). -/
abbrev VO8 : View sig .tc .vmem S1x577x768 .f32 := (Memref.whole cc0_stg8_0 : Memref sig .tc .vmem S1x577x768 .f32).view
/-- Each window's current staging buffer at point `t`, as the pipeline passes it to the body, and its wholeness. -/
abbrev ms0_0 (t : Fin cfg0.N) : Memref sig .tc .vmem S1x577x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x2304 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2304 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S577x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S577x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x577x768 .f32 := win0_8.stage (cfg0.slots t 8)
abbrev hs0_8 (t : Fin cfg0.N) : (ms0_8 t).IsWhole := hstage0_8 ((cfg0.slots t 8).cast nbuf0_8)

/-- The body's stored pieces tile the output buffer, so they cover it. -/
theorem cover0_8 (c : Dev nD) (i : grid0.Coords) (arg1 : Memref sig .tc .vmem S1x577x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S577x64 .f32) (harg4 : arg4.IsWhole) (arg5 : Memref sig .tc .vmem S577x64 .f32) (harg5 : arg5.IsWhole) (arg6 : Memref sig .tc .vmem S64x64 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x577x768 .f32) (harg9 : arg9.IsWhole) (arg10 : Memref sig .tc .vmem S577x2304 .f32) (harg10 : arg10.IsWhole) (arg11 : Memref sig .tc .vmem S577x768 .f32) (harg11 : arg11.IsWhole)
    (x0 : Vec F S1x577x768 .f32) (x1 : Vec F S768x2304 .bf16) (x2 : Vec F S1x2304 .f32) (x3 x4 : Vec F S577x64 .f32) (x5 : Vec F S64x64 .f32) (x6 : Vec F S768x768 .bf16) (x7 : Vec F S1x768 .f32) (y : S1x577x768.Idx) :
    ∃ pc ∈ (kernelRun0 (F := F) c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun0 (F := F) c i arg1 harg1 arg2 harg2 arg3 harg3 arg4 harg4 arg5 harg5 arg6 harg6 arg7 harg7 arg8 harg8 arg9 harg9 arg10 harg10 arg11 harg11 x0 x1 x2 x3 x4 x5 x6 x7).1 S1x577x768.size (by sl_kernel_rfl) y

/-- What the body leaves in the output window's staging buffer: its pieces read back. -/
def out0_8 (c : Dev nD) (i : grid0.Coords) (arg1 : Memref sig .tc .vmem S1x577x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S577x64 .f32) (harg4 : arg4.IsWhole) (arg5 : Memref sig .tc .vmem S577x64 .f32) (harg5 : arg5.IsWhole) (arg6 : Memref sig .tc .vmem S64x64 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x577x768 .f32) (harg9 : arg9.IsWhole) (arg10 : Memref sig .tc .vmem S577x2304 .f32) (harg10 : arg10.IsWhole) (arg11 : Memref sig .tc .vmem S577x768 .f32) (harg11 : arg11.IsWhole)
    (x0 : Vec F S1x577x768 .f32) (x1 : Vec F S768x2304 .bf16) (x2 : Vec F S1x2304 .f32) (x3 x4 : Vec F S577x64 .f32) (x5 : Vec F S64x64 .f32) (x6 : Vec F S768x768 .bf16) (x7 : Vec F S1x768 .f32) : Vec F S1x577x768 .f32 :=
  VO8.read (Elt F) (VO8.writes (Elt F) VO8.junk (kernelRun0 (F := F) c i arg1 harg1 arg2 harg2 arg3 harg3 arg4 harg4 arg5 harg5 arg6 harg6 arg7 harg7 arg8 harg8 arg9 harg9 arg10 harg10 arg11 harg11 x0 x1 x2 x3 x4 x5 x6 x7).1)

/-! ## The pipeline's proof data -/

/-- The proof data on core `c`: the arrays as the region finds them; after the body each input's buffer at its block and
    the output's at what the body left; the invariant the scratch buffers and the generator register at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
/-- The body at any point: the inputs' buffers hold their blocks, so the run applies; the invariant hands the body its scratch
    buffers at anything and takes them back at anything; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, PhiA0_eq]
  unfold out0_8
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 (F := F) c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, ⟨%es0, HS0⟩, ⟨%es1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_8 c _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, faults nowhere and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KIKit.lean ====
/-
  The program up to its one kernel region, for any float instance: the contents of every buffer when the region is
  entered (the host operations before it folded over the launch memory), that none of those operations writes an
  argument array, each window's block at a grid point read off its array, that an input window's staging buffer
  holds its block at every point, and the frame statement read off a run that ends with every array of the pipeline
  at what the proof data says and every other buffer as the region found it.
-/
import proofs.«400891_j29738353557841_3_alg».proof.Proof.Gen.KernelIdeal.Launch
import proofs.«400891_j29738353557841_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the eighteen host operations before it. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof data
    whose array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a frame run -/

/-- For any proof data whose arrays are the region-entry contents, a run that ends as the pipeline library says ends
    with the seven argument arrays unchanged: the first is a staged input, the other six are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

end Cert.KernelIdeal.Hand

end
-- ==== Proof.KIRun.lean ====
/-
  The kernel body run once, on any whole staging buffers: with the eight input buffers at given contents and the
  output buffer and the two scratch buffers at anything, the body runs to the end without a fault, gives the inputs
  back as they were, leaves the output buffer with a list of stored pieces written into it, and the scratch buffers at
  some contents. The list of pieces is found by running the body: it is the witness of the statement.
-/
import proofs.«400891_j29738353557841_3_alg».proof.Proof.KIKit
import proofs.«400891_j29738353557841_3_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two scratch operands: whole scoped buffers of the kernel's own. -/
abbrev scM0 : Memref sig .tc .vmem S577x2304 .f32 := Memref.whole cc0_scratch0
abbrev scM1 : Memref sig .tc .vmem S577x768 .f32 := Memref.whole cc0_scratch1

/-- The region invariant with the scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

set_option maxHeartbeats 4000000 in
/-- The pieces the body's stores leave in the output buffer (last first), with the proof that the body runs. -/
noncomputable def kernelRun0 (c : Dev nD) (i : grid0.Coords) (arg1 : Memref sig .tc .vmem S1x577x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S577x64 .f32) (harg4 : arg4.IsWhole) (arg5 : Memref sig .tc .vmem S577x64 .f32) (harg5 : arg5.IsWhole) (arg6 : Memref sig .tc .vmem S64x64 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x577x768 .f32) (harg9 : arg9.IsWhole) (arg10 : Memref sig .tc .vmem S577x2304 .f32) (harg10 : arg10.IsWhole) (arg11 : Memref sig .tc .vmem S577x768 .f32) (harg11 : arg11.IsWhole)
    (x0 : Vec F S1x577x768 .f32) (x1 : Vec F S768x2304 .bf16) (x2 : Vec F S1x2304 .f32) (x3 x4 : Vec F S577x64 .f32) (x5 : Vec F S64x64 .f32) (x6 : Vec F S768x768 .bf16) (x7 : Vec F S1x768 .f32) :
    { L8 : List (View.Piece (Elt F) S1x577x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} f)
                ∗ (∃ f, arg11.view.loc (c : Thread nD τ) ↦[arg11.view.set]{fullShare} f)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.KernelIdeal.Hand

end
-- ==== Proof.KIFrame.lean ====
/-
  The frame of the program: what the body leaves in the output window's staging buffer at a grid point (the stored
  pieces read back, which cover the buffer), the proof data of the pipeline (every input window's buffer keeps its
  block, the output window's holds those contents, the scratch buffers are owned at some contents throughout and
  nothing is owed), the body's obligation at every point, the run of the whole program, and the frame statement.
-/
import proofs.«400891_j29738353557841_3_alg».proof.Proof.KIRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated (the choice does not matter). -/
abbrev VO8 : View sig .tc .vmem S1x577x768 .f32 := (Memref.whole cc0_stg8_0 : Memref sig .tc .vmem S1x577x768 .f32).view
/-- Each window's current staging buffer at point `t`, as the pipeline passes it to the body, and its wholeness. -/
abbrev ms0_0 (t : Fin cfg0.N) : Memref sig .tc .vmem S1x577x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x2304 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2304 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S577x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S577x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x577x768 .f32 := win0_8.stage (cfg0.slots t 8)
abbrev hs0_8 (t : Fin cfg0.N) : (ms0_8 t).IsWhole := hstage0_8 ((cfg0.slots t 8).cast nbuf0_8)

/-- The body's stored pieces tile the output buffer, so they cover it. -/
theorem cover0_8 (c : Dev nD) (i : grid0.Coords) (arg1 : Memref sig .tc .vmem S1x577x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S577x64 .f32) (harg4 : arg4.IsWhole) (arg5 : Memref sig .tc .vmem S577x64 .f32) (harg5 : arg5.IsWhole) (arg6 : Memref sig .tc .vmem S64x64 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x577x768 .f32) (harg9 : arg9.IsWhole) (arg10 : Memref sig .tc .vmem S577x2304 .f32) (harg10 : arg10.IsWhole) (arg11 : Memref sig .tc .vmem S577x768 .f32) (harg11 : arg11.IsWhole)
    (x0 : Vec F S1x577x768 .f32) (x1 : Vec F S768x2304 .bf16) (x2 : Vec F S1x2304 .f32) (x3 x4 : Vec F S577x64 .f32) (x5 : Vec F S64x64 .f32) (x6 : Vec F S768x768 .bf16) (x7 : Vec F S1x768 .f32) (y : S1x577x768.Idx) :
    ∃ pc ∈ (kernelRun0 (F := F) c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun0 (F := F) c i arg1 harg1 arg2 harg2 arg3 harg3 arg4 harg4 arg5 harg5 arg6 harg6 arg7 harg7 arg8 harg8 arg9 harg9 arg10 harg10 arg11 harg11 x0 x1 x2 x3 x4 x5 x6 x7).1 S1x577x768.size (by sl_kernel_rfl) y

/-- What the body leaves in the output window's staging buffer: its pieces read back. -/
def out0_8 (c : Dev nD) (i : grid0.Coords) (arg1 : Memref sig .tc .vmem S1x577x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S577x64 .f32) (harg4 : arg4.IsWhole) (arg5 : Memref sig .tc .vmem S577x64 .f32) (harg5 : arg5.IsWhole) (arg6 : Memref sig .tc .vmem S64x64 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x577x768 .f32) (harg9 : arg9.IsWhole) (arg10 : Memref sig .tc .vmem S577x2304 .f32) (harg10 : arg10.IsWhole) (arg11 : Memref sig .tc .vmem S577x768 .f32) (harg11 : arg11.IsWhole)
    (x0 : Vec F S1x577x768 .f32) (x1 : Vec F S768x2304 .bf16) (x2 : Vec F S1x2304 .f32) (x3 x4 : Vec F S577x64 .f32) (x5 : Vec F S64x64 .f32) (x6 : Vec F S768x768 .bf16) (x7 : Vec F S1x768 .f32) : Vec F S1x577x768 .f32 :=
  VO8.read (Elt F) (VO8.writes (Elt F) VO8.junk (kernelRun0 (F := F) c i arg1 harg1 arg2 harg2 arg3 harg3 arg4 harg4 arg5 harg5 arg6 harg6 arg7 harg7 arg8 harg8 arg9 harg9 arg10 harg10 arg11 harg11 x0 x1 x2 x3 x4 x5 x6 x7).1)

/-! ## The pipeline's proof data -/

/-- The proof data on core `c`: the arrays as the region finds them; after the body each input's buffer at its block and
    the output's at what the body left; the invariant the scratch buffers and the generator register at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
/-- The body at any point: the inputs' buffers hold their blocks, so the run applies; the invariant hands the body its scratch
    buffers at anything and takes them back at anything; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, PhiA0_eq]
  unfold out0_8
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 (F := F) c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, ⟨%es0, HS0⟩, ⟨%es1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_8 c _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, faults nowhere and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.HeadDef.lean ====
/-
  One attention head as the kernel computes it, from the sine and cosine tables, the rotation matrix and the head's
  query, key and value columns of the fused projection: the two rotations by a matrix product, the rotary
  combination q * cos + (q R) * sin, the query scaled by 0.125, the scores against the transposed key, the row
  softmax (row maximum, exp of the difference, row sum, quotient) and its product with the values.
  Stated for any float instance; the kernel's twelve unrolled heads are this one function at twelve column offsets.
-/
import proofs.«400891_j29738353557841_3_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- One head: `sinv`, `cosv` the tables, `R` the rotation matrix, `q k v` the head's columns. -/
def headK (sinv cosv : FVec F S577x64 .f32) (R : Vec F S64x64 .f32) (q k v : Vec F S577x64 .f32) : FVec F S577x64 .f32 :=
  have rq : FVec F S577x64 .f32 := matmul dot_S577x64_S64x64_S577x64_1_0_0_1_n_n (some .fp32) q R (constant S577x64 .f32 0x00000000#32)
  have rk : FVec F S577x64 .f32 := matmul dot_S577x64_S64x64_S577x64_1_0_0_1_n_n (some .fp32) k R (constant S577x64 .f32 0x00000000#32)
  have qf : FVec F S577x64 .f32 := mulf (addf (mulf q cosv) (mulf rq sinv)) (broadcast S577x64 (Scalar.ofBits .f32 0x3E000000#32))
  have kf : FVec F S577x64 .f32 := addf (mulf k cosv) (mulf rk sinv)
  have qb : FVec F S577x64 .bf16 := truncf .bf16 qf bitsLt_bf16_f32
  have kb : FVec F S577x64 .bf16 := truncf .bf16 kf bitsLt_bf16_f32
  have vb : FVec F S577x64 .bf16 := truncf .bf16 v bitsLt_bf16_f32
  have kt : FVec F S64x577 .bf16 := transpose S64x577 [1, 0] kb transposes_S577x64_p1_0_S64x577
  have s : FVec F S577x577 .f32 := matmul dot_S577x64_S64x577_S577x577_1_0_0_1_n_n none qb kt (constant S577x577 .f32 0x00000000#32)
  have mx : FVec F S577 .f32 := multiReduction .maximumf [1] S577 s 0xFF800000#32 reduces_S577x577_S577 (.inl rfl) rfl
  have p : FVec F S577x577 .f32 := exp (subf s (broadcastTo S577x577 (shapeCast S577x1 mx shapeCasts_S577_S577x1) broadcasts_S577x1_S577x577))
  have l : FVec F S577 .f32 := multiReduction .add [1] S577 p 0x00000000#32 reduces_S577x577_S577 (.inl rfl) rfl
  have a : FVec F S577x577 .f32 := divf p (broadcastTo S577x577 (shapeCast S577x1 l shapeCasts_S577_S577x1) broadcasts_S577x1_S577x577)
  have ab : FVec F S577x577 .bf16 := truncf .bf16 a bitsLt_bf16_f32
  have o : FVec F S577x64 .f32 := matmul dot_S577x577_S577x64_S577x64_1_0_0_1_n_n none ab vb (constant S577x64 .f32 0x00000000#32)
  shapeCast S577x64 o shapeCasts_S577x64_S577x64

end Cert.KernelIdeal.Hand

end
-- ==== Proof.Spec.lean ====
/-
  The mathematics of one attention block, as plain functions on the extended reals over literal index ranges.

  For one batch row x (577 by 768): the fused projection qkv n o = sum over c of x n c * w o c, plus bias o, with the
  bias the concatenation (q_bias, 0, v_bias); its three parts cut into twelve heads of width 64; on every row but the
  first the rotary combination q * cos + rot q * sin, where rot swaps each even/odd pair with a sign and the sine and
  cosine tables are the two halves of rope, shifted by the one prefix row; the query scaled by the word 0.125; the
  scores, sum over d of q n d * k j d; the row softmax written as it is computed (row maximum from minus infinity, exp
  of the difference, row sum, quotient); the weighted sum of the values; and the output projection with its bias.
  Both programs are shown to compute G; nothing here mentions either of them.
-/
import Idealize.ShloMosaic.PureOps.Ideal
import Idealize.ShloMosaic.Lib.ValueIdx

noncomputable section

open scoped BigOperators

namespace Cert.Attn

open Idealize.ShloMosaic Idealize.ShloMosaic.ValueIdx

/-- A matrix of extended reals over literal ranges. -/
abbrev Mat (a b : Nat) := Fin a → Fin b → EReal

/-- The word 0.125 (the scale 64^(-1/2)), the same pattern in both programs. -/
def eighth : EReal := Ideal.ofBits .f32 0x3E000000#32
/-- The word minus infinity a row maximum starts from. -/
def negInf : EReal := Ideal.ofBits .f32 0xFF800000#32
/-- The zero word. -/
def zeroW : EReal := Ideal.ofBits .f32 0x00000000#32
/-- The word 1.0. -/
def oneW : EReal := Ideal.ofBits .f32 0x3F800000#32

/-- The fused bias: q_bias, then 768 zeros (the key has no bias), then v_bias. -/
def bias3 (qb vb : Fin 768 → EReal) : Fin 2304 → EReal := fun o =>
  if h : o.val < 768 then qb ⟨o.val, h⟩
  else if h2 : o.val < 1536 then zeroW
  else vb ⟨o.val - 1536, by have := o.isLt; omega⟩

/-- The fused query/key/value projection of one batch row. -/
def qkv (x : Mat 577 768) (w : Mat 2304 768) (b : Fin 2304 → EReal) : Mat 577 2304 :=
  fun n o => (∑ c : Fin 768, x n c * w o c) + b o

/-- Part s (0 query, 1 key, 2 value) of head h: columns 768 s + 64 h + d. -/
def part (A : Mat 577 2304) (s : Fin 3) (h : Fin 12) : Mat 577 64 :=
  fun n d => A n ⟨s.val * 768 + h.val * 64 + d.val, by have := s.isLt; have := h.isLt; have := d.isLt; omega⟩

/-- The pair rotation: entry 2k becomes minus entry 2k+1, entry 2k+1 becomes entry 2k. -/
def rot (q : Mat 577 64) : Mat 577 64 := fun n d =>
  if h : d.val % 2 = 0 then -(q n ⟨d.val + 1, by have := d.isLt; omega⟩)
  else q n ⟨d.val - 1, by have := d.isLt; omega⟩

/-- The rotary embedding: row 0 (the prefix token) untouched; row n at least 1 is q * cos + rot q * sin with the sine
    the first half and the cosine the second half of row n - 1 of rope. -/
def roped (rope : Mat 576 128) (q : Mat 577 64) : Mat 577 64 := fun n d =>
  if h : n.val = 0 then q n d
  else q n d * rope ⟨n.val - 1, by have := n.isLt; omega⟩ ⟨64 + d.val, by have := d.isLt; omega⟩
     + rot q n d * rope ⟨n.val - 1, by have := n.isLt; omega⟩ ⟨d.val, by have := d.isLt; omega⟩

/-- The query scaled by 0.125. -/
def scaled (q : Mat 577 64) : Mat 577 64 := fun n d => q n d * eighth

/-- The attention scores of one head. -/
def scores (q k : Mat 577 64) : Mat 577 577 := fun n j => ∑ d : Fin 64, q n d * k j d

/-- A row's maximum, from minus infinity. -/
def rowMax (s : Mat 577 577) : Fin 577 → EReal :=
  fun n => (Finset.univ : Finset (Fin 577)).fold max negInf (s n)

/-- The exponentials of a row's entries less its maximum. -/
def pexp (s : Mat 577 577) : Mat 577 577 := fun n j => Ideal.exp (s n j - rowMax s n)

/-- A row's sum. -/
def rowSum (p : Mat 577 577) : Fin 577 → EReal := fun n => ∑ j : Fin 577, p n j

/-- The row softmax. -/
def attn (s : Mat 577 577) : Mat 577 577 := fun n j => Ideal.div (pexp s n j) (rowSum (pexp s) n)

/-- One head's output: the softmax of the scores applied to the values. -/
def headOut (q k v : Mat 577 64) : Mat 577 64 :=
  fun n d => ∑ j : Fin 577, attn (scores q k) n j * v j d

/-- One head of one batch row, from the fused projection A. -/
def headOf (rope : Mat 576 128) (A : Mat 577 2304) (h : Fin 12) : Mat 577 64 :=
  headOut (scaled (roped rope (part A 0 h))) (roped rope (part A 1 h)) (part A 2 h)

/-- The twelve heads side by side: column c is entry c % 64 of head c / 64. -/
def attnOut (x : Mat 577 768) (rope : Mat 576 128) (w : Mat 2304 768) (qb vb : Fin 768 → EReal) : Mat 577 768 :=
  fun n c => headOf rope (qkv x w (bias3 qb vb)) ⟨c.val / 64, by have := c.isLt; omega⟩ n ⟨c.val % 64, Nat.mod_lt _ (by decide)⟩

/-- The output projection. -/
def proj (O : Mat 577 768) (pw : Mat 768 768) (pb : Fin 768 → EReal) : Mat 577 768 :=
  fun n o => (∑ c : Fin 768, O n c * pw o c) + pb o

/-- The whole block on a batch of 32 rows. -/
def G (x : Fin 32 → Mat 577 768) (rope : Mat 576 128) (w : Mat 2304 768) (qb vb : Fin 768 → EReal)
    (pw : Mat 768 768) (pb : Fin 768 → EReal) : Fin 32 → Mat 577 768 :=
  fun b => proj (attnOut (x b) rope w qb vb) pw pb

/-! ## The kernel's spelling of the rotary tables -/

/-- The rotation matrix: entry (2k, 2k+1) is 1, entry (2k+1, 2k) is -1, every other entry 0, so that the product of a
    row with it is the pair rotation of the row. -/
def Rmat (a b : Fin 64) : EReal :=
  if a.val % 2 = 0 ∧ b.val = a.val + 1 then 1
  else if b.val % 2 = 0 ∧ a.val = b.val + 1 then -1
  else 0

/-- The sine table with its prefix row: row 0 is zero, row n at least 1 is the first half of row n - 1 of rope. -/
def sinT (rope : Mat 576 128) : Mat 577 64 := fun n d =>
  if h : n.val = 0 then zeroW else rope ⟨n.val - 1, by have := n.isLt; omega⟩ ⟨d.val, by have := d.isLt; omega⟩

/-- The cosine table with its prefix row: row 0 is one, row n at least 1 is the second half of row n - 1 of rope. -/
def cosT (rope : Mat 576 128) : Mat 577 64 := fun n d =>
  if h : n.val = 0 then oneW else rope ⟨n.val - 1, by have := n.isLt; omega⟩ ⟨64 + d.val, by have := d.isLt; omega⟩

/-- The rotary combination on every row, against tables that carry the prefix row themselves. -/
def ropeK (q s c : Mat 577 64) : Mat 577 64 := fun n d => q n d * c n d + rot q n d * s n d

/-- The product of a row with the rotation matrix, as a sum. -/
def rotSum (q : Mat 577 64) : Mat 577 64 := fun n d => ∑ j : Fin 64, q n j * Rmat j d

/-! ## The same on arrays indexed by shape indices -/

abbrev Sx : Shape := ⟨3, ![32, 577, 768]⟩
abbrev Srope : Shape := ⟨2, ![576, 128]⟩
abbrev Sw : Shape := ⟨2, ![2304, 768]⟩
abbrev Sb : Shape := ⟨1, ![768]⟩
abbrev Spw : Shape := ⟨2, ![768, 768]⟩

/-- A rank-2 array as a matrix. -/
def mat2 {a b : Nat} (X : (⟨2, ![a, b]⟩ : Shape).Idx → EReal) : Mat a b := fun i j => X (ix2 i j)
/-- A rank-1 array as a vector. -/
def vec1 {a : Nat} (X : (⟨1, ![a]⟩ : Shape).Idx → EReal) : Fin a → EReal := fun i => X (ix1 i)
/-- A rank-3 array as a family of matrices. -/
def mat3 {a b c : Nat} (X : (⟨3, ![a, b, c]⟩ : Shape).Idx → EReal) : Fin a → Mat b c := fun i j k => X (ix3 i j k)

/-- G on the seven argument arrays, as an array. -/
def Garr (X : Sx.Idx → EReal) (ROPE : Srope.Idx → EReal) (W : Sw.Idx → EReal) (QB VB : Sb.Idx → EReal)
    (PW : Spw.Idx → EReal) (PB : Sb.Idx → EReal) : Sx.Idx → EReal :=
  fun i => G (mat3 X) (mat2 ROPE) (mat2 W) (vec1 QB) (vec1 VB) (mat2 PW) (vec1 PB) (i 0) (i 1) (i 2)

theorem Garr_apply (X : Sx.Idx → EReal) (ROPE : Srope.Idx → EReal) (W : Sw.Idx → EReal) (QB VB : Sb.Idx → EReal)
    (PW : Spw.Idx → EReal) (PB : Sb.Idx → EReal) (b : Fin 32) (n : Fin 577) (o : Fin 768) :
    Garr X ROPE W QB VB PW PB (ix3 b n o) = G (mat3 X) (mat2 ROPE) (mat2 W) (vec1 QB) (vec1 VB) (mat2 PW) (vec1 PB) b n o := rfl

end Cert.Attn

end
-- ==== Proof.KPay.lean ====
/-
  The kernel's named payloads: the fused projection and the output projection read at an index over the extended
  reals, each a sum over the contraction axis plus a bias row; and each of the twelve heads' stored values, spelt through
  the payload names as the printed body cuts them, is the one head function at that head's three loads.
-/
import proofs.«400891_j29738353557841_3_alg».proof.Proof.HeadDef
import proofs.«400891_j29738353557841_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.TcCoe Idealize.SL.Sem Cert.KernelIdeal Cert.KernelIdeal.Gen
open Idealize.ShloMosaic.ValueIdx Cert.Attn

/-! ## The two projections' operand indices, axis by axis

For a product of a [577, 768] matrix with a [768, m] matrix, at the output index (n, o) and contraction position k the
left operand is read at (n, k) and the right at (k, o). -/

private theorem lhs_qkv_0 (i : S577x2304.Idx) (q : dot_S577x768_S768x2304_S577x2304_1_0_0_1_n_n.contr.Idx) :
    (dot_S577x768_S768x2304_S577x2304_1_0_0_1_n_n.lhsIdx i q 0).val = (i 0).val := by
  unfold DotDims.lhsIdx
  rw [dif_neg (show ¬(0 : Fin S577x768.rank) ∈ dot_S577x768_S768x2304_S577x2304_1_0_0_1_n_n.lhsBatch by decide), dif_pos (show (0 : Fin S577x768.rank) ∈ dot_S577x768_S768x2304_S577x2304_1_0_0_1_n_n.lhsNonContracting by decide)]
  rfl
private theorem lhs_qkv_1 (i : S577x2304.Idx) (q : dot_S577x768_S768x2304_S577x2304_1_0_0_1_n_n.contr.Idx) :
    (dot_S577x768_S768x2304_S577x2304_1_0_0_1_n_n.lhsIdx i q 1).val = (q ⟨0, by decide⟩).val :=
  dot_S577x768_S768x2304_S577x2304_1_0_0_1_n_n.lhsIdx_val_of_single rfl i q
private theorem rhs_qkv_0 (i : S577x2304.Idx) (q : dot_S577x768_S768x2304_S577x2304_1_0_0_1_n_n.contr.Idx) :
    (dot_S577x768_S768x2304_S577x2304_1_0_0_1_n_n.rhsIdx i q 0).val = (q ⟨0, by decide⟩).val :=
  dot_S577x768_S768x2304_S577x2304_1_0_0_1_n_n.rhsIdx_val_of_single rfl i q
private theorem rhs_qkv_1 (i : S577x2304.Idx) (q : dot_S577x768_S768x2304_S577x2304_1_0_0_1_n_n.contr.Idx) :
    (dot_S577x768_S768x2304_S577x2304_1_0_0_1_n_n.rhsIdx i q 1).val = (i 1).val := by
  unfold DotDims.rhsIdx
  rw [dif_neg (show ¬(1 : Fin S768x2304.rank) ∈ dot_S577x768_S768x2304_S577x2304_1_0_0_1_n_n.rhsBatch by decide), dif_pos (show (1 : Fin S768x2304.rank) ∈ dot_S577x768_S768x2304_S577x2304_1_0_0_1_n_n.rhsNonContracting by decide)]
  rfl

private theorem lhs_proj_0 (i : S577x768.Idx) (q : dot_S577x768_S768x768_S577x768_1_0_0_1_n_n.contr.Idx) :
    (dot_S577x768_S768x768_S577x768_1_0_0_1_n_n.lhsIdx i q 0).val = (i 0).val := by
  unfold DotDims.lhsIdx
  rw [dif_neg (show ¬(0 : Fin S577x768.rank) ∈ dot_S577x768_S768x768_S577x768_1_0_0_1_n_n.lhsBatch by decide), dif_pos (show (0 : Fin S577x768.rank) ∈ dot_S577x768_S768x768_S577x768_1_0_0_1_n_n.lhsNonContracting by decide)]
  rfl
private theorem lhs_proj_1 (i : S577x768.Idx) (q : dot_S577x768_S768x768_S577x768_1_0_0_1_n_n.contr.Idx) :
    (dot_S577x768_S768x768_S577x768_1_0_0_1_n_n.lhsIdx i q 1).val = (q ⟨0, by decide⟩).val :=
  dot_S577x768_S768x768_S577x768_1_0_0_1_n_n.lhsIdx_val_of_single rfl i q
private theorem rhs_proj_0 (i : S577x768.Idx) (q : dot_S577x768_S768x768_S577x768_1_0_0_1_n_n.contr.Idx) :
    (dot_S577x768_S768x768_S577x768_1_0_0_1_n_n.rhsIdx i q 0).val = (q ⟨0, by decide⟩).val :=
  dot_S577x768_S768x768_S577x768_1_0_0_1_n_n.rhsIdx_val_of_single rfl i q
private theorem rhs_proj_1 (i : S577x768.Idx) (q : dot_S577x768_S768x768_S577x768_1_0_0_1_n_n.contr.Idx) :
    (dot_S577x768_S768x768_S577x768_1_0_0_1_n_n.rhsIdx i q 1).val = (i 1).val := by
  unfold DotDims.rhsIdx
  rw [dif_neg (show ¬(1 : Fin S768x768.rank) ∈ dot_S577x768_S768x768_S577x768_1_0_0_1_n_n.rhsBatch by decide), dif_pos (show (1 : Fin S768x768.rank) ∈ dot_S577x768_S768x768_S577x768_1_0_0_1_n_n.rhsNonContracting by decide)]
  rfl

/-- The fused projection's payload at (n, o): the leading unit axis of x is dropped, the rounding to the narrow format
    is the identity on the extended reals, the product into the zero accumulator is the plain sum over the 768
    contraction positions, and the bias row is repeated on every row. -/
theorem pay3_apply (x0 : Vec Ideal S1x577x768 .f32) (x1 : Vec Ideal S768x2304 .bf16) (x2 : Vec Ideal S1x2304 .f32) (n : Fin 577) (o : Fin 2304) :
    k0_pay3 (F := Ideal) x0 x1 x2 (ix2 n o) = (∑ c : Fin 768, x0 (ix3 (0 : Fin 1) n c) * x1 (ix2 c o)) + x2 (ix2 (0 : Fin 1) o) := by
  unfold k0_pay3
  simp only [shapeCast_self]
  rw [addf_apply]
  simp only [matmul]
  rw [Ideal.matmul_constant_zero_apply, broadcastTo_1b_ab_apply,
    ← Equiv.sum_comp (contrEquiv1 dot_S577x768_S768x2304_S577x2304_1_0_0_1_n_n 768 rfl rfl).symm]
  refine congrArg (· + x2 (ix2 (0 : Fin 1) o)) (Finset.sum_congr rfl fun k _ => ?_)
  have hk := contrEquiv1_symm_val dot_S577x768_S768x2304_S577x2304_1_0_0_1_n_n 768 rfl rfl k
  have el : dot_S577x768_S768x2304_S577x2304_1_0_0_1_n_n.lhsIdx (ix2 n o) ((contrEquiv1 dot_S577x768_S768x2304_S577x2304_1_0_0_1_n_n 768 rfl rfl).symm k) = ix2 n k := funext fun a => Fin.ext (by
    match a with
    | ⟨0, _⟩ => exact lhs_qkv_0 _ _
    | ⟨1, _⟩ => exact (lhs_qkv_1 _ _).trans hk)
  have er : dot_S577x768_S768x2304_S577x2304_1_0_0_1_n_n.rhsIdx (ix2 n o) ((contrEquiv1 dot_S577x768_S768x2304_S577x2304_1_0_0_1_n_n 768 rfl rfl).symm k) = ix2 k o := funext fun a => Fin.ext (by
    match a with
    | ⟨0, _⟩ => exact (rhs_qkv_0 _ _).trans hk
    | ⟨1, _⟩ => exact rhs_qkv_1 _ _)
  rw [el, er, truncf_apply, shapeCast_1ab_ab_apply]

/-- The output projection's payload at (0, n, o): the same sum over the 768 contraction positions plus the bias row,
    read through the leading unit axis the result is given. -/
theorem pay2_apply (O : Vec Ideal S577x768 .f32) (x6 : Vec Ideal S768x768 .bf16) (x7 : Vec Ideal S1x768 .f32) (n : Fin 577) (o : Fin 768) :
    k0_pay2 (F := Ideal) O x6 x7 (ix3 (0 : Fin 1) n o) = (∑ c : Fin 768, O (ix2 n c) * x6 (ix2 c o)) + x7 (ix2 (0 : Fin 1) o) := by
  unfold k0_pay2
  simp only [shapeCast_self]
  rw [shapeCast_ab_1ab_apply, addf_apply]
  simp only [matmul]
  rw [Ideal.matmul_constant_zero_apply, broadcastTo_1b_ab_apply,
    ← Equiv.sum_comp (contrEquiv1 dot_S577x768_S768x768_S577x768_1_0_0_1_n_n 768 rfl rfl).symm]
  refine congrArg (· + x7 (ix2 (0 : Fin 1) o)) (Finset.sum_congr rfl fun k _ => ?_)
  have hk := contrEquiv1_symm_val dot_S577x768_S768x768_S577x768_1_0_0_1_n_n 768 rfl rfl k
  have el : dot_S577x768_S768x768_S577x768_1_0_0_1_n_n.lhsIdx (ix2 n o) ((contrEquiv1 dot_S577x768_S768x768_S577x768_1_0_0_1_n_n 768 rfl rfl).symm k) = ix2 n k := funext fun a => Fin.ext (by
    match a with
    | ⟨0, _⟩ => exact lhs_proj_0 _ _
    | ⟨1, _⟩ => exact (lhs_proj_1 _ _).trans hk)
  have er : dot_S577x768_S768x768_S577x768_1_0_0_1_n_n.rhsIdx (ix2 n o) ((contrEquiv1 dot_S577x768_S768x768_S577x768_1_0_0_1_n_n 768 rfl rfl).symm k) = ix2 k o := funext fun a => Fin.ext (by
    match a with
    | ⟨0, _⟩ => exact (rhs_proj_0 _ _).trans hk
    | ⟨1, _⟩ => exact rhs_proj_1 _ _)
  rw [el, er, truncf_apply]

/-! ## The twelve heads -/

variable {F : FTy → Type} [FloatOps F]

/-- Head 0 (stored by part 2, its query and key roped in part 1). -/
theorem head0_eq (v13 v15 : Vec F S577x64 .f32) (v17 : Vec F S64x64 .f32) (v18 v19 v20 : Vec F S577x64 .f32) :
    k0_pay8 v20 (k0_pay6 v13 v15 v17 v18) (k0_pay7 v13 v15 v17 v19) = headK (k0_pay4 v13) (k0_pay5 v15) v17 v18 v19 v20 := rfl

/-- Head 1. -/
theorem head1_eq (v14 v16 : FVec F S577x64 .f32) (v17 : Vec F S64x64 .f32) (v50 v51 v52 : Vec F S577x64 .f32) :
    k0_pay12 (k0_pay9 v52) (k0_pay10 v14 v16 v17 v50 v51) (k0_pay11 v14 v16 v17 v50 v51) = headK v14 v16 v17 v50 v51 v52 := rfl

/-- Head 2. -/
theorem head2_eq (v14 v16 : FVec F S577x64 .f32) (v17 : Vec F S64x64 .f32) (v82 v83 v84 : Vec F S577x64 .f32) :
    k0_pay13 v14 v16 v17 v82 v83 v84 = headK v14 v16 v17 v82 v83 v84 := rfl

/-- Head 3 (stored by part 4 at column 192, from its own three loads). -/
theorem head3_eq (v14 v16 : FVec F S577x64 .f32) (v17 : Vec F S64x64 .f32) (v114 v115 v116 : Vec F S577x64 .f32) :
    k0_pay14 v14 v16 v17 v114 v115 v116 = headK v14 v16 v17 v114 v115 v116 := rfl

/-- Head 4 (stored by part 5 at column 256; part 4 loads its columns, rotates the query and hands on the zero
    accumulator). -/
theorem head4_eq (v14 v16 : FVec F S577x64 .f32) (v17 : Vec F S64x64 .f32) (v146 v147 v148 : Vec F S577x64 .f32) :
    k0_pay16 v14 v16 v17 v146 v147 v148 (k0_pay15 v17 v146) (constant S577x64 .f32 0x00000000#32)
      = headK v14 v16 v17 v146 v147 v148 := rfl

/-- Head 5 (stored by part 6 at column 320; part 5 loads its columns and forms the rotary query and key). -/
theorem head5_eq (v14 v16 : FVec F S577x64 .f32) (v17 : Vec F S64x64 .f32) (v178 v179 v180 : Vec F S577x64 .f32) :
    k0_pay19 v180 (k0_pay17 v14 v16 v17 v178) (k0_pay18 v14 v16 v17 v179) = headK v14 v16 v17 v178 v179 v180 := rfl

/-- Head 6 (stored by part 7 at column 384; part 6 loads its columns and forms the exponentials and their row
    sums). -/
theorem head6_eq (v14 v16 : FVec F S577x64 .f32) (v17 : Vec F S64x64 .f32) (v210 v211 v212 : Vec F S577x64 .f32) :
    k0_pay23 (k0_pay20 v212) (k0_pay21 v14 v16 v17 v210 v211) (k0_pay22 v14 v16 v17 v210 v211)
      = headK v14 v16 v17 v210 v211 v212 := rfl

/-- Head 7 (stored by part 7 at column 448, from its own three loads). -/
theorem head7_eq (v14 v16 : FVec F S577x64 .f32) (v17 : Vec F S64x64 .f32) (v242 v243 v244 : Vec F S577x64 .f32) :
    k0_pay24 v14 v16 v17 v242 v243 v244 = headK v14 v16 v17 v242 v243 v244 := rfl

/-- Head 8 (stored by part 8 at column 512, from its own three loads). -/
theorem head8_eq (v14 v16 : FVec F S577x64 .f32) (v17 : Vec F S64x64 .f32) (v274 v275 v276 : Vec F S577x64 .f32) :
    k0_pay25 v14 v16 v17 v274 v275 v276 = headK v14 v16 v17 v274 v275 v276 := rfl

/-- Head 9 (stored by part 9 at column 576; part 8 loads its columns, rotates the query and hands on the zero
    accumulator). -/
theorem head9_eq (v14 v16 : FVec F S577x64 .f32) (v17 : Vec F S64x64 .f32) (v306 v307 v308 : Vec F S577x64 .f32) :
    k0_pay27 v14 v16 v17 v306 v307 v308 (k0_pay26 v17 v306) (constant S577x64 .f32 0x00000000#32)
      = headK v14 v16 v17 v306 v307 v308 := rfl

/-- Head 10 (stored by part 10 at column 640; part 9 loads its columns and forms the rotary query and key). -/
theorem head10_eq (v14 v16 : FVec F S577x64 .f32) (v17 : Vec F S64x64 .f32) (v338 v339 v340 : Vec F S577x64 .f32) :
    k0_pay30 v340 (k0_pay28 v14 v16 v17 v338) (k0_pay29 v14 v16 v17 v339) = headK v14 v16 v17 v338 v339 v340 := rfl

/-- Head 11 (stored by the kernel's last stretch at column 704; part 10 loads its columns and forms the exponentials
    and their row sums). -/
theorem head11_eq (v14 v16 : FVec F S577x64 .f32) (v17 : Vec F S64x64 .f32) (v370 v371 v372 : Vec F S577x64 .f32) :
    k0_pay1 (k0_pay31 v372) (k0_pay32 v14 v16 v17 v370 v371) (k0_pay33 v14 v16 v17 v370 v371)
      = headK v14 v16 v17 v370 v371 v372 := rfl

end Cert.KernelIdeal.Hand

end
-- ==== Proof.KHead.lean ====
/-
  One head of the kernel read at an index over the extended reals: the product with the rotation matrix is the pair
  rotation, so the head is the softmax of the scaled roped query against the roped key, applied to the values; and the
  rotary combination against tables that carry the prefix row (zero sine, unit cosine) leaves that row untouched.
-/
import proofs.«400891_j29738353557841_3_alg».proof.Proof.HeadDef
import proofs.«400891_j29738353557841_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.TcCoe Idealize.SL.Sem Cert.KernelIdeal Cert.KernelIdeal.Gen
open Idealize.ShloMosaic.ValueIdx Cert.Attn

/-! ## The rotation matrix -/

/-- The product of a row with the rotation matrix is the pair rotation of the row. -/
theorem rotSum_eq_rot (q : Mat 577 64) : rotSum q = rot q := by
  funext n d
  unfold rotSum rot
  by_cases h : d.val % 2 = 0
  · rw [dif_pos h]
    have hd : d.val + 1 < 64 := by have := d.isLt; omega
    rw [Finset.sum_eq_single (⟨d.val + 1, hd⟩ : Fin 64)]
    · have e : Rmat ⟨d.val + 1, hd⟩ d = -1 := by
        unfold Rmat
        rw [if_neg (by dsimp only; omega), if_pos ⟨h, rfl⟩]
      rw [e, mul_neg, mul_one]
    · intro j _ hj
      have e : Rmat j d = 0 := by
        unfold Rmat
        rw [if_neg (by omega), if_neg (by intro ⟨_, h2⟩; exact hj (Fin.ext h2))]
      rw [e, mul_zero]
    · intro h'; exact absurd (Finset.mem_univ _) h'
  · rw [dif_neg h]
    have hd : d.val - 1 < 64 := by have := d.isLt; omega
    rw [Finset.sum_eq_single (⟨d.val - 1, hd⟩ : Fin 64)]
    · have e : Rmat ⟨d.val - 1, hd⟩ d = 1 := by
        unfold Rmat
        rw [if_pos ⟨by dsimp only; omega, by dsimp only; omega⟩]
      rw [e, mul_one]
    · intro j _ hj
      have e : Rmat j d = 0 := by
        unfold Rmat
        rw [if_neg (by intro ⟨_, h2⟩; exact hj (Fin.ext (by dsimp only; omega))), if_neg (by omega)]
      rw [e, mul_zero]
    · intro h'; exact absurd (Finset.mem_univ _) h'

/-- A plain product (rows by contraction times contraction by columns) into the zero accumulator, read at (a, b), is the
    sum over the contracted coordinate of the products of the entries. -/
theorem plainMatmul_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The three products -/

/-- The rotation product read at (n, d). -/
theorem rotMatmul_apply (q : FVec Ideal S577x64 .f32) (R : FVec Ideal S64x64 .f32) (n : Fin 577) (d : Fin 64) :
    matmul (F := Ideal) dot_S577x64_S64x64_S577x64_1_0_0_1_n_n (some .fp32) q R (constant S577x64 .f32 0x00000000#32) (ix2 n d)
      = ∑ c : Fin 64, q (ix2 n c) * R (ix2 c d) :=
  plainMatmul_apply dot_S577x64_S64x64_S577x64_1_0_0_1_n_n_wf (some .fp32) q R n d

/-- The scores product against the transposed key, read at (n, j). -/
theorem scoresK_apply (qb kb : FVec Ideal S577x64 .bf16) (n j : Fin 577) :
    matmul (F := Ideal) dot_S577x64_S64x577_S577x577_1_0_0_1_n_n none qb
        (transpose S64x577 [1, 0] kb transposes_S577x64_p1_0_S64x577) (constant S577x577 .f32 0x00000000#32) (ix2 n j)
      = ∑ c : Fin 64, qb (ix2 n c) * kb (ix2 j c) := by
  refine (plainMatmul_apply dot_S577x64_S64x577_S577x577_1_0_0_1_n_n_wf none qb _ n j).trans ?_
  exact Finset.sum_congr rfl fun c _ => by rw [transpose_ix2_apply]

/-- The product with the values, read at (n, d). -/
theorem outK_apply (ab : FVec Ideal S577x577 .bf16) (vb : FVec Ideal S577x64 .bf16) (n : Fin 577) (d : Fin 64) :
    matmul (F := Ideal) dot_S577x577_S577x64_S577x64_1_0_0_1_n_n none ab vb (constant S577x64 .f32 0x00000000#32) (ix2 n d)
      = ∑ j : Fin 577, ab (ix2 n j) * vb (ix2 j d) :=
  plainMatmul_apply dot_S577x577_S577x64_S577x64_1_0_0_1_n_n_wf none ab vb n d

/-! ## The row reductions and the column they are broadcast from -/

/-- A row's maximum from minus infinity. -/
theorem rowMaxK_apply (s : FVec Ideal S577x577 .f32) (hφ : FKind.Formats .f32)
    (hacc : (0xFF800000#32 : BitVec FTy.f32.bits) = FKind.maximumf.neutral .f32 hφ) (n : Fin 577) :
    multiReduction (F := Ideal) .maximumf [1] S577 s 0xFF800000#32 reduces_S577x577_S577 hφ hacc (ix1 n)
      = (Finset.univ : Finset (Fin 577)).fold max negInf (fun j => s (ix2 n j)) := by
  refine (Ideal.multiReduction_maximumf_single s _ reduces_S577x577_S577 hφ hacc (ix1 n)).trans ?_
  have e : (s ∘ reduces_S577x577_S577.lift (ix1 n)) = fun j : Fin 577 => s (ix2 n j) :=
    funext fun k => congrArg s (funext fun c => Fin.ext (match c with | ⟨0, _⟩ => rfl | ⟨1, _⟩ => rfl))
  rw [e]; rfl

/-- A row's sum. -/
theorem rowSumK_apply (p : FVec Ideal S577x577 .f32) (hφ : FKind.Formats .f32)
    (hacc : (0x00000000#32 : BitVec FTy.f32.bits) = FKind.add.neutral .f32 hφ) (n : Fin 577) :
    multiReduction (F := Ideal) .add [1] S577 p 0x00000000#32 reduces_S577x577_S577 hφ hacc (ix1 n)
      = ∑ j : Fin 577, p (ix2 n j) := by
  refine (Ideal.multiReduction_add_single p _ reduces_S577x577_S577 hφ hacc (ix1 n)).trans ?_
  exact Finset.sum_congr rfl fun k _ =>
    congrArg p (funext fun c => Fin.ext (match c with | ⟨0, _⟩ => rfl | ⟨1, _⟩ => rfl))

/-- A vector made a column and broadcast along the rows reads, at (n, j), the vector at n. -/
theorem keepdims_apply (v : FVec Ideal S577 .f32) (n j : Fin 577) :
    broadcastTo S577x577 (shapeCast S577x1 v shapeCasts_S577_S577x1) broadcasts_S577x1_S577x577 (ix2 n j) = v (ix1 n) := by
  refine (broadcastTo_apply _ broadcasts_S577x1_S577x577 (ix2 n j) (ix2 n (0 : Fin 1)) fun a => ?_).trans ?_
  · match a with
    | ⟨0, _⟩ => rfl
    | ⟨1, _⟩ => rfl
  · exact shapeCast_apply v shapeCasts_S577_S577x1 (ix2 n (0 : Fin 1)) (ix1 n) (by
      rw [Shape.rowMajor_val_two, Shape.rowMajor_val_one]
      show n.val = n.val * 1 + 0
      omega)
/-! ## The softmax of a score block -/

/-- The kernel's row maxima of a score block. -/
def mxK (s : FVec Ideal S577x577 .f32) : FVec Ideal S577 .f32 :=
  multiReduction .maximumf [1] S577 s 0xFF800000#32 reduces_S577x577_S577 (.inl rfl) rfl
/-- The exponentials of the entries less their row's maximum. -/
def pK (s : FVec Ideal S577x577 .f32) : FVec Ideal S577x577 .f32 :=
  exp (subf s (broadcastTo S577x577 (shapeCast S577x1 (mxK s) shapeCasts_S577_S577x1) broadcasts_S577x1_S577x577))
/-- Their row sums. -/
def lK (s : FVec Ideal S577x577 .f32) : FVec Ideal S577 .f32 :=
  multiReduction .add [1] S577 (pK s) 0x00000000#32 reduces_S577x577_S577 (.inl rfl) rfl
/-- The quotients. -/
def aK (s : FVec Ideal S577x577 .f32) : FVec Ideal S577x577 .f32 :=
  divf (pK s) (broadcastTo S577x577 (shapeCast S577x1 (lK s) shapeCasts_S577_S577x1) broadcasts_S577x1_S577x577)

section Softmax
variable (s : FVec Ideal S577x577 .f32) (S : Mat 577 577) (hs : ∀ n j : Fin 577, s (ix2 n j) = S n j)
include hs

theorem mxK_apply (n : Fin 577) : mxK s (ix1 n) = rowMax S n := by
  unfold mxK rowMax
  refine (rowMaxK_apply s _ _ n).trans ?_
  rw [show (fun j : Fin 577 => s (ix2 n j)) = S n from funext (hs n)]

theorem pK_apply (n j : Fin 577) : pK s (ix2 n j) = pexp S n j := by
  show Ideal.exp (s (ix2 n j) - broadcastTo S577x577 (shapeCast S577x1 (mxK s) shapeCasts_S577_S577x1) broadcasts_S577x1_S577x577 (ix2 n j))
    = Ideal.exp (S n j - rowMax S n)
  rw [keepdims_apply, mxK_apply s S hs, hs]

theorem lK_apply (n : Fin 577) : lK s (ix1 n) = rowSum (pexp S) n := by
  unfold lK rowSum
  refine (rowSumK_apply (pK s) _ _ n).trans ?_
  exact Finset.sum_congr rfl fun j _ => pK_apply s S hs n j

theorem aK_apply (n j : Fin 577) : aK s (ix2 n j) = attn S n j := by
  show Ideal.div (pK s (ix2 n j)) (broadcastTo S577x577 (shapeCast S577x1 (lK s) shapeCasts_S577_S577x1) broadcasts_S577x1_S577x577 (ix2 n j))
    = Ideal.div (pexp S n j) (rowSum (pexp S) n)
  rw [keepdims_apply, lK_apply s S hs, pK_apply s S hs]

end Softmax

/-! ## The rotary combination -/

/-- The rotation product against the rotation matrix is the pair rotation. -/
theorem rotK_apply (q : FVec Ideal S577x64 .f32) (R : FVec Ideal S64x64 .f32) (hR : ∀ a b : Fin 64, R (ix2 a b) = Rmat a b)
    (n : Fin 577) (d : Fin 64) :
    matmul (F := Ideal) dot_S577x64_S64x64_S577x64_1_0_0_1_n_n (some .fp32) q R (constant S577x64 .f32 0x00000000#32) (ix2 n d)
      = rot (mat2 q) n d := by
  rw [rotMatmul_apply, ← rotSum_eq_rot]
  exact Finset.sum_congr rfl fun c _ => by rw [hR]; rfl

/-- The rotary combination of a block with its rotation, read at (n, d). -/
theorem ropeStage_apply (q sinv cosv rq : FVec Ideal S577x64 .f32) (hrq : ∀ (n : Fin 577) (d : Fin 64), rq (ix2 n d) = rot (mat2 q) n d)
    (n : Fin 577) (d : Fin 64) :
    addf (mulf q cosv) (mulf rq sinv) (ix2 n d) = ropeK (mat2 q) (mat2 sinv) (mat2 cosv) n d := by
  show q (ix2 n d) * cosv (ix2 n d) + rq (ix2 n d) * sinv (ix2 n d) = _
  rw [hrq]; rfl

/-! ## One head -/

/-- One head at (n, d): the spec's head of the scaled roped query, the roped key and the values. -/
theorem headK_apply (sinv cosv : FVec Ideal S577x64 .f32) (R : Vec Ideal S64x64 .f32) (q k v : Vec Ideal S577x64 .f32)
    (hR : ∀ a b : Fin 64, R (ix2 a b) = Rmat a b) (n : Fin 577) (d : Fin 64) :
    headK (F := Ideal) sinv cosv R q k v (ix2 n d)
      = headOut (scaled (ropeK (mat2 q) (mat2 sinv) (mat2 cosv))) (ropeK (mat2 k) (mat2 sinv) (mat2 cosv)) (mat2 v) n d := by
  unfold headK
  rw [shapeCast_self]
  refine (outK_apply _ _ n d).trans ?_
  unfold headOut
  refine Finset.sum_congr rfl fun j _ => ?_
  refine congrArg₂ (· * ·) ?_ rfl
  refine aK_apply _ _ (fun n j => ?_) n j
  refine (scoresK_apply _ _ n j).trans ?_
  unfold scores
  refine Finset.sum_congr rfl fun c _ => ?_
  refine congrArg₂ (· * ·) ?_ ?_
  · exact congrArg (· * eighth) (ropeStage_apply q sinv cosv _ (rotK_apply q R hR) n c)
  · exact ropeStage_apply k sinv cosv _ (rotK_apply k R hR) j c

/-! ## The tables with their prefix row -/

/-- Against the tables with their prefix row the rotary combination is the one that skips row 0. -/
theorem ropeK_tables (rope : Mat 576 128) (q : Mat 577 64) : ropeK q (sinT rope) (cosT rope) = roped rope q := by
  funext n d
  unfold ropeK roped sinT cosT
  by_cases h : n.val = 0
  · simp only [dif_pos h]
    have h1 : oneW = 1 := IdealRules.sign_bit.ideal_onePat .f32
    have h0 : zeroW = 0 := Ideal.ofBits_zero_f32
    rw [h1, h0, mul_one, mul_zero, add_zero]
  · simp only [dif_neg h]

end Cert.KernelIdeal.Hand

end
-- ==== Proof.KOutSpec.lean ====
/-
  The output block of one grid point as one function of the eight input blocks: the fused projection's payload, its
  query, key and value column slabs of each of the twelve heads fed to the head function, the heads laid side by side,
  and the output projection's payload; and, read at an index over the extended reals under what the blocks hold, the
  spec's row: the projection of the attention output of that batch row.
-/
import proofs.«400891_j29738353557841_3_alg».proof.Proof.KPay
import proofs.«400891_j29738353557841_3_alg».proof.Proof.KHead

noncomputable section

open scoped BigOperators

namespace Cert.KernelIdeal.Hand

open Idealize.ShloMosaic Idealize.ShloMosaic.TcCoe Idealize.SL.Sem Cert.KernelIdeal Cert.KernelIdeal.Gen
open Idealize.ShloMosaic.ValueIdx Cert.Attn

section Generic
variable {F : FTy → Type} [FloatOps F]

/-- The 64 columns of a 577 × 2304 array that start at column `off`. -/
def cols (A : Vec F S577x2304 .f32) (off : Nat) (hoff : off + 64 ≤ 2304) : Vec F S577x64 .f32 :=
  fun j => A (ix2 (⟨(j 0).val, idx2_lt0 j⟩ : Fin 577) (⟨off + (j 1).val, by have := idx2_lt1 j; omega⟩ : Fin 2304))

/-- Head `h` of the fused projection `A`: the head function at the head's three column slabs. -/
def headAt (sinv cosv : FVec F S577x64 .f32) (R : Vec F S64x64 .f32) (A : Vec F S577x2304 .f32) (h : Fin 12) : FVec F S577x64 .f32 :=
  headK sinv cosv R (cols A (64 * h.val) (by have := h.isLt; omega)) (cols A (768 + 64 * h.val) (by have := h.isLt; omega))
    (cols A (1536 + 64 * h.val) (by have := h.isLt; omega))

/-- The twelve heads side by side: column `c` is entry `c % 64` of head `c / 64`. -/
def heads (sinv cosv : FVec F S577x64 .f32) (R : Vec F S64x64 .f32) (A : Vec F S577x2304 .f32) : Vec F S577x768 .f32 :=
  fun j => headAt sinv cosv R A ⟨(j 1).val / 64, by have := idx2_lt1 j; omega⟩
    (ix2 (⟨(j 0).val, idx2_lt0 j⟩ : Fin 577) (⟨(j 1).val % 64, Nat.mod_lt _ (by decide)⟩ : Fin 64))

/-- The output block from the eight input blocks. -/
def OutSpec (x0 : Vec F S1x577x768 .f32) (x1 : Vec F S768x2304 .bf16) (x2 : Vec F S1x2304 .f32) (x3 x4 : Vec F S577x64 .f32)
    (x5 : Vec F S64x64 .f32) (x6 : Vec F S768x768 .bf16) (x7 : Vec F S1x768 .f32) : Vec F S1x577x768 .f32 :=
  k0_pay2 (heads (k0_pay4 x3) (k0_pay5 x4) x5 (k0_pay3 x0 x1 x2)) x6 x7

end Generic

/-! ## The pieces, read over the extended reals -/

/-- A column slab as a matrix: entry (n, d) is the array's entry (n, off + d). -/
theorem mat2_cols (A : Vec Ideal S577x2304 .f32) (off : Nat) (hoff : off + 64 ≤ 2304) (n : Fin 577) (d : Fin 64) :
    mat2 (cols A off hoff) n d = A (ix2 n (⟨off + d.val, by have := d.isLt; omega⟩ : Fin 2304)) := rfl

/-- The slab that starts at column 768 s + 64 h of an array that holds Q is part s of head h of Q. -/
theorem cols_part (A : Vec Ideal S577x2304 .f32) (Q : Mat 577 2304) (hA : ∀ (n : Fin 577) (o : Fin 2304), A (ix2 n o) = Q n o)
    (s : Fin 3) (h : Fin 12) (off : Nat) (hoff : off + 64 ≤ 2304) (he : off = s.val * 768 + h.val * 64) :
    mat2 (cols A off hoff) = part Q s h := by
  subst he
  funext n d
  exact hA n _

/-- The fused projection's payload holds the spec's fused projection. -/
theorem pay3_qkv (x0 : Vec Ideal S1x577x768 .f32) (x1 : Vec Ideal S768x2304 .bf16) (x2 : Vec Ideal S1x2304 .f32)
    (X : Mat 577 768) (W : Mat 2304 768) (QB VB : Fin 768 → EReal)
    (h0 : ∀ (n : Fin 577) (c : Fin 768), x0 (ix3 (0 : Fin 1) n c) = X n c)
    (h1 : ∀ (c : Fin 768) (o : Fin 2304), x1 (ix2 c o) = W o c)
    (h2 : ∀ o : Fin 2304, x2 (ix2 (0 : Fin 1) o) = bias3 QB VB o) (n : Fin 577) (o : Fin 2304) :
    k0_pay3 (F := Ideal) x0 x1 x2 (ix2 n o) = qkv X W (bias3 QB VB) n o := by
  rw [pay3_apply, h2]
  exact congrArg (· + bias3 QB VB o) (Finset.sum_congr rfl fun c _ => by rw [h0, h1])

/-- The sine block, passed through an identity cast, is the sine table. -/
theorem mat2_pay4 (x3 : Vec Ideal S577x64 .f32) (rope : Mat 576 128)
    (h3 : ∀ (n : Fin 577) (d : Fin 64), x3 (ix2 n d) = sinT rope n d) : mat2 (k0_pay4 (F := Ideal) x3) = sinT rope := by
  funext n d
  show k0_pay4 (F := Ideal) x3 (ix2 n d) = _
  unfold k0_pay4
  rw [shapeCast_self]
  exact h3 n d

/-- The cosine block likewise. -/
theorem mat2_pay5 (x4 : Vec Ideal S577x64 .f32) (rope : Mat 576 128)
    (h4 : ∀ (n : Fin 577) (d : Fin 64), x4 (ix2 n d) = cosT rope n d) : mat2 (k0_pay5 (F := Ideal) x4) = cosT rope := by
  funext n d
  show k0_pay5 (F := Ideal) x4 (ix2 n d) = _
  unfold k0_pay5
  rw [shapeCast_self]
  exact h4 n d

/-- Head h of an array that holds Q, against the tables and the rotation matrix, is the spec's head h of Q. -/
theorem headAt_apply (x3 x4 : Vec Ideal S577x64 .f32) (x5 : Vec Ideal S64x64 .f32) (A : Vec Ideal S577x2304 .f32)
    (rope : Mat 576 128) (Q : Mat 577 2304)
    (h3 : ∀ (n : Fin 577) (d : Fin 64), x3 (ix2 n d) = sinT rope n d)
    (h4 : ∀ (n : Fin 577) (d : Fin 64), x4 (ix2 n d) = cosT rope n d)
    (h5 : ∀ a b : Fin 64, x5 (ix2 a b) = Rmat a b)
    (hA : ∀ (n : Fin 577) (o : Fin 2304), A (ix2 n o) = Q n o) (h : Fin 12) (n : Fin 577) (d : Fin 64) :
    headAt (F := Ideal) (k0_pay4 x3) (k0_pay5 x4) x5 A h (ix2 n d) = headOf rope Q h n d := by
  unfold headAt
  rw [headK_apply _ _ _ _ _ _ h5, mat2_pay4 x3 rope h3, mat2_pay5 x4 rope h4, ropeK_tables, ropeK_tables,
    cols_part A Q hA 0 h _ _ (by show 64 * h.val = 0 * 768 + h.val * 64; omega),
    cols_part A Q hA 1 h _ _ (by show 768 + 64 * h.val = 1 * 768 + h.val * 64; omega),
    cols_part A Q hA 2 h _ _ (by show 1536 + 64 * h.val = 2 * 768 + h.val * 64; omega)]
  rfl

/-- The heads side by side at (n, c): entry c % 64 of the spec's head c / 64. -/
theorem heads_apply (x3 x4 : Vec Ideal S577x64 .f32) (x5 : Vec Ideal S64x64 .f32) (A : Vec Ideal S577x2304 .f32)
    (rope : Mat 576 128) (Q : Mat 577 2304)
    (h3 : ∀ (n : Fin 577) (d : Fin 64), x3 (ix2 n d) = sinT rope n d)
    (h4 : ∀ (n : Fin 577) (d : Fin 64), x4 (ix2 n d) = cosT rope n d)
    (h5 : ∀ a b : Fin 64, x5 (ix2 a b) = Rmat a b)
    (hA : ∀ (n : Fin 577) (o : Fin 2304), A (ix2 n o) = Q n o) (n : Fin 577) (c : Fin 768) :
    heads (F := Ideal) (k0_pay4 x3) (k0_pay5 x4) x5 A (ix2 n c)
      = headOf rope Q ⟨c.val / 64, by have := c.isLt; omega⟩ n ⟨c.val % 64, Nat.mod_lt _ (by decide)⟩ :=
  headAt_apply x3 x4 x5 A rope Q h3 h4 h5 hA ⟨c.val / 64, by have := c.isLt; omega⟩ n ⟨c.val % 64, Nat.mod_lt _ (by decide)⟩

/-- The output block at (0, n, o), given what the eight blocks hold: the batch row `X`, the transposed weights, the fused
    bias row, the sine and cosine tables, the rotation matrix and the output bias row. -/
theorem OutSpec_apply (x0 : Vec Ideal S1x577x768 .f32) (x1 : Vec Ideal S768x2304 .bf16) (x2 : Vec Ideal S1x2304 .f32) (x3 x4 : Vec Ideal S577x64 .f32)
    (x5 : Vec Ideal S64x64 .f32) (x6 : Vec Ideal S768x768 .bf16) (x7 : Vec Ideal S1x768 .f32)
    (X : Mat 577 768) (rope : Mat 576 128) (W : Mat 2304 768) (QB VB : Fin 768 → EReal) (PW : Mat 768 768) (PB : Fin 768 → EReal)
    (h0 : ∀ (n : Fin 577) (c : Fin 768), x0 (ix3 (0 : Fin 1) n c) = X n c)
    (h1 : ∀ (c : Fin 768) (o : Fin 2304), x1 (ix2 c o) = W o c)
    (h2 : ∀ o : Fin 2304, x2 (ix2 (0 : Fin 1) o) = bias3 QB VB o)
    (h3 : ∀ (n : Fin 577) (d : Fin 64), x3 (ix2 n d) = sinT rope n d)
    (h4 : ∀ (n : Fin 577) (d : Fin 64), x4 (ix2 n d) = cosT rope n d)
    (h5 : ∀ a b : Fin 64, x5 (ix2 a b) = Rmat a b)
    (h6 : ∀ c o : Fin 768, x6 (ix2 c o) = PW o c)
    (h7 : ∀ o : Fin 768, x7 (ix2 (0 : Fin 1) o) = PB o)
    (n : Fin 577) (o : Fin 768) :
    OutSpec (F := Ideal) x0 x1 x2 x3 x4 x5 x6 x7 (ix3 (0 : Fin 1) n o) = proj (attnOut X rope W QB VB) PW PB n o := by
  unfold OutSpec
  rw [pay2_apply, h7]
  show _ = (∑ c : Fin 768, attnOut X rope W QB VB n c * PW o c) + PB o
  refine congrArg (· + PB o) (Finset.sum_congr rfl fun c _ => ?_)
  rw [h6, heads_apply x3 x4 x5 _ rope (qkv X W (bias3 QB VB)) h3 h4 h5 (pay3_qkv x0 x1 x2 X W QB VB h0 h1 h2) n c]
  rfl

end Cert.KernelIdeal.Hand

end
-- ==== Proof.KIOut.lean ====
/-
  The contents the body leaves in the output window's staging buffer are the output block of the eight input blocks:
  the one stored piece is the output projection's payload of the second scratch buffer read back after its twelve
  column stores, each the head function of three column loads of the first scratch buffer after its one whole store.
-/
import proofs.«400891_j29738353557841_3_alg».proof.Proof.KIFrame
import proofs.«400891_j29738353557841_3_alg».proof.Proof.KOutSpec

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen Idealize.ShloMosaic.ValueIdx

variable {F : FTy → Type} [FloatOps F]

/-- The zero offsets of a rank-2 and of a rank-3 shape, spelt as literals. -/
theorem zero2 : (![0, 0] : Fin 2 → Nat) = fun _ => 0 := by funext a; fin_cases a <;> rfl
theorem zero3 : (![0, 0, 0] : Fin 3 → Nat) = fun _ => 0 := by funext a; fin_cases a <;> rfl

/-- A 64-column box of a buffer that holds one whole stored block reads those columns of the block. -/
theorem readCov_cols {sig' : RefSig} {κ : Kind} {sp : Space} (v : View sig' κ sp S577x2304 .f32) (A : Vec F S577x2304 .f32) (off : Nat)
    (inb0 : ∀ a, (![0, 0] : Fin 2 → Nat) a + (![577, 2304] : Fin 2 → Nat) a ≤ S577x2304.size a)
    (inb : ∀ a, (![0, off] : Fin 2 → Nat) a + (![577, 64] : Fin 2 → Nat) a ≤ S577x2304.size a) (hoff : off + 64 ≤ 2304) :
    v.readCov [(⟨Rect.unit ![0, 0] ![577, 2304] inb0, A⟩ : View.Piece (Elt F) S577x2304 .f32)]
        (Rect.unit ![0, off] ![577, 64] inb).toLoadRect
      = cols A off hoff := by
  rw [View.readCov_eq_canon']
  funext j
  rw [View.canon_unit_zero (S := S577x2304) zero2]
  unfold cols
  refine congrArg A (funext fun a => Fin.ext ?_)
  match a with
  | ⟨0, _⟩ => show 0 + 1 * (j 0).val = (j 0).val; omega
  | ⟨1, _⟩ => show off + 1 * (j 1).val = off + (j 1).val; omega

/-- The heads side by side, at an index in head h's columns, read head h. -/
theorem heads_at (S C : FVec F S577x64 .f32) (R : Vec F S64x64 .f32) (A : Vec F S577x2304 .f32) (h : Fin 12)
    (y : S577x768.Idx) (a : Fin 577) (b : Fin 64) (h0 : (y 0).val = a.val) (h1 : (y 1).val = 64 * h.val + b.val) :
    heads S C R A y = headAt S C R A h (ix2 a b) := by
  unfold heads
  have eh : (⟨(y 1).val / 64, by have := idx2_lt1 y; omega⟩ : Fin 12) = h :=
    Fin.ext (by show (y 1).val / 64 = h.val; have := b.isLt; omega)
  have ea : (⟨(y 0).val, idx2_lt0 y⟩ : Fin 577) = a := Fin.ext h0
  have eb : (⟨(y 1).val % 64, Nat.mod_lt _ (by decide)⟩ : Fin 64) = b :=
    Fin.ext (by show (y 1).val % 64 = b.val; have := b.isLt; omega)
  rw [eh, ea, eb]

/-- A stored piece at head h's columns whose value is head h is a block of the heads side by side. -/
theorem piece_ok (S C : FVec F S577x64 .f32) (R : Vec F S64x64 .f32) (A : Vec F S577x2304 .f32) (h : Fin 12) (off : Nat)
    (inb : ∀ a, (![0, off] : Fin 2 → Nat) a + (![577, 64] : Fin 2 → Nat) a ≤ S577x768.size a)
    (w : (Rect.unit (s := S577x768) ![0, off] ![577, 64] inb).shape.Idx → Elt F .f32)
    (hoff : off = 64 * h.val) (hw : w = headAt S C R A h) (x : (Rect.unit (s := S577x768) ![0, off] ![577, 64] inb).shape.Idx) :
    w x = heads S C R A ((Rect.unit (s := S577x768) ![0, off] ![577, 64] inb).emb x) := by
  subst hw hoff
  rw [heads_at S C R A h _ (x 0) (x 1) (by show 0 + 1 * (x 0).val = (x 0).val; omega)
    (by show 64 * h.val + 1 * (x 1).val = 64 * h.val + (x 1).val; omega)]
  exact congrArg (headAt S C R A h) (eq_ix2 (n0 := 577) (n1 := 64) x)

/-- What the body leaves in the output buffer is the output block of the input blocks. -/
theorem out0_8_eq (c : Dev nD) (i : grid0.Coords) (arg1 : Memref sig .tc .vmem S1x577x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S577x64 .f32) (harg4 : arg4.IsWhole) (arg5 : Memref sig .tc .vmem S577x64 .f32) (harg5 : arg5.IsWhole) (arg6 : Memref sig .tc .vmem S64x64 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x577x768 .f32) (harg9 : arg9.IsWhole) (arg10 : Memref sig .tc .vmem S577x2304 .f32) (harg10 : arg10.IsWhole) (arg11 : Memref sig .tc .vmem S577x768 .f32) (harg11 : arg11.IsWhole)
    (x0 : Vec F S1x577x768 .f32) (x1 : Vec F S768x2304 .bf16) (x2 : Vec F S1x2304 .f32) (x3 x4 : Vec F S577x64 .f32) (x5 : Vec F S64x64 .f32) (x6 : Vec F S768x768 .bf16) (x7 : Vec F S1x768 .f32) :
    out0_8 (F := F) c i arg1 harg1 arg2 harg2 arg3 harg3 arg4 harg4 arg5 harg5 arg6 harg6 arg7 harg7 arg8 harg8 arg9 harg9 arg10 harg10 arg11 harg11 x0 x1 x2 x3 x4 x5 x6 x7 = OutSpec x0 x1 x2 x3 x4 x5 x6 x7 := by
  unfold out0_8
  rw [View.read_writes_eq_canon _ _ _ (cover0_8 c i arg1 harg1 arg2 harg2 arg3 harg3 arg4 harg4 arg5 harg5 arg6 harg6 arg7 harg7 arg8 harg8 arg9 harg9 arg10 harg10 arg11 harg11 x0 x1 x2 x3 x4 x5 x6 x7)]
  unfold kernelRun0
  dsimp only
  sl_unfold_run_names
  rw [View.canon_unit_zero zero3]
  simp only [View.readAt_eq_ld, harg1.read_unread, harg2.read_unread, harg3.read_unread, harg4.read_unread, harg5.read_unread,
    harg6.read_unread, harg7.read_unread, harg8.read_unread,
    View.ld_unit_zero (S := S768x768) zero2, View.ld_unit_zero (S := S1x768) zero2, View.ld_unit_zero (S := S1x577x768) zero3,
    View.ld_unit_zero (S := S768x2304) zero2, View.ld_unit_zero (S := S1x2304) zero2, View.ld_unit_zero (S := S577x64) zero2,
    View.ld_unit_zero (S := S64x64) zero2]
  unfold OutSpec
  refine congrArg (fun O => k0_pay2 O x6 x7) ?_
  simp (disch := omega) only [readCov_cols]
  rw [View.readCov_eq_canon']
  funext y
  have hy : (Rect.unit ![0, 0] ![577, 768] inb_S577x768_S577x768_0_0).toLoadRect.idx y = y :=
    funext fun a => Fin.ext (match a with
      | ⟨0, _⟩ => by show 0 + 1 * (y 0).val = (y 0).val; omega
      | ⟨1, _⟩ => by show 0 + 1 * (y 1).val = (y 1).val; omega)
  rw [hy]
  refine View.canon_apply_of_pieces (heads (k0_pay4 x3) (k0_pay5 x4) x5 (k0_pay3 x0 x1 x2)) _ ?_ y
    (View.cover_of_tiledL _ ![577, 64] (by sl_kernel_rfl) y)
  intro p hp
  simp only [List.mem_cons, List.mem_singleton, List.not_mem_nil, or_false] at hp
  rcases hp with rfl | rfl | rfl | rfl | rfl | rfl | rfl | rfl | rfl | rfl | rfl | rfl
  · exact piece_ok _ _ _ _ (⟨11, by decide⟩ : Fin 12) 704 inb_S577x768_S577x64_0_704 _ rfl ((head11_eq _ _ _ _ _ _).trans rfl)
  · exact piece_ok _ _ _ _ (⟨10, by decide⟩ : Fin 12) 640 inb_S577x768_S577x64_0_640 _ rfl ((head10_eq _ _ _ _ _ _).trans rfl)
  · exact piece_ok _ _ _ _ (⟨9, by decide⟩ : Fin 12) 576 inb_S577x768_S577x64_0_576 _ rfl ((head9_eq _ _ _ _ _ _).trans rfl)
  · exact piece_ok _ _ _ _ (⟨8, by decide⟩ : Fin 12) 512 inb_S577x768_S577x64_0_512 _ rfl ((head8_eq _ _ _ _ _ _).trans rfl)
  · exact piece_ok _ _ _ _ (⟨7, by decide⟩ : Fin 12) 448 inb_S577x768_S577x64_0_448 _ rfl ((head7_eq _ _ _ _ _ _).trans rfl)
  · exact piece_ok _ _ _ _ (⟨6, by decide⟩ : Fin 12) 384 inb_S577x768_S577x64_0_384 _ rfl ((head6_eq _ _ _ _ _ _).trans rfl)
  · exact piece_ok _ _ _ _ (⟨5, by decide⟩ : Fin 12) 320 inb_S577x768_S577x64_0_320 _ rfl ((head5_eq _ _ _ _ _ _).trans rfl)
  · exact piece_ok _ _ _ _ (⟨4, by decide⟩ : Fin 12) 256 inb_S577x768_S577x64_0_256 _ rfl ((head4_eq _ _ _ _ _ _).trans rfl)
  · exact piece_ok _ _ _ _ (⟨3, by decide⟩ : Fin 12) 192 inb_S577x768_S577x64_0_192 _ rfl ((head3_eq _ _ _ _ _ _).trans rfl)
  · exact piece_ok _ _ _ _ (⟨2, by decide⟩ : Fin 12) 128 inb_S577x768_S577x64_0_128 _ rfl ((head2_eq _ _ _ _ _ _).trans rfl)
  · exact piece_ok _ _ _ _ (⟨1, by decide⟩ : Fin 12) 64 inb_S577x768_S577x64_0_64 _ rfl ((head1_eq _ _ _ _ _ _).trans rfl)
  · exact piece_ok _ _ _ _ (⟨0, by decide⟩ : Fin 12) 0 inb_S577x768_S577x64_0_0 _ rfl ((head0_eq _ _ _ _ _ _).trans rfl)

end Cert.KernelIdeal.Hand

end
-- ==== Proof.LibNary3.lean ====
/-
  A straight-line host operation over a literal family of THREE references: its result with each operand's contents
  read at its own reference, so that the operands' contents can go on being rewritten.
-/
import Idealize.ShloMosaic.Lib.StableHlo.Run

noncomputable section

namespace Idealize.ShloMosaic.StableHlo

variable {nD : Nat} {τ : Topo} {sig : RefSig} {Val : EltTy → Type}
variable {x a b y : Ref sig .tc}

/-- The result of an n-ary operation over the three literal references `![x, a, b]`, at its result buffer: its
    function applied to the family whose entry `k` is the contents at the `k`-th reference, written as a literal
    `Fin.cons` chain in place of a function of `k` (the three-reference analogue of the four-reference lemma). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KHost.lean ====
/-
  What the host operations before the kernel region leave in the arrays its windows stage, read at an index over the
  extended reals: the two weights transposed (the change of format is the identity), the fused bias as one row, the
  sine and cosine tables with their prefix row, the rotation matrix's entries, and the projection bias as one row.
-/
import proofs.«400891_j29738353557841_3_alg».proof.Proof.KIKit
import proofs.«400891_j29738353557841_3_alg».proof.Proof.Spec
import proofs.«400891_j29738353557841_3_alg».proof.Proof.LibNary3
import Idealize.ShloMosaic.Lib.Pipeline.Value
import Idealize.ShloMosaic.Lib.StableHlo.Run
import Idealize.ShloMosaic.Lib.ValueLayout
import Idealize.ShloMosaic.PureOps.IdealRules
import Idealize.ShloMosaic.PureOps.Ideal.Laws

noncomputable section

open scoped BigOperators

namespace Cert.KernelIdeal.Hand

open Idealize.ShloMosaic Idealize.ShloMosaic.TcCoe Idealize.SL.Sem Cert.KernelIdeal Cert.KernelIdeal.Gen
open Idealize.ShloMosaic.ValueIdx Cert.Attn

/-! ## The fused bias: three vectors laid end to end -/

/-- The results of a straight line of host operations, a three-reference operation read at its three references. -/
local macro "after_results3" : tactic =>
  `(tactic| (simp only [StableHlo.after_cons, StableHlo.after_nil]
             repeat (first
               | rw [StableHlo.nullary_result] | rw [StableHlo.unary_result] | rw [StableHlo.binary_result]
               | rw [StableHlo.reshape_result] | rw [StableHlo.nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-- Three vectors of 768 laid end to end, read at an index: the vector whose span holds it, at the index less the
    spans before. -/
theorem concat3_apply (x0 x1 x2 : S768.Idx → EReal) (o : Fin 2304) :
    concatenate S2304 0 [⟨S768, x0⟩, ⟨S768, x1⟩, ⟨S768, x2⟩] concatenates_S768_S768_S768_S2304_d0 (ix1 o)
      = if h : o.val < 768 then x0 (ix1 (⟨o.val, h⟩ : Fin 768))
        else if h2 : o.val < 1536 then x1 (ix1 (⟨o.val - 768, by omega⟩ : Fin 768))
        else x2 (ix1 (⟨o.val - 1536, by have := o.isLt; omega⟩ : Fin 768)) := by
  by_cases h1 : o.val < 768
  · rw [dif_pos h1]
    exact concatenate_apply_piece (t := S2304) (0 : Fin 1) [⟨S768, x0⟩, ⟨S768, x1⟩, ⟨S768, x2⟩] concatenates_S768_S768_S768_S2304_d0 (ix1 o)
      0 (by show (0 : ℕ) < 3; omega) S768 x0 rfl rfl 0 rfl (ix1 (⟨o.val, h1⟩ : Fin 768))
      (fun b => match b with | ⟨0, _⟩ => fun hb => absurd rfl hb)
      (by show 0 + o.val = o.val; omega)
  · rw [dif_neg h1]
    by_cases h2 : o.val < 1536
    · rw [dif_pos h2]
      exact concatenate_apply_piece (t := S2304) (0 : Fin 1) [⟨S768, x0⟩, ⟨S768, x1⟩, ⟨S768, x2⟩] concatenates_S768_S768_S768_S2304_d0 (ix1 o)
        1 (by show (1 : ℕ) < 3; omega) S768 x1 rfl rfl 768 rfl (ix1 (⟨o.val - 768, by omega⟩ : Fin 768))
        (fun b => match b with | ⟨0, _⟩ => fun hb => absurd rfl hb)
        (by show 768 + (o.val - 768) = o.val; omega)
    · rw [dif_neg h2]
      exact concatenate_apply_piece (t := S2304) (0 : Fin 1) [⟨S768, x0⟩, ⟨S768, x1⟩, ⟨S768, x2⟩] concatenates_S768_S768_S768_S2304_d0 (ix1 o)
        2 (by show (2 : ℕ) < 3; omega) S768 x2 rfl rfl 1536 rfl (ix1 (⟨o.val - 1536, by have := o.isLt; omega⟩ : Fin 768))
        (fun b => match b with | ⟨0, _⟩ => fun hb => absurd rfl hb)
        (by show 1536 + (o.val - 1536) = o.val; omega)

/-! ## The rotation matrix: the literal table's words and what they denote -/

/-- The rotation matrix's words: 1.0 at (2k, 2k+1), -1.0 at (2k+1, 2k), the zero word elsewhere. -/
def Rword (a b : Fin 64) : BitVec 32 :=
  if a.val % 2 = 0 ∧ b.val = a.val + 1 then 0x3F800000#32
  else if b.val % 2 = 0 ∧ a.val = b.val + 1 then 0xBF800000#32
  else 0x00000000#32

set_option maxRecDepth 100000 in
/-- The literal table, entry by entry, is the rotation matrix's words in row-major order. -/
theorem lit0_eq : ∀ a b : Fin 64, lit0 ⟨64 * a.val + b.val, by have := a.isLt; have := b.isLt; omega⟩ = Rword a b := by decide +kernel

/-- The three words as extended reals. -/
theorem ofBits_Rword (a b : Fin 64) : Ideal.ofBits .f32 (Rword a b) = Rmat a b := by
  unfold Rword Rmat
  by_cases h1 : a.val % 2 = 0 ∧ b.val = a.val + 1
  · rw [if_pos h1, if_pos h1]
    exact IdealRules.sign_bit.ideal_onePat .f32
  · rw [if_neg h1, if_neg h1]
    by_cases h2 : b.val % 2 = 0 ∧ a.val = b.val + 1
    · rw [if_pos h2, if_pos h2]
      exact IdealRules.sign_bit.ideal_negOnePat .f32
    · rw [if_neg h2, if_neg h2]
      exact Ideal.ofBits_zero_f32

variable (m : (ℓ : Loc nD τ sig) → Buf (Elt Ideal) ℓ)

/-- The projection weight as the kernel's window finds it: transposed. -/
theorem V_v4_apply (c : Dev nD) (a : Fin 768) (o : Fin 2304) :
    (V (F := Ideal) m c main_v4 : S768x2304.Idx → EReal) (ix2 a o) = ((m ((c : Thread nD τ).loc main_arg2)) : S2304x768.Idx → EReal) (ix2 o a) := by
  have e : (V (F := Ideal) m c main_v4 : S768x2304.Idx → EReal)
      = truncf (F := Ideal) .bf16 (transpose S768x2304 [1, 0] ((m ((c : Thread nD τ).loc main_arg2)) : S2304x768.Idx → EReal) transposes_S2304x768_S768x2304_1_0) bitsLt_bf16_f32 := by
    dsimp only [V, hostOps0]; after_results; try rfl
  rw [e]
  exact transpose_ix2_apply _ _ a o

/-- The fused bias as one row. -/
theorem V_v2_apply (c : Dev nD) (o : Fin 2304) :
    (V (F := Ideal) m c main_v2 : S1x2304.Idx → EReal) (ix2 (0 : Fin 1) o)
      = bias3 (vec1 ((m ((c : Thread nD τ).loc main_arg3)) : S768.Idx → EReal)) (vec1 ((m ((c : Thread nD τ).loc main_arg4)) : S768.Idx → EReal)) o := by
  have e : (V (F := Ideal) m c main_v2 : S1x2304.Idx → EReal)
      = shapeCast S1x2304 (concatenate S2304 0
          [⟨S768, ((m ((c : Thread nD τ).loc main_arg3)) : S768.Idx → EReal)⟩,
           ⟨S768, broadcastInDim S768 ![] bcast_S_S768 (constant (F := Ideal) S_ .f32 0x00000000#32)⟩,
           ⟨S768, ((m ((c : Thread nD τ).loc main_arg4)) : S768.Idx → EReal)⟩]
          concatenates_S768_S768_S768_S2304_d0) shapeCasts_S2304_S1x2304 := by
    dsimp only [V, hostOps0]; after_results3; try rfl
  rw [e]
  refine (shapeCast_a_1a_apply _ shapeCasts_S2304_S1x2304 0 o).trans ?_
  rw [concat3_apply]
  unfold bias3
  by_cases h1 : o.val < 768
  · rw [dif_pos h1, dif_pos h1]; rfl
  · rw [dif_neg h1, dif_neg h1]
    by_cases h2 : o.val < 1536
    · rw [dif_pos h2, dif_pos h2]
      refine (broadcastInDim_apply _ bcast_S_S768 _ _ ix0 (fun a => a.elim0)).trans ?_
      rfl
    · rw [dif_neg h2, dif_neg h2]; rfl

/-- The sine table with its zero prefix row. -/
theorem V_v8_apply (c : Dev nD) (n : Fin 577) (d : Fin 64) :
    (V (F := Ideal) m c main_v8 : S577x64.Idx → EReal) (ix2 n d) = sinT (mat2 ((m ((c : Thread nD τ).loc main_arg1)) : S576x128.Idx → EReal)) n d := by
  have e : (V (F := Ideal) m c main_v8 : S577x64.Idx → EReal)
      = concatenate S577x64 0
          [⟨S1x64, broadcastInDim S1x64 ![] bcast_S_S1x64 (constant (F := Ideal) S_ .f32 0x00000000#32)⟩,
           ⟨S576x64, extractStridedSlice S576x64 ![0, 0] ((m ((c : Thread nD τ).loc main_arg1)) : S576x128.Idx → EReal) slices_S576x128_S576x64_0_0⟩]
          concatenates_S1x64_S576x64_S577x64_d0 := by
    dsimp only [V, hostOps0]; after_results; try rfl
  rw [e]
  unfold sinT
  by_cases hn : n.val = 0
  · rw [dif_pos hn]
    refine (concatenate_pair_apply_left (t := S577x64) (s₁ := S1x64) (s₂ := S576x64) (0 : Fin 2) _ _ concatenates_S1x64_S576x64_S577x64_d0 (ix2 n d) rfl (ix2 (0 : Fin 1) d)
      (fun b => match b with | ⟨0, _⟩ => hn.symm | ⟨1, _⟩ => rfl)).trans ?_
    refine (broadcastInDim_apply _ bcast_S_S1x64 _ _ ix0 (fun a => a.elim0)).trans ?_
    rfl
  · rw [dif_neg hn]
    have hlt : n.val - 1 < 576 := by have := n.isLt; omega
    refine (concatenate_pair_apply_right (t := S577x64) (s₁ := S1x64) (s₂ := S576x64) (0 : Fin 2) _ _ concatenates_S1x64_S576x64_S577x64_d0 (ix2 n d) rfl rfl (ix2 (⟨n.val - 1, hlt⟩ : Fin 576) d)
      (fun b => match b with | ⟨0, _⟩ => fun hb => absurd rfl hb | ⟨1, _⟩ => fun _ => rfl)
      (by show n.val - 1 + 1 = n.val; omega)).trans ?_
    exact slice2_axis1_apply 0 _ slices_S576x128_S576x64_0_0 (⟨n.val - 1, hlt⟩ : Fin 576) d (⟨d.val, by have := d.isLt; omega⟩ : Fin 128) (Nat.zero_add _).symm

/-- The cosine table with its unit prefix row. -/
theorem V_v10_apply (c : Dev nD) (n : Fin 577) (d : Fin 64) :
    (V (F := Ideal) m c main_v10 : S577x64.Idx → EReal) (ix2 n d) = cosT (mat2 ((m ((c : Thread nD τ).loc main_arg1)) : S576x128.Idx → EReal)) n d := by
  have e : (V (F := Ideal) m c main_v10 : S577x64.Idx → EReal)
      = concatenate S577x64 0
          [⟨S1x64, broadcastInDim S1x64 ![] bcast_S_S1x64 (constant (F := Ideal) S_ .f32 0x3F800000#32)⟩,
           ⟨S576x64, extractStridedSlice S576x64 ![0, 64] ((m ((c : Thread nD τ).loc main_arg1)) : S576x128.Idx → EReal) slices_S576x128_S576x64_0_64⟩]
          concatenates_S1x64_S576x64_S577x64_d0 := by
    dsimp only [V, hostOps0]; after_results; try rfl
  rw [e]
  unfold cosT
  by_cases hn : n.val = 0
  · rw [dif_pos hn]
    refine (concatenate_pair_apply_left (t := S577x64) (s₁ := S1x64) (s₂ := S576x64) (0 : Fin 2) _ _ concatenates_S1x64_S576x64_S577x64_d0 (ix2 n d) rfl (ix2 (0 : Fin 1) d)
      (fun b => match b with | ⟨0, _⟩ => hn.symm | ⟨1, _⟩ => rfl)).trans ?_
    refine (broadcastInDim_apply _ bcast_S_S1x64 _ _ ix0 (fun a => a.elim0)).trans ?_
    rfl
  · rw [dif_neg hn]
    have hlt : n.val - 1 < 576 := by have := n.isLt; omega
    refine (concatenate_pair_apply_right (t := S577x64) (s₁ := S1x64) (s₂ := S576x64) (0 : Fin 2) _ _ concatenates_S1x64_S576x64_S577x64_d0 (ix2 n d) rfl rfl (ix2 (⟨n.val - 1, hlt⟩ : Fin 576) d)
      (fun b => match b with | ⟨0, _⟩ => fun hb => absurd rfl hb | ⟨1, _⟩ => fun _ => rfl)
      (by show n.val - 1 + 1 = n.val; omega)).trans ?_
    exact slice2_axis1_apply 64 _ slices_S576x128_S576x64_0_64 (⟨n.val - 1, hlt⟩ : Fin 576) d (⟨64 + d.val, by have := d.isLt; omega⟩ : Fin 128) rfl

/-- The rotation matrix's entries. -/
theorem V_cst_apply (c : Dev nD) (a b : Fin 64) :
    (V (F := Ideal) m c main_cst : S64x64.Idx → EReal) (ix2 a b) = Rmat a b := by
  have e : (V (F := Ideal) m c main_cst : S64x64.Idx → EReal)
      = fun i => Ideal.ofBits .f32 (lit0 (S64x64.rowMajor i)) := by
    dsimp only [V, hostOps0]; after_results; try rfl
  rw [e]
  have hi : S64x64.rowMajor (ix2 a b) = (⟨64 * a.val + b.val, by have := a.isLt; have := b.isLt; omega⟩ : Fin 4096) :=
    Fin.ext (by rw [Shape.rowMajor_val_two]; show a.val * 64 + b.val = 64 * a.val + b.val; omega)
  show Ideal.ofBits .f32 (lit0 (S64x64.rowMajor (ix2 a b))) = Rmat a b
  rw [hi, lit0_eq]
  exact ofBits_Rword a b

/-- The output weight as the kernel's window finds it: transposed. -/
theorem V_v12_apply (c : Dev nD) (a o : Fin 768) :
    (V (F := Ideal) m c main_v12 : S768x768.Idx → EReal) (ix2 a o) = ((m ((c : Thread nD τ).loc main_arg5)) : S768x768.Idx → EReal) (ix2 o a) := by
  have e : (V (F := Ideal) m c main_v12 : S768x768.Idx → EReal)
      = truncf (F := Ideal) .bf16 (transpose S768x768 [1, 0] ((m ((c : Thread nD τ).loc main_arg5)) : S768x768.Idx → EReal) transposes_S768x768_S768x768_1_0) bitsLt_bf16_f32 := by
    dsimp only [V, hostOps0]; after_results; try rfl
  rw [e]
  exact transpose_ix2_apply _ _ a o

/-- The output bias as one row. -/
theorem V_v13_apply (c : Dev nD) (o : Fin 768) :
    (V (F := Ideal) m c main_v13 : S1x768.Idx → EReal) (ix2 (0 : Fin 1) o) = ((m ((c : Thread nD τ).loc main_arg6)) : S768.Idx → EReal) (ix1 o) := by
  have e : (V (F := Ideal) m c main_v13 : S1x768.Idx → EReal)
      = shapeCast S1x768 ((m ((c : Thread nD τ).loc main_arg6)) : S768.Idx → EReal) shapeCasts_S768_S1x768 := by
    dsimp only [V, hostOps0]; after_results; try rfl
  rw [e]
  exact shapeCast_a_1a_apply _ _ 0 o

end Cert.KernelIdeal.Hand

end
-- ==== Proof.KValue.lean ====
/-
  The kernel's result array after the run, over the extended reals: grid point t writes back block t of the output
  array, and that block is batch row t of the attention block of the argument arrays; the 32 blocks cover the array,
  so the array is the block G of the arguments; and the run of the program, with its result named so.
-/
import proofs.«400891_j29738353557841_3_alg».proof.Proof.KIOut
import proofs.«400891_j29738353557841_3_alg».proof.Proof.KHost

set_option maxRecDepth 16384

noncomputable section

open scoped BigOperators

namespace Cert.KernelIdeal.Hand

open Idealize.ShloMosaic Idealize.ShloMosaic.TcCoe Idealize.SL.Sem
open Idealize.ShloMosaic.Pipeline (Dat Cfg Window)
open Cert.KernelIdeal Cert.KernelIdeal.Gen Idealize.ShloMosaic.ValueIdx Cert.Attn

variable (m : (ℓ : Loc nD τ sig) → Buf (Elt Ideal) ℓ) (ρ : Dev nD → PrngReg)

/-- The attention block of core `c`'s argument arrays. -/
abbrev Gof (c : Dev nD) : S32x577x768.Idx → EReal :=
  Garr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-! ## The index maps over the grid -/

/-- The index maps over the grid: the two batch-row windows sit at block (t, 0, 0) at point t. -/
theorem index_facts : ∀ t : Fin cfg0.N,
    win0_0.index t (0 : Fin 3) = t.val ∧ win0_0.index t (1 : Fin 3) = 0 ∧ win0_0.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- The whole-array windows sit at block 0 at every point. -/
theorem index_zero : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A grid point as a batch row. -/
abbrev rowOf (t : Fin cfg0.N) : Fin 32 := ⟨t.val, Nat.lt_of_lt_of_eq t.isLt N_0⟩

/-! ## The input blocks at a point, read at an index -/

/-- Window 0's block at point t is batch row t of the first argument. -/
theorem blk0_apply (c : Dev nD) (t : Fin cfg0.N) (n : Fin 577) (k : Fin 768) :
    (iblk (F := Ideal) m c 0 t : Vec Ideal S1x577x768 .f32) (ix3 (0 : Fin 1) n k)
      = ((m ((c : Thread nD τ).loc main_arg0)) : S32x577x768.Idx → EReal) (ix3 (rowOf t) n k) := by
  obtain ⟨e0, e1, e2, -⟩ := index_facts t
  have he : ((cfg0.win 0).blk t).view.emb (ix3 (0 : Fin 1) n k) = ix3 (rowOf t) n k := funext fun a => Fin.ext (by
    match a with
    | ⟨0, _⟩ => show win0_0.index t (0 : Fin 3) * 1 + 1 * 0 = t.val; omega
    | ⟨1, _⟩ => show win0_0.index t (1 : Fin 3) * 577 + 1 * n.val = n.val; omega
    | ⟨2, _⟩ => show win0_0.index t (2 : Fin 3) * 768 + 1 * k.val = k.val; omega)
  show V m c main_arg0 (((cfg0.win 0).blk t).view.emb (ix3 (0 : Fin 1) n k)) = _
  rw [he, V_main_arg0]

/-- Window 1's block is the projection weight transposed. -/
theorem blk1_apply (c : Dev nD) (t : Fin cfg0.N) (a : Fin 768) (o : Fin 2304) :
    (iblk (F := Ideal) m c 1 t : Vec Ideal S768x2304 .bf16) (ix2 a o) = ((m ((c : Thread nD τ).loc main_arg2)) : S2304x768.Idx → EReal) (ix2 o a) := by
  obtain ⟨z10, z11, z20, z21, z30, z31, z40, z41, z50, z51, z60, z61, z70, z71⟩ := index_zero t
  have he : ((cfg0.win 1).blk t).view.emb (ix2 a o) = ix2 a o := funext fun q => Fin.ext (by
    match q with
    | ⟨0, _⟩ => show win0_1.index t (0 : Fin 2) * 768 + 1 * (a : Fin 768).val = (a : Fin 768).val; omega
    | ⟨1, _⟩ => show win0_1.index t (1 : Fin 2) * 2304 + 1 * (o : Fin 2304).val = (o : Fin 2304).val; omega)
  show V m c main_v4 (((cfg0.win 1).blk t).view.emb (ix2 a o)) = _
  rw [he]
  exact V_v4_apply m c a o

/-- Window 2's block is the fused bias as one row. -/
theorem blk2_apply (c : Dev nD) (t : Fin cfg0.N) (o : Fin 2304) :
    (iblk (F := Ideal) m c 2 t : Vec Ideal S1x2304 .f32) (ix2 (0 : Fin 1) o) = bias3 (vec1 ((m ((c : Thread nD τ).loc main_arg3)) : S768.Idx → EReal)) (vec1 ((m ((c : Thread nD τ).loc main_arg4)) : S768.Idx → EReal)) o := by
  obtain ⟨z10, z11, z20, z21, z30, z31, z40, z41, z50, z51, z60, z61, z70, z71⟩ := index_zero t
  have he : ((cfg0.win 2).blk t).view.emb (ix2 (0 : Fin 1) o) = ix2 (0 : Fin 1) o := funext fun q => Fin.ext (by
    match q with
    | ⟨0, _⟩ => show win0_2.index t (0 : Fin 2) * 1 + 1 * ((0 : Fin 1) : Fin 1).val = ((0 : Fin 1) : Fin 1).val; omega
    | ⟨1, _⟩ => show win0_2.index t (1 : Fin 2) * 2304 + 1 * (o : Fin 2304).val = (o : Fin 2304).val; omega)
  show V m c main_v2 (((cfg0.win 2).blk t).view.emb (ix2 (0 : Fin 1) o)) = _
  rw [he]
  exact V_v2_apply m c o

/-- Window 3's block is the sine table. -/
theorem blk3_apply (c : Dev nD) (t : Fin cfg0.N) (n : Fin 577) (d : Fin 64) :
    (iblk (F := Ideal) m c 3 t : Vec Ideal S577x64 .f32) (ix2 n d) = sinT (mat2 ((m ((c : Thread nD τ).loc main_arg1)) : S576x128.Idx → EReal)) n d := by
  obtain ⟨z10, z11, z20, z21, z30, z31, z40, z41, z50, z51, z60, z61, z70, z71⟩ := index_zero t
  have he : ((cfg0.win 3).blk t).view.emb (ix2 n d) = ix2 n d := funext fun q => Fin.ext (by
    match q with
    | ⟨0, _⟩ => show win0_3.index t (0 : Fin 2) * 577 + 1 * (n : Fin 577).val = (n : Fin 577).val; omega
    | ⟨1, _⟩ => show win0_3.index t (1 : Fin 2) * 64 + 1 * (d : Fin 64).val = (d : Fin 64).val; omega)
  show V m c main_v8 (((cfg0.win 3).blk t).view.emb (ix2 n d)) = _
  rw [he]
  exact V_v8_apply m c n d

/-- Window 4's block is the cosine table. -/
theorem blk4_apply (c : Dev nD) (t : Fin cfg0.N) (n : Fin 577) (d : Fin 64) :
    (iblk (F := Ideal) m c 4 t : Vec Ideal S577x64 .f32) (ix2 n d) = cosT (mat2 ((m ((c : Thread nD τ).loc main_arg1)) : S576x128.Idx → EReal)) n d := by
  obtain ⟨z10, z11, z20, z21, z30, z31, z40, z41, z50, z51, z60, z61, z70, z71⟩ := index_zero t
  have he : ((cfg0.win 4).blk t).view.emb (ix2 n d) = ix2 n d := funext fun q => Fin.ext (by
    match q with
    | ⟨0, _⟩ => show win0_4.index t (0 : Fin 2) * 577 + 1 * (n : Fin 577).val = (n : Fin 577).val; omega
    | ⟨1, _⟩ => show win0_4.index t (1 : Fin 2) * 64 + 1 * (d : Fin 64).val = (d : Fin 64).val; omega)
  show V m c main_v10 (((cfg0.win 4).blk t).view.emb (ix2 n d)) = _
  rw [he]
  exact V_v10_apply m c n d

/-- Window 5's block is the rotation matrix. -/
theorem blk5_apply (c : Dev nD) (t : Fin cfg0.N) (a b : Fin 64) :
    (iblk (F := Ideal) m c 5 t : Vec Ideal S64x64 .f32) (ix2 a b) = Rmat a b := by
  obtain ⟨z10, z11, z20, z21, z30, z31, z40, z41, z50, z51, z60, z61, z70, z71⟩ := index_zero t
  have he : ((cfg0.win 5).blk t).view.emb (ix2 a b) = ix2 a b := funext fun q => Fin.ext (by
    match q with
    | ⟨0, _⟩ => show win0_5.index t (0 : Fin 2) * 64 + 1 * (a : Fin 64).val = (a : Fin 64).val; omega
    | ⟨1, _⟩ => show win0_5.index t (1 : Fin 2) * 64 + 1 * (b : Fin 64).val = (b : Fin 64).val; omega)
  show V m c main_cst (((cfg0.win 5).blk t).view.emb (ix2 a b)) = _
  rw [he]
  exact V_cst_apply m c a b

/-- Window 6's block is the output weight transposed. -/
theorem blk6_apply (c : Dev nD) (t : Fin cfg0.N) (a o : Fin 768) :
    (iblk (F := Ideal) m c 6 t : Vec Ideal S768x768 .bf16) (ix2 a o) = ((m ((c : Thread nD τ).loc main_arg5)) : S768x768.Idx → EReal) (ix2 o a) := by
  obtain ⟨z10, z11, z20, z21, z30, z31, z40, z41, z50, z51, z60, z61, z70, z71⟩ := index_zero t
  have he : ((cfg0.win 6).blk t).view.emb (ix2 a o) = ix2 a o := funext fun q => Fin.ext (by
    match q with
    | ⟨0, _⟩ => show win0_6.index t (0 : Fin 2) * 768 + 1 * (a : Fin 768).val = (a : Fin 768).val; omega
    | ⟨1, _⟩ => show win0_6.index t (1 : Fin 2) * 768 + 1 * (o : Fin 768).val = (o : Fin 768).val; omega)
  show V m c main_v12 (((cfg0.win 6).blk t).view.emb (ix2 a o)) = _
  rw [he]
  exact V_v12_apply m c a o

/-- Window 7's block is the output bias as one row. -/
theorem blk7_apply (c : Dev nD) (t : Fin cfg0.N) (o : Fin 768) :
    (iblk (F := Ideal) m c 7 t : Vec Ideal S1x768 .f32) (ix2 (0 : Fin 1) o) = ((m ((c : Thread nD τ).loc main_arg6)) : S768.Idx → EReal) (ix1 o) := by
  obtain ⟨z10, z11, z20, z21, z30, z31, z40, z41, z50, z51, z60, z61, z70, z71⟩ := index_zero t
  have he : ((cfg0.win 7).blk t).view.emb (ix2 (0 : Fin 1) o) = ix2 (0 : Fin 1) o := funext fun q => Fin.ext (by
    match q with
    | ⟨0, _⟩ => show win0_7.index t (0 : Fin 2) * 1 + 1 * ((0 : Fin 1) : Fin 1).val = ((0 : Fin 1) : Fin 1).val; omega
    | ⟨1, _⟩ => show win0_7.index t (1 : Fin 2) * 768 + 1 * (o : Fin 768).val = (o : Fin 768).val; omega)
  show V m c main_v13 (((cfg0.win 7).blk t).view.emb (ix2 (0 : Fin 1) o)) = _
  rw [he]
  exact V_v13_apply m c o
/-- What grid point `t` writes back is block `t` of the attention block of the arguments. -/
theorem flushed8_eq (c : Dev nD) (t : Fin cfg0.N) :
    (dats (F := Ideal) m 0 c).flushed 8 t = ((cfg0.win 8).blk t).view.read (Elt Ideal) (Gof m c) := by
  show (cfg0.win 8).cut (grid0.coords t) ((dats m 0 c).after 8 t) = _
  rw [after0_8, out0_8_eq]
  funext j
  have hj0 : (j 0).val < 1 := (j 0).isLt
  have hj1 : (j 1).val < 577 := (j 1).isLt
  have hj2 : (j 2).val < 768 := (j 2).isLt
  obtain ⟨-, -, -, e0, e1, e2⟩ := index_facts t
  have hx : (cfg0.win 8).xinj (grid0.coords t) j = ix3 (0 : Fin 1) (⟨(j 1).val, hj1⟩ : Fin 577) (⟨(j 2).val, hj2⟩ : Fin 768) :=
    funext fun a => Fin.ext (by
      match a with
      | ⟨0, _⟩ => show (j 0).val = 0; omega
      | ⟨1, _⟩ => rfl
      | ⟨2, _⟩ => rfl)
  have he : ((cfg0.win 8).blk t).view.emb j = ix3 (rowOf t) (⟨(j 1).val, hj1⟩ : Fin 577) (⟨(j 2).val, hj2⟩ : Fin 768) :=
    funext fun a => Fin.ext (by
      match a with
      | ⟨0, _⟩ => show win0_8.index t (0 : Fin 3) * 1 + 1 * (j 0).val = t.val; omega
      | ⟨1, _⟩ => show win0_8.index t (1 : Fin 3) * 577 + 1 * (j 1).val = (j 1).val; omega
      | ⟨2, _⟩ => show win0_8.index t (2 : Fin 3) * 768 + 1 * (j 2).val = (j 2).val; omega)
  show OutSpec (F := Ideal) (iblk m c 0 t) (iblk m c 1 t) (iblk m c 2 t) (iblk m c 3 t) (iblk m c 4 t) (iblk m c 5 t) (iblk m c 6 t) (iblk m c 7 t) ((cfg0.win 8).xinj (grid0.coords t) j)
    = Gof m c (((cfg0.win 8).blk t).view.emb j)
  rw [hx, he]
  refine (OutSpec_apply _ _ _ _ _ _ _ _ (mat3 ((m ((c : Thread nD τ).loc main_arg0)) : S32x577x768.Idx → EReal) (rowOf t)) (mat2 ((m ((c : Thread nD τ).loc main_arg1)) : S576x128.Idx → EReal))
    (mat2 ((m ((c : Thread nD τ).loc main_arg2)) : S2304x768.Idx → EReal)) (vec1 ((m ((c : Thread nD τ).loc main_arg3)) : S768.Idx → EReal)) (vec1 ((m ((c : Thread nD τ).loc main_arg4)) : S768.Idx → EReal))
    (mat2 ((m ((c : Thread nD τ).loc main_arg5)) : S768x768.Idx → EReal)) (vec1 ((m ((c : Thread nD τ).loc main_arg6)) : S768.Idx → EReal))
    (fun n k => blk0_apply m c t n k) (fun a o => blk1_apply m c t a o) (fun o => blk2_apply m c t o) (fun n d => blk3_apply m c t n d)
    (fun n d => blk4_apply m c t n d) (fun a b => blk5_apply m c t a b) (fun a o => blk6_apply m c t a o) (fun o => blk7_apply m c t o) _ _).trans ?_
  rfl

/-! ## The blocks cover the array -/

/-- An index of the array is in point t's block iff each coordinate is in the block's range on its axis. -/
theorem mem_blk8 (t : Fin cfg0.N) (i : S32x577x768.Idx) :
    i ∈ ((cfg0.win 8).blk t).view.set ↔ ∀ a : Fin 3, win0_8.index t a * S1x577x768.size a ≤ (i a).val ∧ (i a).val < win0_8.index t a * S1x577x768.size a + S1x577x768.size a := by
  show i ∈ ((View.whole main_v14).slice (win0_8.rect t)).set ↔ _
  rw [View.set_slice_whole, Rect.mem_set_unit]
  exact Iff.rfl

/-- Every index of the array is in the block of the point that is its batch row. -/
theorem cover8 (i : S32x577x768.Idx) : ∃ t : Fin cfg0.N, (cfg0.win 8).flush t = true ∧ i ∈ ((cfg0.win 8).blk t).view.set := by
  have hi0 : (i 0).val < 32 := (i 0).isLt
  have hi1 : (i 1).val < 577 := (i 1).isLt
  have hi2 : (i 2).val < 768 := (i 2).isLt
  obtain ⟨-, -, -, e0, e1, e2⟩ := index_facts (⟨(i 0).val, Nat.lt_of_lt_of_eq hi0 N_0.symm⟩ : Fin cfg0.N)
  have e0' : win0_8.index (⟨(i 0).val, Nat.lt_of_lt_of_eq hi0 N_0.symm⟩ : Fin cfg0.N) (0 : Fin 3) = (i 0).val := e0
  refine ⟨⟨(i 0).val, Nat.lt_of_lt_of_eq hi0 N_0.symm⟩, flush0_8 _, ?_⟩
  rw [mem_blk8]
  intro a
  match a with
  | ⟨0, _⟩ => show win0_8.index (⟨(i 0).val, Nat.lt_of_lt_of_eq hi0 N_0.symm⟩ : Fin cfg0.N) (0 : Fin 3) * 1 ≤ (i 0).val ∧ (i 0).val < win0_8.index (⟨(i 0).val, Nat.lt_of_lt_of_eq hi0 N_0.symm⟩ : Fin cfg0.N) (0 : Fin 3) * 1 + 1; rw [e0']; omega
  | ⟨1, _⟩ => show win0_8.index (⟨(i 0).val, Nat.lt_of_lt_of_eq hi0 N_0.symm⟩ : Fin cfg0.N) (1 : Fin 3) * 577 ≤ (i 1).val ∧ (i 1).val < win0_8.index (⟨(i 0).val, Nat.lt_of_lt_of_eq hi0 N_0.symm⟩ : Fin cfg0.N) (1 : Fin 3) * 577 + 577; rw [e1]; omega
  | ⟨2, _⟩ => show win0_8.index (⟨(i 0).val, Nat.lt_of_lt_of_eq hi0 N_0.symm⟩ : Fin cfg0.N) (2 : Fin 3) * 768 ≤ (i 2).val ∧ (i 2).val < win0_8.index (⟨(i 0).val, Nat.lt_of_lt_of_eq hi0 N_0.symm⟩ : Fin cfg0.N) (2 : Fin 3) * 768 + 768; rw [e2]; omega

/-- The output array after the run is the attention block of the arguments. -/
theorem final8 (c : Dev nD) : (dats (F := Ideal) m 0 c).arrAt 8 cfg0.N = Gof m c := by
  exact (dats (F := Ideal) m 0 c).arrAt_eq_of_cover 8 (Gof m c) (fun t _ => flushed8_eq m c t) cover8

/-- Every weakly fair execution of the kernel's program terminates with its result array at the attention block of the
    arguments and the arguments unchanged. -/
theorem kernel_run : θ_run defs (onTc (τ := τ) (main (F := Ideal))) ⟨m, fun _ => 0, ρ⟩ fun r => ∀ c : Dev nD,
      r.2.mem ((c.tc : Thread nD τ).loc main_v14) = Gof m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono (fun r h c => ⟨((h c).1 8).trans (final8 m c),
      ((h c).1 0).trans (((dats (F := Ideal) m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.KernelIdeal.Hand

end
-- ==== Proof.LibSsaRun.lean ====
/-
  A straight line of operations in single-assignment form. When operation number k of a line writes exactly the
  buffer of the k-th reference of a list W, a reference that does not occur in W from position i on holds, after the
  whole line, what it held after the first i operations. Hence the buffer an operation writes, if nothing later writes
  it again, ends at the operation's function of its operands' contents at the moment the operation ran, and these are
  the operands' FINAL contents when nothing from that operation on writes them: the final memory satisfies one
  equation per operation, each naming only final contents.
-/
import Idealize.ShloMosaic.Lib.StableHlo.Run
import Mathlib.Data.List.Forall2
import proofs.«400891_j29738353557841_3_alg».proof.Proof.LibNary3

noncomputable section

namespace Idealize.ShloMosaic.StableHlo.Ssa

open Idealize.ShloMosaic Idealize.ShloMosaic.StableHlo Idealize.ShloMosaic.TcCoe

variable {τ : Topo} {sig : RefSig} {Val : EltTy → Type}

/-- Operation number k of the line writes exactly the buffer of the k-th reference of the list. -/
def WritesAre (ops : List (HloOp τ sig Val)) (W : List (Ref sig .tc)) : Prop :=
  List.Forall₂ (fun op w => op.writes = {Proc.devRef (τ := τ) .tc w}) ops W

/-- Two lines run one after the other fold as their concatenation. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A reference that is none of the line's result references keeps its contents. -/
theorem after_of_not_mem {ops : List (HloOp τ sig Val)} {W : List (Ref sig .tc)} (h : WritesAre ops W)
    {r : Ref sig .tc} (hr : r ∉ W) (V : Valuation τ sig Val) :
    after ops V (Proc.devRef .tc r) = V (Proc.devRef .tc r) := by
  induction h generalizing V with
  | nil => rfl
  | @cons op w ops W hw _ ih =>
    rw [after_cons, ih (fun hm => hr (List.mem_cons_of_mem _ hm)),
      op.result_of_not_mem V (by
        rw [hw, Finset.mem_singleton]
        exact devRef_ne_of_ne fun e => hr (e ▸ List.mem_cons_self))]

/-- After the whole line, a reference that no operation from position i on writes holds what it held after the
    first i operations. -/
theorem after_eq_take {ops : List (HloOp τ sig Val)} {W : List (Ref sig .tc)} (h : WritesAre ops W) (i : Nat)
    {r : Ref sig .tc} (hr : r ∉ W.drop i) (V : Valuation τ sig Val) :
    after ops V (Proc.devRef .tc r) = after (ops.take i) V (Proc.devRef .tc r) := by
  conv_lhs => rw [← List.take_append_drop i ops]
  rw [after_app]
  exact after_of_not_mem (List.forall₂_drop i h) hr _

/-- After the whole line, a reference that no operation after the i-th writes holds what the i-th operation left. -/
theorem after_eq_result {ops : List (HloOp τ sig Val)} {W : List (Ref sig .tc)} (h : WritesAre ops W) (i : Nat)
    {op : HloOp τ sig Val} (hop : ops[i]? = some op) {r : Ref sig .tc} (hr : r ∉ W.drop (i + 1)) (V : Valuation τ sig Val) :
    after ops V (Proc.devRef .tc r) = op.result (after (ops.take i) V) (Proc.devRef .tc r) := by
  rw [after_eq_take h (i + 1) hr, List.take_succ, hop, Option.toList_some, after_app, after_cons, after_nil]

section Builders

variable {ops : List (HloOp τ sig Val)} {W : List (Ref sig .tc)} (h : WritesAre ops W) (i : Nat)
include h

/-- The final contents of the result of a constant. -/
theorem nullary_at {y : Ref sig .tc} {v : y.ty.Contents Val} {hy}
    (hop : ops[i]? = some (nullary y v hy)) (hy' : y ∉ W.drop (i + 1)) (V : Valuation τ sig Val) :
    after ops V (Proc.devRef .tc y) = v := by
  rw [after_eq_result h i hop hy', nullary_result]

/-- The final contents of the result of a one-operand operation, from the operand's final contents. -/
theorem unary_at {x y : Ref sig .tc} {f : x.ty.Contents Val → y.ty.Contents Val} {hx hy}
    (hop : ops[i]? = some (unary x y f hx hy)) (hy' : y ∉ W.drop (i + 1)) (hx' : x ∉ W.drop i) (V : Valuation τ sig Val) :
    after ops V (Proc.devRef .tc y) = f (after ops V (Proc.devRef .tc x)) := by
  rw [after_eq_result h i hop hy', unary_result, ← after_eq_take h i hx']

/-- The final contents of the result of a two-operand operation, from the operands' final contents. -/
theorem binary_at {a b y : Ref sig .tc} {f : a.ty.Contents Val → b.ty.Contents Val → y.ty.Contents Val} {ha hb hy}
    (hop : ops[i]? = some (binary a b y f ha hb hy)) (hy' : y ∉ W.drop (i + 1)) (ha' : a ∉ W.drop i) (hb' : b ∉ W.drop i)
    (V : Valuation τ sig Val) :
    after ops V (Proc.devRef .tc y) = f (after ops V (Proc.devRef .tc a)) (after ops V (Proc.devRef .tc b)) := by
  rw [after_eq_result h i hop hy', binary_result, ← after_eq_take h i ha', ← after_eq_take h i hb']

/-- The final contents of the result of a reshape, from the operand's final contents. -/
theorem reshape_at {x y : Ref sig .tc} {he : x.ty.elt = y.ty.elt} {hn : x.ty.shape.ShapeCasts y.ty.shape} {hx hy}
    (hop : ops[i]? = some (reshape x y he hn hx hy)) (hy' : y ∉ W.drop (i + 1)) (hx' : x ∉ W.drop i) (V : Valuation τ sig Val) :
    after ops V (Proc.devRef .tc y) = fun j => he ▸ shapeCast y.ty.shape (after ops V (Proc.devRef .tc x)) hn j := by
  rw [after_eq_result h i hop hy', reshape_result, ← after_eq_take h i hx']

/-- The final contents of the result of an operation over three literal references, from the operands' final contents. -/
theorem nary3_at {x a b y : Ref sig .tc}
    {f : ((k : Fin 3) → ((![x, a, b] : Fin 3 → Ref sig .tc) k).ty.Contents Val) → y.ty.Contents Val} {hxs hy}
    (hop : ops[i]? = some (nary ![x, a, b] y f hxs hy)) (hy' : y ∉ W.drop (i + 1))
    (hx' : x ∉ W.drop i) (ha' : a ∉ W.drop i) (hb' : b ∉ W.drop i) (V : Valuation τ sig Val) :
    after ops V (Proc.devRef .tc y)
      = f (Fin.cons (after ops V (Proc.devRef .tc x)) (Fin.cons (after ops V (Proc.devRef .tc a))
          (Fin.cons (after ops V (Proc.devRef .tc b)) (fun i => i.elim0)))) := by
  rw [after_eq_result h i hop hy', nary3_result, ← after_eq_take h i hx', ← after_eq_take h i ha', ← after_eq_take h i hb']

end Builders

end Idealize.ShloMosaic.StableHlo.Ssa

end
-- ==== Proof.RefRun.lean ====
/-
  The reference program's run: it is a straight line of 84 tensor operations, each writing one buffer that no later
  operation writes again, so in the final memory every buffer holds its operation's function of the final contents of
  the operation's operands; followed from the arguments forward, the result buffer holds the last stage of the
  program read one operation at a time, and the seven argument buffers, which nothing writes, are unchanged.
-/
import proofs.«400891_j29738353557841_3_alg».proof.Proof.RefOps
import proofs.«400891_j29738353557841_3_alg».proof.Proof.RefRead
import proofs.«400891_j29738353557841_3_alg».proof.Proof.LibSsaRun

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

open Idealize.ShloMosaic.StableHlo.Ssa

variable {F : FTy → Type} [FloatOps F]

/-- The result references of the 84 operations, in program order. -/
def resultRefs : List (Ref sig .tc) :=
  [main_cst, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_cst_0, main_v58, main_v59, main_v60, main_cst_1, main_v61, main_cst_2, main_v62, main_v63, main_v64, main_v65, main_v66, main_v67, main_cst_3, main_v68, main_v69, main_v70, main_v71, main_v72, main_v73, main_v74, main_v75, main_v76, main_v77, main_v78]

/-- Operation number k writes exactly the buffer of the k-th result reference. -/
theorem ops_writes : WritesAre (ops (F := F) : List (HloOp τ sig (Elt F))) resultRefs := by
  unfold WritesAre resultRefs
  repeat (first | exact List.Forall₂.nil | refine List.Forall₂.cons rfl ?_)

/-- Nothing writes argument 0. -/
theorem fin_main_arg0 (V : Valuation τ sig (Elt F)) : after (ops (F := F)) V (Proc.devRef .tc main_arg0) = V (Proc.devRef .tc main_arg0) :=
  after_of_not_mem ops_writes (by decide) V
/-- Nothing writes argument 1. -/
theorem fin_main_arg1 (V : Valuation τ sig (Elt F)) : after (ops (F := F)) V (Proc.devRef .tc main_arg1) = V (Proc.devRef .tc main_arg1) :=
  after_of_not_mem ops_writes (by decide) V
/-- Nothing writes argument 2. -/
theorem fin_main_arg2 (V : Valuation τ sig (Elt F)) : after (ops (F := F)) V (Proc.devRef .tc main_arg2) = V (Proc.devRef .tc main_arg2) :=
  after_of_not_mem ops_writes (by decide) V
/-- Nothing writes argument 3. -/
theorem fin_main_arg3 (V : Valuation τ sig (Elt F)) : after (ops (F := F)) V (Proc.devRef .tc main_arg3) = V (Proc.devRef .tc main_arg3) :=
  after_of_not_mem ops_writes (by decide) V
/-- Nothing writes argument 4. -/
theorem fin_main_arg4 (V : Valuation τ sig (Elt F)) : after (ops (F := F)) V (Proc.devRef .tc main_arg4) = V (Proc.devRef .tc main_arg4) :=
  after_of_not_mem ops_writes (by decide) V
/-- Nothing writes argument 5. -/
theorem fin_main_arg5 (V : Valuation τ sig (Elt F)) : after (ops (F := F)) V (Proc.devRef .tc main_arg5) = V (Proc.devRef .tc main_arg5) :=
  after_of_not_mem ops_writes (by decide) V
/-- Nothing writes argument 6. -/
theorem fin_main_arg6 (V : Valuation τ sig (Elt F)) : after (ops (F := F)) V (Proc.devRef .tc main_arg6) = V (Proc.devRef .tc main_arg6) :=
  after_of_not_mem ops_writes (by decide) V

/-- Operation 0: the final contents of cst. -/
theorem fin_main_cst (V : Valuation τ sig (Elt F)) : after (ops (F := F)) V (Proc.devRef .tc main_cst) = val_main_cst (F := F) := by
  refine (nullary_at ops_writes 0 (y := main_cst) rfl (by decide) V).trans ?_
  rfl
/-- Operation 1: the final contents of v0. -/
theorem fin_main_v0 (V : Valuation τ sig (Elt F)) : after (ops (F := F)) V (Proc.devRef .tc main_v0) = val_main_v0 (F := F) := by
  refine (unary_at ops_writes 1 (x := main_cst) (y := main_v0) rfl (by decide) (by decide) V).trans ?_
  rw [fin_main_cst V]; rfl
/-- Operation 2: the final contents of v1. -/
theorem fin_main_v1 (V : Valuation τ sig (Elt F)) : after (ops (F := F)) V (Proc.devRef .tc main_v1) = val_main_v1 (F := F) (V (Proc.devRef .tc main_arg3)) (V (Proc.devRef .tc main_arg4)) := by
  refine (nary3_at ops_writes 2 (x := main_arg3) (a := main_v0) (b := main_arg4) (y := main_v1) rfl (by decide) (by decide) (by decide) (by decide) V).trans ?_
  rw [fin_main_arg3 V, fin_main_v0 V, fin_main_arg4 V]; rfl
/-- Operation 3: the final contents of v2. -/
theorem fin_main_v2 (V : Valuation τ sig (Elt F)) : after (ops (F := F)) V (Proc.devRef .tc main_v2) = val_main_v2 (F := F) (V (Proc.devRef .tc main_arg0)) (V (Proc.devRef .tc main_arg2)) := by
  refine (binary_at ops_writes 3 (a := main_arg0) (b := main_arg2) (y := main_v2) rfl (by decide) (by decide) (by decide) V).trans ?_
  rw [fin_main_arg0 V, fin_main_arg2 V]; rfl
/-- Operation 4: the final contents of v3. -/
theorem fin_main_v3 (V : Valuation τ sig (Elt F)) : after (ops (F := F)) V (Proc.devRef .tc main_v3) = val_main_v3 (F := F) (V (Proc.devRef .tc main_arg3)) (V (Proc.devRef .tc main_arg4)) := by
  refine (unary_at ops_writes 4 (x := main_v1) (y := main_v3) rfl (by decide) (by decide) V).trans ?_
  rw [fin_main_v1 V]; rfl
/-- Operation 5: the final contents of v4. -/
theorem fin_main_v4 (V : Valuation τ sig (Elt F)) : after (ops (F := F)) V (Proc.devRef .tc main_v4) = val_main_v4 (F := F) (V (Proc.devRef .tc main_arg3)) (V (Proc.devRef .tc main_arg4)) := by
  refine (unary_at ops_writes 5 (x := main_v3) (y := main_v4) rfl (by decide) (by decide) V).trans ?_
  rw [fin_main_v3 V]; rfl
/-- Operation 6: the final contents of v5. -/
theorem fin_main_v5 (V : Valuation τ sig (Elt F)) : after (ops (F := F)) V (Proc.devRef .tc main_v5) = val_main_v5 (F := F) (V (Proc.devRef .tc main_arg0)) (V (Proc.devRef .tc main_arg2)) (V (Proc.devRef .tc main_arg3)) (V (Proc.devRef .tc main_arg4)) := by
  refine (binary_at ops_writes 6 (a := main_v2) (b := main_v4) (y := main_v5) rfl (by decide) (by decide) (by decide) V).trans ?_
  rw [fin_main_v2 V, fin_main_v4 V]; rfl
/-- Operation 7: the final contents of v6. -/
theorem fin_main_v6 (V : Valuation τ sig (Elt F)) : after (ops (F := F)) V (Proc.devRef .tc main_v6) = val_main_v6 (F := F) (V (Proc.devRef .tc main_arg0)) (V (Proc.devRef .tc main_arg2)) (V (Proc.devRef .tc main_arg3)) (V (Proc.devRef .tc main_arg4)) := by
  refine (reshape_at ops_writes 7 (x := main_v5) (y := main_v6) rfl (by decide) (by decide) V).trans ?_
  rw [fin_main_v5 V]; rfl
/-- Operation 8: the final contents of v7. -/
theorem fin_main_v7 (V : Valuation τ sig (Elt F)) : after (ops (F := F)) V (Proc.devRef .tc main_v7) = val_main_v7 (F := F) (V (Proc.devRef .tc main_arg0)) (V (Proc.devRef .tc main_arg2)) (V (Proc.devRef .tc main_arg3)) (V (Proc.devRef .tc main_arg4)) := by
  refine (unary_at ops_writes 8 (x := main_v6) (y := main_v7) rfl (by decide) (by decide) V).trans ?_
  rw [fin_main_v6 V]; rfl
/-- Operation 9: the final contents of v8. -/
theorem fin_main_v8 (V : Valuation τ sig (Elt F)) : after (ops (F := F)) V (Proc.devRef .tc main_v8) = val_main_v8 (F := F) (V (Proc.devRef .tc main_arg0)) (V (Proc.devRef .tc main_arg2)) (V (Proc.devRef .tc main_arg3)) (V (Proc.devRef .tc main_arg4)) := by
  refine (unary_at ops_writes 9 (x := main_v7) (y := main_v8) rfl (by decide) (by decide) V).trans ?_
  rw [fin_main_v7 V]; rfl
/-- Operation 10: the final contents of v9. -/
theorem fin_main_v9 (V : Valuation τ sig (Elt F)) : after (ops (F := F)) V (Proc.devRef .tc main_v9) = val_main_v9 (F := F) (V (Proc.devRef .tc main_arg0)) (V (Proc.devRef .tc main_arg2)) (V (Proc.devRef .tc main_arg3)) (V (Proc.devRef .tc main_arg4)) := by
  refine (reshape_at ops_writes 10 (x := main_v8) (y := main_v9) rfl (by decide) (by decide) V).trans ?_
  rw [fin_main_v8 V]; rfl
/-- Operation 11: the final contents of v10. -/
theorem fin_main_v10 (V : Valuation τ sig (Elt F)) : after (ops (F := F)) V (Proc.devRef .tc main_v10) = val_main_v10 (F := F) (V (Proc.devRef .tc main_arg0)) (V (Proc.devRef .tc main_arg2)) (V (Proc.devRef .tc main_arg3)) (V (Proc.devRef .tc main_arg4)) := by
  refine (unary_at ops_writes 11 (x := main_v7) (y := main_v10) rfl (by decide) (by decide) V).trans ?_
  rw [fin_main_v7 V]; rfl
/-- Operation 12: the final contents of v11. -/
theorem fin_main_v11 (V : Valuation τ sig (Elt F)) : after (ops (F := F)) V (Proc.devRef .tc main_v11) = val_main_v11 (F := F) (V (Proc.devRef .tc main_arg0)) (V (Proc.devRef .tc main_arg2)) (V (Proc.devRef .tc main_arg3)) (V (Proc.devRef .tc main_arg4)) := by
  refine (reshape_at ops_writes 12 (x := main_v10) (y := main_v11) rfl (by decide) (by decide) V).trans ?_
  rw [fin_main_v10 V]; rfl
/-- Operation 13: the final contents of v12. -/
theorem fin_main_v12 (V : Valuation τ sig (Elt F)) : after (ops (F := F)) V (Proc.devRef .tc main_v12) = val_main_v12 (F := F) (V (Proc.devRef .tc main_arg0)) (V (Proc.devRef .tc main_arg2)) (V (Proc.devRef .tc main_arg3)) (V (Proc.devRef .tc main_arg4)) := by
  refine (unary_at ops_writes 13 (x := main_v7) (y := main_v12) rfl (by decide) (by decide) V).trans ?_
  rw [fin_main_v7 V]; rfl
/-- Operation 14: the final contents of v13. -/
theorem fin_main_v13 (V : Valuation τ sig (Elt F)) : after (ops (F := F)) V (Proc.devRef .tc main_v13) = val_main_v13 (F := F) (V (Proc.devRef .tc main_arg0)) (V (Proc.devRef .tc main_arg2)) (V (Proc.devRef .tc main_arg3)) (V (Proc.devRef .tc main_arg4)) := by
  refine (reshape_at ops_writes 14 (x := main_v12) (y := main_v13) rfl (by decide) (by decide) V).trans ?_
  rw [fin_main_v12 V]; rfl
/-- Operation 15: the final contents of v14. -/
theorem fin_main_v14 (V : Valuation τ sig (Elt F)) : after (ops (F := F)) V (Proc.devRef .tc main_v14) = val_main_v14 (F := F) (V (Proc.devRef .tc main_arg0)) (V (Proc.devRef .tc main_arg2)) (V (Proc.devRef .tc main_arg3)) (V (Proc.devRef .tc main_arg4)) := by
  refine (unary_at ops_writes 15 (x := main_v9) (y := main_v14) rfl (by decide) (by decide) V).trans ?_
  rw [fin_main_v9 V]; rfl
/-- Operation 16: the final contents of v15. -/
theorem fin_main_v15 (V : Valuation τ sig (Elt F)) : after (ops (F := F)) V (Proc.devRef .tc main_v15) = val_main_v15 (F := F) (V (Proc.devRef .tc main_arg0)) (V (Proc.devRef .tc main_arg2)) (V (Proc.devRef .tc main_arg3)) (V (Proc.devRef .tc main_arg4)) := by
  refine (unary_at ops_writes 16 (x := main_v9) (y := main_v15) rfl (by decide) (by decide) V).trans ?_
  rw [fin_main_v9 V]; rfl
/-- Operation 17: the final contents of v16. -/
theorem fin_main_v16 (V : Valuation τ sig (Elt F)) : after (ops (F := F)) V (Proc.devRef .tc main_v16) = val_main_v16 (F := F) (V (Proc.devRef .tc main_arg1)) := by
  refine (unary_at ops_writes 17 (x := main_arg1) (y := main_v16) rfl (by decide) (by decide) V).trans ?_
  rw [fin_main_arg1 V]; rfl
/-- Operation 18: the final contents of v17. -/
theorem fin_main_v17 (V : Valuation τ sig (Elt F)) : after (ops (F := F)) V (Proc.devRef .tc main_v17) = val_main_v17 (F := F) (V (Proc.devRef .tc main_arg1)) := by
  refine (unary_at ops_writes 18 (x := main_arg1) (y := main_v17) rfl (by decide) (by decide) V).trans ?_
  rw [fin_main_arg1 V]; rfl
/-- Operation 19: the final contents of v18. -/
theorem fin_main_v18 (V : Valuation τ sig (Elt F)) : after (ops (F := F)) V (Proc.devRef .tc main_v18) = val_main_v18 (F := F) (V (Proc.devRef .tc main_arg1)) := by
  refine (unary_at ops_writes 19 (x := main_v17) (y := main_v18) rfl (by decide) (by decide) V).trans ?_
  rw [fin_main_v17 V]; rfl
/-- Operation 20: the final contents of v19. -/
theorem fin_main_v19 (V : Valuation τ sig (Elt F)) : after (ops (F := F)) V (Proc.devRef .tc main_v19) = val_main_v19 (F := F) (V (Proc.devRef .tc main_arg1)) := by
  refine (unary_at ops_writes 20 (x := main_v18) (y := main_v19) rfl (by decide) (by decide) V).trans ?_
  rw [fin_main_v18 V]; rfl
/-- Operation 21: the final contents of v20. -/
theorem fin_main_v20 (V : Valuation τ sig (Elt F)) : after (ops (F := F)) V (Proc.devRef .tc main_v20) = val_main_v20 (F := F) (V (Proc.devRef .tc main_arg0)) (V (Proc.devRef .tc main_arg1)) (V (Proc.devRef .tc main_arg2)) (V (Proc.devRef .tc main_arg3)) (V (Proc.devRef .tc main_arg4)) := by
  refine (binary_at ops_writes 21 (a := main_v15) (b := main_v19) (y := main_v20) rfl (by decide) (by decide) (by decide) V).trans ?_
  rw [fin_main_v15 V, fin_main_v19 V]; rfl
/-- Operation 22: the final contents of v21. -/
theorem fin_main_v21 (V : Valuation τ sig (Elt F)) : after (ops (F := F)) V (Proc.devRef .tc main_v21) = val_main_v21 (F := F) (V (Proc.devRef .tc main_arg0)) (V (Proc.devRef .tc main_arg2)) (V (Proc.devRef .tc main_arg3)) (V (Proc.devRef .tc main_arg4)) := by
  refine (reshape_at ops_writes 22 (x := main_v15) (y := main_v21) rfl (by decide) (by decide) V).trans ?_
  rw [fin_main_v15 V]; rfl
/-- Operation 23: the final contents of v22. -/
theorem fin_main_v22 (V : Valuation τ sig (Elt F)) : after (ops (F := F)) V (Proc.devRef .tc main_v22) = val_main_v22 (F := F) (V (Proc.devRef .tc main_arg0)) (V (Proc.devRef .tc main_arg2)) (V (Proc.devRef .tc main_arg3)) (V (Proc.devRef .tc main_arg4)) := by
  refine (unary_at ops_writes 23 (x := main_v21) (y := main_v22) rfl (by decide) (by decide) V).trans ?_
  rw [fin_main_v21 V]; rfl
/-- Operation 24: the final contents of v23. -/
theorem fin_main_v23 (V : Valuation τ sig (Elt F)) : after (ops (F := F)) V (Proc.devRef .tc main_v23) = val_main_v23 (F := F) (V (Proc.devRef .tc main_arg0)) (V (Proc.devRef .tc main_arg2)) (V (Proc.devRef .tc main_arg3)) (V (Proc.devRef .tc main_arg4)) := by
  refine (reshape_at ops_writes 24 (x := main_v22) (y := main_v23) rfl (by decide) (by decide) V).trans ?_
  rw [fin_main_v22 V]; rfl
/-- Operation 25: the final contents of v24. -/
theorem fin_main_v24 (V : Valuation τ sig (Elt F)) : after (ops (F := F)) V (Proc.devRef .tc main_v24) = val_main_v24 (F := F) (V (Proc.devRef .tc main_arg0)) (V (Proc.devRef .tc main_arg2)) (V (Proc.devRef .tc main_arg3)) (V (Proc.devRef .tc main_arg4)) := by
  refine (unary_at ops_writes 25 (x := main_v23) (y := main_v24) rfl (by decide) (by decide) V).trans ?_
  rw [fin_main_v23 V]; rfl
/-- Operation 26: the final contents of v25. -/
theorem fin_main_v25 (V : Valuation τ sig (Elt F)) : after (ops (F := F)) V (Proc.devRef .tc main_v25) = val_main_v25 (F := F) (V (Proc.devRef .tc main_arg0)) (V (Proc.devRef .tc main_arg2)) (V (Proc.devRef .tc main_arg3)) (V (Proc.devRef .tc main_arg4)) := by
  refine (unary_at ops_writes 26 (x := main_v21) (y := main_v25) rfl (by decide) (by decide) V).trans ?_
  rw [fin_main_v21 V]; rfl
/-- Operation 27: the final contents of v26. -/
theorem fin_main_v26 (V : Valuation τ sig (Elt F)) : after (ops (F := F)) V (Proc.devRef .tc main_v26) = val_main_v26 (F := F) (V (Proc.devRef .tc main_arg0)) (V (Proc.devRef .tc main_arg2)) (V (Proc.devRef .tc main_arg3)) (V (Proc.devRef .tc main_arg4)) := by
  refine (reshape_at ops_writes 27 (x := main_v25) (y := main_v26) rfl (by decide) (by decide) V).trans ?_
  rw [fin_main_v25 V]; rfl
/-- Operation 28: the final contents of v27. -/
theorem fin_main_v27 (V : Valuation τ sig (Elt F)) : after (ops (F := F)) V (Proc.devRef .tc main_v27) = val_main_v27 (F := F) (V (Proc.devRef .tc main_arg0)) (V (Proc.devRef .tc main_arg2)) (V (Proc.devRef .tc main_arg3)) (V (Proc.devRef .tc main_arg4)) := by
  refine (unary_at ops_writes 28 (x := main_v24) (y := main_v27) rfl (by decide) (by decide) V).trans ?_
  rw [fin_main_v24 V]; rfl
/-- Operation 29: the final contents of v28. -/
theorem fin_main_v28 (V : Valuation τ sig (Elt F)) : after (ops (F := F)) V (Proc.devRef .tc main_v28) = val_main_v28 (F := F) (V (Proc.devRef .tc main_arg0)) (V (Proc.devRef .tc main_arg2)) (V (Proc.devRef .tc main_arg3)) (V (Proc.devRef .tc main_arg4)) := by
  refine (unary_at ops_writes 29 (x := main_v26) (y := main_v28) rfl (by decide) (by decide) V).trans ?_
  rw [fin_main_v26 V]; rfl
/-- Operation 30: the final contents of v29. -/
theorem fin_main_v29 (V : Valuation τ sig (Elt F)) : after (ops (F := F)) V (Proc.devRef .tc main_v29) = val_main_v29 (F := F) (V (Proc.devRef .tc main_arg0)) (V (Proc.devRef .tc main_arg2)) (V (Proc.devRef .tc main_arg3)) (V (Proc.devRef .tc main_arg4)) := by
  refine (binary_at ops_writes 30 (a := main_v27) (b := main_v28) (y := main_v29) rfl (by decide) (by decide) (by decide) V).trans ?_
  rw [fin_main_v27 V, fin_main_v28 V]; rfl
/-- Operation 31: the final contents of v30. -/
theorem fin_main_v30 (V : Valuation τ sig (Elt F)) : after (ops (F := F)) V (Proc.devRef .tc main_v30) = val_main_v30 (F := F) (V (Proc.devRef .tc main_arg0)) (V (Proc.devRef .tc main_arg2)) (V (Proc.devRef .tc main_arg3)) (V (Proc.devRef .tc main_arg4)) := by
  refine (reshape_at ops_writes 31 (x := main_v29) (y := main_v30) rfl (by decide) (by decide) V).trans ?_
  rw [fin_main_v29 V]; rfl
/-- Operation 32: the final contents of v31. -/
theorem fin_main_v31 (V : Valuation τ sig (Elt F)) : after (ops (F := F)) V (Proc.devRef .tc main_v31) = val_main_v31 (F := F) (V (Proc.devRef .tc main_arg1)) := by
  refine (unary_at ops_writes 32 (x := main_v16) (y := main_v31) rfl (by decide) (by decide) V).trans ?_
  rw [fin_main_v16 V]; rfl
/-- Operation 33: the final contents of v32. -/
theorem fin_main_v32 (V : Valuation τ sig (Elt F)) : after (ops (F := F)) V (Proc.devRef .tc main_v32) = val_main_v32 (F := F) (V (Proc.devRef .tc main_arg1)) := by
  refine (unary_at ops_writes 33 (x := main_v31) (y := main_v32) rfl (by decide) (by decide) V).trans ?_
  rw [fin_main_v31 V]; rfl
/-- Operation 34: the final contents of v33. -/
theorem fin_main_v33 (V : Valuation τ sig (Elt F)) : after (ops (F := F)) V (Proc.devRef .tc main_v33) = val_main_v33 (F := F) (V (Proc.devRef .tc main_arg0)) (V (Proc.devRef .tc main_arg1)) (V (Proc.devRef .tc main_arg2)) (V (Proc.devRef .tc main_arg3)) (V (Proc.devRef .tc main_arg4)) := by
  refine (binary_at ops_writes 34 (a := main_v30) (b := main_v32) (y := main_v33) rfl (by decide) (by decide) (by decide) V).trans ?_
  rw [fin_main_v30 V, fin_main_v32 V]; rfl
/-- Operation 35: the final contents of v34. -/
theorem fin_main_v34 (V : Valuation τ sig (Elt F)) : after (ops (F := F)) V (Proc.devRef .tc main_v34) = val_main_v34 (F := F) (V (Proc.devRef .tc main_arg0)) (V (Proc.devRef .tc main_arg1)) (V (Proc.devRef .tc main_arg2)) (V (Proc.devRef .tc main_arg3)) (V (Proc.devRef .tc main_arg4)) := by
  refine (binary_at ops_writes 35 (a := main_v20) (b := main_v33) (y := main_v34) rfl (by decide) (by decide) (by decide) V).trans ?_
  rw [fin_main_v20 V, fin_main_v33 V]; rfl
/-- Operation 36: the final contents of v35. -/
theorem fin_main_v35 (V : Valuation τ sig (Elt F)) : after (ops (F := F)) V (Proc.devRef .tc main_v35) = val_main_v35 (F := F) (V (Proc.devRef .tc main_arg0)) (V (Proc.devRef .tc main_arg1)) (V (Proc.devRef .tc main_arg2)) (V (Proc.devRef .tc main_arg3)) (V (Proc.devRef .tc main_arg4)) := by
  refine (binary_at ops_writes 36 (a := main_v14) (b := main_v34) (y := main_v35) rfl (by decide) (by decide) (by decide) V).trans ?_
  rw [fin_main_v14 V, fin_main_v34 V]; rfl
/-- Operation 37: the final contents of v36. -/
theorem fin_main_v36 (V : Valuation τ sig (Elt F)) : after (ops (F := F)) V (Proc.devRef .tc main_v36) = val_main_v36 (F := F) (V (Proc.devRef .tc main_arg0)) (V (Proc.devRef .tc main_arg2)) (V (Proc.devRef .tc main_arg3)) (V (Proc.devRef .tc main_arg4)) := by
  refine (unary_at ops_writes 37 (x := main_v11) (y := main_v36) rfl (by decide) (by decide) V).trans ?_
  rw [fin_main_v11 V]; rfl
/-- Operation 38: the final contents of v37. -/
theorem fin_main_v37 (V : Valuation τ sig (Elt F)) : after (ops (F := F)) V (Proc.devRef .tc main_v37) = val_main_v37 (F := F) (V (Proc.devRef .tc main_arg0)) (V (Proc.devRef .tc main_arg2)) (V (Proc.devRef .tc main_arg3)) (V (Proc.devRef .tc main_arg4)) := by
  refine (unary_at ops_writes 38 (x := main_v11) (y := main_v37) rfl (by decide) (by decide) V).trans ?_
  rw [fin_main_v11 V]; rfl
/-- Operation 39: the final contents of v38. -/
theorem fin_main_v38 (V : Valuation τ sig (Elt F)) : after (ops (F := F)) V (Proc.devRef .tc main_v38) = val_main_v38 (F := F) (V (Proc.devRef .tc main_arg1)) := by
  refine (unary_at ops_writes 39 (x := main_arg1) (y := main_v38) rfl (by decide) (by decide) V).trans ?_
  rw [fin_main_arg1 V]; rfl
/-- Operation 40: the final contents of v39. -/
theorem fin_main_v39 (V : Valuation τ sig (Elt F)) : after (ops (F := F)) V (Proc.devRef .tc main_v39) = val_main_v39 (F := F) (V (Proc.devRef .tc main_arg1)) := by
  refine (unary_at ops_writes 40 (x := main_arg1) (y := main_v39) rfl (by decide) (by decide) V).trans ?_
  rw [fin_main_arg1 V]; rfl
/-- Operation 41: the final contents of v40. -/
theorem fin_main_v40 (V : Valuation τ sig (Elt F)) : after (ops (F := F)) V (Proc.devRef .tc main_v40) = val_main_v40 (F := F) (V (Proc.devRef .tc main_arg1)) := by
  refine (unary_at ops_writes 41 (x := main_v39) (y := main_v40) rfl (by decide) (by decide) V).trans ?_
  rw [fin_main_v39 V]; rfl
/-- Operation 42: the final contents of v41. -/
theorem fin_main_v41 (V : Valuation τ sig (Elt F)) : after (ops (F := F)) V (Proc.devRef .tc main_v41) = val_main_v41 (F := F) (V (Proc.devRef .tc main_arg1)) := by
  refine (unary_at ops_writes 42 (x := main_v40) (y := main_v41) rfl (by decide) (by decide) V).trans ?_
  rw [fin_main_v40 V]; rfl
/-- Operation 43: the final contents of v42. -/
theorem fin_main_v42 (V : Valuation τ sig (Elt F)) : after (ops (F := F)) V (Proc.devRef .tc main_v42) = val_main_v42 (F := F) (V (Proc.devRef .tc main_arg0)) (V (Proc.devRef .tc main_arg1)) (V (Proc.devRef .tc main_arg2)) (V (Proc.devRef .tc main_arg3)) (V (Proc.devRef .tc main_arg4)) := by
  refine (binary_at ops_writes 43 (a := main_v37) (b := main_v41) (y := main_v42) rfl (by decide) (by decide) (by decide) V).trans ?_
  rw [fin_main_v37 V, fin_main_v41 V]; rfl
/-- Operation 44: the final contents of v43. -/
theorem fin_main_v43 (V : Valuation τ sig (Elt F)) : after (ops (F := F)) V (Proc.devRef .tc main_v43) = val_main_v43 (F := F) (V (Proc.devRef .tc main_arg0)) (V (Proc.devRef .tc main_arg2)) (V (Proc.devRef .tc main_arg3)) (V (Proc.devRef .tc main_arg4)) := by
  refine (reshape_at ops_writes 44 (x := main_v37) (y := main_v43) rfl (by decide) (by decide) V).trans ?_
  rw [fin_main_v37 V]; rfl
/-- Operation 45: the final contents of v44. -/
theorem fin_main_v44 (V : Valuation τ sig (Elt F)) : after (ops (F := F)) V (Proc.devRef .tc main_v44) = val_main_v44 (F := F) (V (Proc.devRef .tc main_arg0)) (V (Proc.devRef .tc main_arg2)) (V (Proc.devRef .tc main_arg3)) (V (Proc.devRef .tc main_arg4)) := by
  refine (unary_at ops_writes 45 (x := main_v43) (y := main_v44) rfl (by decide) (by decide) V).trans ?_
  rw [fin_main_v43 V]; rfl
/-- Operation 46: the final contents of v45. -/
theorem fin_main_v45 (V : Valuation τ sig (Elt F)) : after (ops (F := F)) V (Proc.devRef .tc main_v45) = val_main_v45 (F := F) (V (Proc.devRef .tc main_arg0)) (V (Proc.devRef .tc main_arg2)) (V (Proc.devRef .tc main_arg3)) (V (Proc.devRef .tc main_arg4)) := by
  refine (reshape_at ops_writes 46 (x := main_v44) (y := main_v45) rfl (by decide) (by decide) V).trans ?_
  rw [fin_main_v44 V]; rfl
/-- Operation 47: the final contents of v46. -/
theorem fin_main_v46 (V : Valuation τ sig (Elt F)) : after (ops (F := F)) V (Proc.devRef .tc main_v46) = val_main_v46 (F := F) (V (Proc.devRef .tc main_arg0)) (V (Proc.devRef .tc main_arg2)) (V (Proc.devRef .tc main_arg3)) (V (Proc.devRef .tc main_arg4)) := by
  refine (unary_at ops_writes 47 (x := main_v45) (y := main_v46) rfl (by decide) (by decide) V).trans ?_
  rw [fin_main_v45 V]; rfl
/-- Operation 48: the final contents of v47. -/
theorem fin_main_v47 (V : Valuation τ sig (Elt F)) : after (ops (F := F)) V (Proc.devRef .tc main_v47) = val_main_v47 (F := F) (V (Proc.devRef .tc main_arg0)) (V (Proc.devRef .tc main_arg2)) (V (Proc.devRef .tc main_arg3)) (V (Proc.devRef .tc main_arg4)) := by
  refine (unary_at ops_writes 48 (x := main_v43) (y := main_v47) rfl (by decide) (by decide) V).trans ?_
  rw [fin_main_v43 V]; rfl
/-- Operation 49: the final contents of v48. -/
theorem fin_main_v48 (V : Valuation τ sig (Elt F)) : after (ops (F := F)) V (Proc.devRef .tc main_v48) = val_main_v48 (F := F) (V (Proc.devRef .tc main_arg0)) (V (Proc.devRef .tc main_arg2)) (V (Proc.devRef .tc main_arg3)) (V (Proc.devRef .tc main_arg4)) := by
  refine (reshape_at ops_writes 49 (x := main_v47) (y := main_v48) rfl (by decide) (by decide) V).trans ?_
  rw [fin_main_v47 V]; rfl
/-- Operation 50: the final contents of v49. -/
theorem fin_main_v49 (V : Valuation τ sig (Elt F)) : after (ops (F := F)) V (Proc.devRef .tc main_v49) = val_main_v49 (F := F) (V (Proc.devRef .tc main_arg0)) (V (Proc.devRef .tc main_arg2)) (V (Proc.devRef .tc main_arg3)) (V (Proc.devRef .tc main_arg4)) := by
  refine (unary_at ops_writes 50 (x := main_v46) (y := main_v49) rfl (by decide) (by decide) V).trans ?_
  rw [fin_main_v46 V]; rfl
/-- Operation 51: the final contents of v50. -/
theorem fin_main_v50 (V : Valuation τ sig (Elt F)) : after (ops (F := F)) V (Proc.devRef .tc main_v50) = val_main_v50 (F := F) (V (Proc.devRef .tc main_arg0)) (V (Proc.devRef .tc main_arg2)) (V (Proc.devRef .tc main_arg3)) (V (Proc.devRef .tc main_arg4)) := by
  refine (unary_at ops_writes 51 (x := main_v48) (y := main_v50) rfl (by decide) (by decide) V).trans ?_
  rw [fin_main_v48 V]; rfl
/-- Operation 52: the final contents of v51. -/
theorem fin_main_v51 (V : Valuation τ sig (Elt F)) : after (ops (F := F)) V (Proc.devRef .tc main_v51) = val_main_v51 (F := F) (V (Proc.devRef .tc main_arg0)) (V (Proc.devRef .tc main_arg2)) (V (Proc.devRef .tc main_arg3)) (V (Proc.devRef .tc main_arg4)) := by
  refine (binary_at ops_writes 52 (a := main_v49) (b := main_v50) (y := main_v51) rfl (by decide) (by decide) (by decide) V).trans ?_
  rw [fin_main_v49 V, fin_main_v50 V]; rfl
/-- Operation 53: the final contents of v52. -/
theorem fin_main_v52 (V : Valuation τ sig (Elt F)) : after (ops (F := F)) V (Proc.devRef .tc main_v52) = val_main_v52 (F := F) (V (Proc.devRef .tc main_arg0)) (V (Proc.devRef .tc main_arg2)) (V (Proc.devRef .tc main_arg3)) (V (Proc.devRef .tc main_arg4)) := by
  refine (reshape_at ops_writes 53 (x := main_v51) (y := main_v52) rfl (by decide) (by decide) V).trans ?_
  rw [fin_main_v51 V]; rfl
/-- Operation 54: the final contents of v53. -/
theorem fin_main_v53 (V : Valuation τ sig (Elt F)) : after (ops (F := F)) V (Proc.devRef .tc main_v53) = val_main_v53 (F := F) (V (Proc.devRef .tc main_arg1)) := by
  refine (unary_at ops_writes 54 (x := main_v38) (y := main_v53) rfl (by decide) (by decide) V).trans ?_
  rw [fin_main_v38 V]; rfl
/-- Operation 55: the final contents of v54. -/
theorem fin_main_v54 (V : Valuation τ sig (Elt F)) : after (ops (F := F)) V (Proc.devRef .tc main_v54) = val_main_v54 (F := F) (V (Proc.devRef .tc main_arg1)) := by
  refine (unary_at ops_writes 55 (x := main_v53) (y := main_v54) rfl (by decide) (by decide) V).trans ?_
  rw [fin_main_v53 V]; rfl
/-- Operation 56: the final contents of v55. -/
theorem fin_main_v55 (V : Valuation τ sig (Elt F)) : after (ops (F := F)) V (Proc.devRef .tc main_v55) = val_main_v55 (F := F) (V (Proc.devRef .tc main_arg0)) (V (Proc.devRef .tc main_arg1)) (V (Proc.devRef .tc main_arg2)) (V (Proc.devRef .tc main_arg3)) (V (Proc.devRef .tc main_arg4)) := by
  refine (binary_at ops_writes 56 (a := main_v52) (b := main_v54) (y := main_v55) rfl (by decide) (by decide) (by decide) V).trans ?_
  rw [fin_main_v52 V, fin_main_v54 V]; rfl
/-- Operation 57: the final contents of v56. -/
theorem fin_main_v56 (V : Valuation τ sig (Elt F)) : after (ops (F := F)) V (Proc.devRef .tc main_v56) = val_main_v56 (F := F) (V (Proc.devRef .tc main_arg0)) (V (Proc.devRef .tc main_arg1)) (V (Proc.devRef .tc main_arg2)) (V (Proc.devRef .tc main_arg3)) (V (Proc.devRef .tc main_arg4)) := by
  refine (binary_at ops_writes 57 (a := main_v42) (b := main_v55) (y := main_v56) rfl (by decide) (by decide) (by decide) V).trans ?_
  rw [fin_main_v42 V, fin_main_v55 V]; rfl
/-- Operation 58: the final contents of v57. -/
theorem fin_main_v57 (V : Valuation τ sig (Elt F)) : after (ops (F := F)) V (Proc.devRef .tc main_v57) = val_main_v57 (F := F) (V (Proc.devRef .tc main_arg0)) (V (Proc.devRef .tc main_arg1)) (V (Proc.devRef .tc main_arg2)) (V (Proc.devRef .tc main_arg3)) (V (Proc.devRef .tc main_arg4)) := by
  refine (binary_at ops_writes 58 (a := main_v36) (b := main_v56) (y := main_v57) rfl (by decide) (by decide) (by decide) V).trans ?_
  rw [fin_main_v36 V, fin_main_v56 V]; rfl
/-- Operation 59: the final contents of cst_0. -/
theorem fin_main_cst_0 (V : Valuation τ sig (Elt F)) : after (ops (F := F)) V (Proc.devRef .tc main_cst_0) = val_main_cst_0 (F := F) := by
  refine (nullary_at ops_writes 59 (y := main_cst_0) rfl (by decide) V).trans ?_
  rfl
/-- Operation 60: the final contents of v58. -/
theorem fin_main_v58 (V : Valuation τ sig (Elt F)) : after (ops (F := F)) V (Proc.devRef .tc main_v58) = val_main_v58 (F := F) := by
  refine (unary_at ops_writes 60 (x := main_cst_0) (y := main_v58) rfl (by decide) (by decide) V).trans ?_
  rw [fin_main_cst_0 V]; rfl
/-- Operation 61: the final contents of v59. -/
theorem fin_main_v59 (V : Valuation τ sig (Elt F)) : after (ops (F := F)) V (Proc.devRef .tc main_v59) = val_main_v59 (F := F) (V (Proc.devRef .tc main_arg0)) (V (Proc.devRef .tc main_arg1)) (V (Proc.devRef .tc main_arg2)) (V (Proc.devRef .tc main_arg3)) (V (Proc.devRef .tc main_arg4)) := by
  refine (binary_at ops_writes 61 (a := main_v35) (b := main_v58) (y := main_v59) rfl (by decide) (by decide) (by decide) V).trans ?_
  rw [fin_main_v35 V, fin_main_v58 V]; rfl
/-- Operation 62: the final contents of v60. -/
theorem fin_main_v60 (V : Valuation τ sig (Elt F)) : after (ops (F := F)) V (Proc.devRef .tc main_v60) = val_main_v60 (F := F) (V (Proc.devRef .tc main_arg0)) (V (Proc.devRef .tc main_arg1)) (V (Proc.devRef .tc main_arg2)) (V (Proc.devRef .tc main_arg3)) (V (Proc.devRef .tc main_arg4)) := by
  refine (binary_at ops_writes 62 (a := main_v59) (b := main_v57) (y := main_v60) rfl (by decide) (by decide) (by decide) V).trans ?_
  rw [fin_main_v59 V, fin_main_v57 V]; rfl
/-- Operation 63: the final contents of cst_1. -/
theorem fin_main_cst_1 (V : Valuation τ sig (Elt F)) : after (ops (F := F)) V (Proc.devRef .tc main_cst_1) = val_main_cst_1 (F := F) := by
  refine (nullary_at ops_writes 63 (y := main_cst_1) rfl (by decide) V).trans ?_
  rfl
/-- Operation 64: the final contents of v61. -/
theorem fin_main_v61 (V : Valuation τ sig (Elt F)) : after (ops (F := F)) V (Proc.devRef .tc main_v61) = val_main_v61 (F := F) (V (Proc.devRef .tc main_arg0)) (V (Proc.devRef .tc main_arg1)) (V (Proc.devRef .tc main_arg2)) (V (Proc.devRef .tc main_arg3)) (V (Proc.devRef .tc main_arg4)) := by
  refine (binary_at ops_writes 64 (a := main_v60) (b := main_cst_1) (y := main_v61) rfl (by decide) (by decide) (by decide) V).trans ?_
  rw [fin_main_v60 V, fin_main_cst_1 V]; rfl
/-- Operation 65: the final contents of cst_2. -/
theorem fin_main_cst_2 (V : Valuation τ sig (Elt F)) : after (ops (F := F)) V (Proc.devRef .tc main_cst_2) = val_main_cst_2 (F := F) := by
  refine (nullary_at ops_writes 65 (y := main_cst_2) rfl (by decide) V).trans ?_
  rfl
/-- Operation 66: the final contents of v62. -/
theorem fin_main_v62 (V : Valuation τ sig (Elt F)) : after (ops (F := F)) V (Proc.devRef .tc main_v62) = val_main_v62 (F := F) := by
  refine (unary_at ops_writes 66 (x := main_cst_2) (y := main_v62) rfl (by decide) (by decide) V).trans ?_
  rw [fin_main_cst_2 V]; rfl
/-- Operation 67: the final contents of v63. -/
theorem fin_main_v63 (V : Valuation τ sig (Elt F)) : after (ops (F := F)) V (Proc.devRef .tc main_v63) = val_main_v63 (F := F) (V (Proc.devRef .tc main_arg0)) (V (Proc.devRef .tc main_arg1)) (V (Proc.devRef .tc main_arg2)) (V (Proc.devRef .tc main_arg3)) (V (Proc.devRef .tc main_arg4)) := by
  refine (binary_at ops_writes 67 (a := main_v62) (b := main_v61) (y := main_v63) rfl (by decide) (by decide) (by decide) V).trans ?_
  rw [fin_main_v62 V, fin_main_v61 V]; rfl
/-- Operation 68: the final contents of v64. -/
theorem fin_main_v64 (V : Valuation τ sig (Elt F)) : after (ops (F := F)) V (Proc.devRef .tc main_v64) = val_main_v64 (F := F) (V (Proc.devRef .tc main_arg0)) (V (Proc.devRef .tc main_arg1)) (V (Proc.devRef .tc main_arg2)) (V (Proc.devRef .tc main_arg3)) (V (Proc.devRef .tc main_arg4)) := by
  refine (unary_at ops_writes 68 (x := main_v63) (y := main_v64) rfl (by decide) (by decide) V).trans ?_
  rw [fin_main_v63 V]; rfl
/-- Operation 69: the final contents of v65. -/
theorem fin_main_v65 (V : Valuation τ sig (Elt F)) : after (ops (F := F)) V (Proc.devRef .tc main_v65) = val_main_v65 (F := F) (V (Proc.devRef .tc main_arg0)) (V (Proc.devRef .tc main_arg1)) (V (Proc.devRef .tc main_arg2)) (V (Proc.devRef .tc main_arg3)) (V (Proc.devRef .tc main_arg4)) := by
  refine (unary_at ops_writes 69 (x := main_v64) (y := main_v65) rfl (by decide) (by decide) V).trans ?_
  rw [fin_main_v64 V]; rfl
/-- Operation 70: the final contents of v66. -/
theorem fin_main_v66 (V : Valuation τ sig (Elt F)) : after (ops (F := F)) V (Proc.devRef .tc main_v66) = val_main_v66 (F := F) (V (Proc.devRef .tc main_arg0)) (V (Proc.devRef .tc main_arg1)) (V (Proc.devRef .tc main_arg2)) (V (Proc.devRef .tc main_arg3)) (V (Proc.devRef .tc main_arg4)) := by
  refine (binary_at ops_writes 70 (a := main_v60) (b := main_v65) (y := main_v66) rfl (by decide) (by decide) (by decide) V).trans ?_
  rw [fin_main_v60 V, fin_main_v65 V]; rfl
/-- Operation 71: the final contents of v67. -/
theorem fin_main_v67 (V : Valuation τ sig (Elt F)) : after (ops (F := F)) V (Proc.devRef .tc main_v67) = val_main_v67 (F := F) (V (Proc.devRef .tc main_arg0)) (V (Proc.devRef .tc main_arg1)) (V (Proc.devRef .tc main_arg2)) (V (Proc.devRef .tc main_arg3)) (V (Proc.devRef .tc main_arg4)) := by
  refine (unary_at ops_writes 71 (x := main_v66) (y := main_v67) rfl (by decide) (by decide) V).trans ?_
  rw [fin_main_v66 V]; rfl
/-- Operation 72: the final contents of cst_3. -/
theorem fin_main_cst_3 (V : Valuation τ sig (Elt F)) : after (ops (F := F)) V (Proc.devRef .tc main_cst_3) = val_main_cst_3 (F := F) := by
  refine (nullary_at ops_writes 72 (y := main_cst_3) rfl (by decide) V).trans ?_
  rfl
/-- Operation 73: the final contents of v68. -/
theorem fin_main_v68 (V : Valuation τ sig (Elt F)) : after (ops (F := F)) V (Proc.devRef .tc main_v68) = val_main_v68 (F := F) (V (Proc.devRef .tc main_arg0)) (V (Proc.devRef .tc main_arg1)) (V (Proc.devRef .tc main_arg2)) (V (Proc.devRef .tc main_arg3)) (V (Proc.devRef .tc main_arg4)) := by
  refine (binary_at ops_writes 73 (a := main_v67) (b := main_cst_3) (y := main_v68) rfl (by decide) (by decide) (by decide) V).trans ?_
  rw [fin_main_v67 V, fin_main_cst_3 V]; rfl
/-- Operation 74: the final contents of v69. -/
theorem fin_main_v69 (V : Valuation τ sig (Elt F)) : after (ops (F := F)) V (Proc.devRef .tc main_v69) = val_main_v69 (F := F) (V (Proc.devRef .tc main_arg0)) (V (Proc.devRef .tc main_arg1)) (V (Proc.devRef .tc main_arg2)) (V (Proc.devRef .tc main_arg3)) (V (Proc.devRef .tc main_arg4)) := by
  refine (unary_at ops_writes 74 (x := main_v68) (y := main_v69) rfl (by decide) (by decide) V).trans ?_
  rw [fin_main_v68 V]; rfl
/-- Operation 75: the final contents of v70. -/
theorem fin_main_v70 (V : Valuation τ sig (Elt F)) : after (ops (F := F)) V (Proc.devRef .tc main_v70) = val_main_v70 (F := F) (V (Proc.devRef .tc main_arg0)) (V (Proc.devRef .tc main_arg1)) (V (Proc.devRef .tc main_arg2)) (V (Proc.devRef .tc main_arg3)) (V (Proc.devRef .tc main_arg4)) := by
  refine (unary_at ops_writes 75 (x := main_v69) (y := main_v70) rfl (by decide) (by decide) V).trans ?_
  rw [fin_main_v69 V]; rfl
/-- Operation 76: the final contents of v71. -/
theorem fin_main_v71 (V : Valuation τ sig (Elt F)) : after (ops (F := F)) V (Proc.devRef .tc main_v71) = val_main_v71 (F := F) (V (Proc.devRef .tc main_arg0)) (V (Proc.devRef .tc main_arg1)) (V (Proc.devRef .tc main_arg2)) (V (Proc.devRef .tc main_arg3)) (V (Proc.devRef .tc main_arg4)) := by
  refine (binary_at ops_writes 76 (a := main_v67) (b := main_v70) (y := main_v71) rfl (by decide) (by decide) (by decide) V).trans ?_
  rw [fin_main_v67 V, fin_main_v70 V]; rfl
/-- Operation 77: the final contents of v72. -/
theorem fin_main_v72 (V : Valuation τ sig (Elt F)) : after (ops (F := F)) V (Proc.devRef .tc main_v72) = val_main_v72 (F := F) (V (Proc.devRef .tc main_arg0)) (V (Proc.devRef .tc main_arg1)) (V (Proc.devRef .tc main_arg2)) (V (Proc.devRef .tc main_arg3)) (V (Proc.devRef .tc main_arg4)) := by
  refine (binary_at ops_writes 77 (a := main_v71) (b := main_v13) (y := main_v72) rfl (by decide) (by decide) (by decide) V).trans ?_
  rw [fin_main_v71 V, fin_main_v13 V]; rfl
/-- Operation 78: the final contents of v73. -/
theorem fin_main_v73 (V : Valuation τ sig (Elt F)) : after (ops (F := F)) V (Proc.devRef .tc main_v73) = val_main_v73 (F := F) (V (Proc.devRef .tc main_arg0)) (V (Proc.devRef .tc main_arg1)) (V (Proc.devRef .tc main_arg2)) (V (Proc.devRef .tc main_arg3)) (V (Proc.devRef .tc main_arg4)) := by
  refine (unary_at ops_writes 78 (x := main_v72) (y := main_v73) rfl (by decide) (by decide) V).trans ?_
  rw [fin_main_v72 V]; rfl
/-- Operation 79: the final contents of v74. -/
theorem fin_main_v74 (V : Valuation τ sig (Elt F)) : after (ops (F := F)) V (Proc.devRef .tc main_v74) = val_main_v74 (F := F) (V (Proc.devRef .tc main_arg0)) (V (Proc.devRef .tc main_arg1)) (V (Proc.devRef .tc main_arg2)) (V (Proc.devRef .tc main_arg3)) (V (Proc.devRef .tc main_arg4)) := by
  refine (reshape_at ops_writes 79 (x := main_v73) (y := main_v74) rfl (by decide) (by decide) V).trans ?_
  rw [fin_main_v73 V]; rfl
/-- Operation 80: the final contents of v75. -/
theorem fin_main_v75 (V : Valuation τ sig (Elt F)) : after (ops (F := F)) V (Proc.devRef .tc main_v75) = val_main_v75 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  refine (binary_at ops_writes 80 (a := main_v74) (b := main_arg5) (y := main_v75) rfl (by decide) (by decide) (by decide) V).trans ?_
  rw [fin_main_v74 V, fin_main_arg5 V]; rfl
/-- Operation 81: the final contents of v76. -/
theorem fin_main_v76 (V : Valuation τ sig (Elt F)) : after (ops (F := F)) V (Proc.devRef .tc main_v76) = val_main_v76 (F := F) (V (Proc.devRef .tc main_arg6)) := by
  refine (unary_at ops_writes 81 (x := main_arg6) (y := main_v76) rfl (by decide) (by decide) V).trans ?_
  rw [fin_main_arg6 V]; rfl
/-- Operation 82: the final contents of v77. -/
theorem fin_main_v77 (V : Valuation τ sig (Elt F)) : after (ops (F := F)) V (Proc.devRef .tc main_v77) = val_main_v77 (F := F) (V (Proc.devRef .tc main_arg6)) := by
  refine (unary_at ops_writes 82 (x := main_v76) (y := main_v77) rfl (by decide) (by decide) V).trans ?_
  rw [fin_main_v76 V]; rfl
/-- Operation 83: the final contents of v78. -/
theorem fin_main_v78 (V : Valuation τ sig (Elt F)) : after (ops (F := F)) V (Proc.devRef .tc main_v78) = val_main_v78 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  refine (binary_at ops_writes 83 (a := main_v75) (b := main_v77) (y := main_v78) rfl (by decide) (by decide) (by decide) V).trans ?_
  rw [fin_main_v75 V, fin_main_v77 V]; rfl

/-- Every weakly fair execution of the reference terminates with the result buffer at the program's last stage of the
    arguments and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(h c main_v78).trans (fin_main_v78 (launchContents m c)),
      (h c main_arg0).trans (fin_main_arg0 (launchContents m c)),
      (h c main_arg1).trans (fin_main_arg1 (launchContents m c)),
      (h c main_arg2).trans (fin_main_arg2 (launchContents m c)),
      (h c main_arg3).trans (fin_main_arg3 (launchContents m c)),
      (h c main_arg4).trans (fin_main_arg4 (launchContents m c)),
      (h c main_arg5).trans (fin_main_arg5 (launchContents m c)),
      (h c main_arg6).trans (fin_main_arg6 (launchContents m c))⟩)
    (run_seq scopedRefs_eq scopedSems_eq defs main (fun _ => ops) main_eq (fun _ => ops_sub) m ρ)

end Cert.ReferenceIdeal.RefValue

end
-- ==== Proof.Ref1.lean ====
/-
  The reference's fused projection read at an index: the product of a batch row with the weight, plus the concatenated
  bias, and its three parts cut into heads, each the projection's column 768 s + 64 h + d.
-/
import proofs.«400891_j29738353557841_3_alg».proof.Proof.RefRead
import proofs.«400891_j29738353557841_3_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.Attn

/-- The fused projection of batch row `b`, from the argument arrays. -/
def Aof (X : (⟨S32x577x768, .f32⟩ : BufTy).Contents (Elt Ideal)) (W : (⟨S2304x768, .f32⟩ : BufTy).Contents (Elt Ideal)) (QB VB : (⟨S768, .f32⟩ : BufTy).Contents (Elt Ideal)) (b : Fin 32) : Mat 577 2304 :=
  qkv (mat3 X b) (mat2 W) (bias3 (vec1 QB) (vec1 VB))

/-! ## The concatenated bias -/

/-- The zero vector between the two biases, at an index. -/
theorem v0_apply (o : Fin 768) : val_main_v0 (F := Ideal) (ix1 o) = zeroW := by
  rw [val_main_v0_apply, val_main_cst_apply]
  rfl

/-- The three-piece concatenation at an index below 768: the query bias. -/
theorem v1_apply_q (QB VB : (⟨S768, .f32⟩ : BufTy).Contents (Elt Ideal)) (o : Fin 2304) (h : o.val < 768) :
    val_main_v1 (F := Ideal) QB VB (ix1 o) = QB (ix1 ⟨o.val, h⟩) := by
  unfold val_main_v1
  refine concatenate_apply_piece (0 : Fin S2304.rank) [⟨S768, QB⟩, ⟨S768, val_main_v0 (F := Ideal)⟩, ⟨S768, VB⟩] concatenates_S768_S768_S768_S2304_d0 (ix1 o) 0 (by show 0 < 3; omega) S768 QB rfl rfl 0 rfl
    (ix1 ⟨o.val, h⟩) (fun b hb => absurd (Subsingleton.elim _ _) hb) ?_
  show 0 + o.val = o.val
  omega

/-- The three-piece concatenation at an index from 768 up to 1536: the zero word. -/
theorem v1_apply_z (QB VB : (⟨S768, .f32⟩ : BufTy).Contents (Elt Ideal)) (o : Fin 2304) (h1 : 768 ≤ o.val) (h2 : o.val < 1536) :
    val_main_v1 (F := Ideal) QB VB (ix1 o) = val_main_v0 (F := Ideal) (ix1 ⟨o.val - 768, by omega⟩) := by
  unfold val_main_v1
  refine concatenate_apply_piece (0 : Fin S2304.rank) [⟨S768, QB⟩, ⟨S768, val_main_v0 (F := Ideal)⟩, ⟨S768, VB⟩] concatenates_S768_S768_S768_S2304_d0 (ix1 o) 1 (by show 1 < 3; omega) S768 (val_main_v0 (F := Ideal)) rfl rfl 768 rfl
    (ix1 ⟨o.val - 768, by omega⟩) (fun b hb => absurd (Subsingleton.elim _ _) hb) ?_
  show 768 + (o.val - 768) = o.val
  omega

/-- The three-piece concatenation at an index from 1536 up: the value bias. -/
theorem v1_apply_v (QB VB : (⟨S768, .f32⟩ : BufTy).Contents (Elt Ideal)) (o : Fin 2304) (h1 : 1536 ≤ o.val) :
    val_main_v1 (F := Ideal) QB VB (ix1 o) = VB (ix1 ⟨o.val - 1536, by have := o.isLt; omega⟩) := by
  unfold val_main_v1
  refine concatenate_apply_piece (0 : Fin S2304.rank) [⟨S768, QB⟩, ⟨S768, val_main_v0 (F := Ideal)⟩, ⟨S768, VB⟩] concatenates_S768_S768_S768_S2304_d0 (ix1 o) 2 (by show 2 < 3; omega) S768 VB rfl rfl 1536 rfl
    (ix1 ⟨o.val - 1536, by have := o.isLt; omega⟩) (fun b hb => absurd (Subsingleton.elim _ _) hb) ?_
  show 1536 + (o.val - 1536) = o.val
  omega

/-- The concatenated bias at an index. -/
theorem v1_apply (QB VB : (⟨S768, .f32⟩ : BufTy).Contents (Elt Ideal)) (o : Fin 2304) :
    val_main_v1 (F := Ideal) QB VB (ix1 o) = bias3 (vec1 QB) (vec1 VB) o := by
  unfold bias3 vec1
  by_cases h : o.val < 768
  · rw [dif_pos h, v1_apply_q QB VB o h]
  · by_cases h2 : o.val < 1536
    · rw [dif_neg h, dif_pos h2, v1_apply_z QB VB o (by omega) h2, v0_apply]
    · rw [dif_neg h, dif_neg h2, v1_apply_v QB VB o (by omega)]

/-! ## The projection plus bias -/

theorem lidx_v2_ix (b : Fin 32) (n : Fin 577) (o : Fin 2304) (k : Fin 768) :
    lidx_main_v2 (ix3 b n o) k = ix3 b n k :=
  funext fun a => Fin.ext (by match a with | ⟨0, _⟩ => rfl | ⟨1, _⟩ => rfl | ⟨2, _⟩ => rfl)

theorem ridx_v2_ix (b : Fin 32) (n : Fin 577) (o : Fin 2304) (k : Fin 768) :
    ridx_main_v2 (ix3 b n o) k = ix2 o k :=
  funext fun a => Fin.ext (by match a with | ⟨0, _⟩ => rfl | ⟨1, _⟩ => rfl)

theorem idx_v34_ix (b : Fin 32) (n : Fin 577) (o : Fin 2304) :
    idx_main_v3 (idx_main_v4 (ix3 b n o)) = ix1 o :=
  funext fun a => Fin.ext (by match a with | ⟨0, _⟩ => rfl)

/-- The reference's projection plus bias at (b, n, o). -/
theorem v5_apply (X : (⟨S32x577x768, .f32⟩ : BufTy).Contents (Elt Ideal)) (W : (⟨S2304x768, .f32⟩ : BufTy).Contents (Elt Ideal)) (QB VB : (⟨S768, .f32⟩ : BufTy).Contents (Elt Ideal)) (b : Fin 32) (n : Fin 577) (o : Fin 2304) :
    val_main_v5 X W QB VB (ix3 b n o) = Aof X W QB VB b n o := by
  rw [val_main_v5_apply, val_main_v2_apply, val_main_v4_apply, val_main_v3_apply, idx_v34_ix, v1_apply]
  simp only [lidx_v2_ix, ridx_v2_ix, Ideal.addf_def]
  rfl

/-! ## The three parts cut into heads -/

theorem idx_v6_ix (s : Fin 3) (b : Fin 32) (h : Fin 12) (n : Fin 577) (d : Fin 64) :
    idx_main_v6 (ix5 b n s h d) = ix3 b n (⟨s.val * 768 + h.val * 64 + d.val, by have := s.isLt; have := h.isLt; have := d.isLt; omega⟩ : Fin 2304) :=
  funext fun a => Fin.ext (by
    have hb := b.isLt; have hn := n.isLt; have hs := s.isLt; have hh := h.isLt; have hd := d.isLt
    match a with
    | ⟨0, _⟩ => show ((((b.val * 577 + n.val) * 3 + s.val) * 12 + h.val) * 64 + d.val) / 1329408 = b.val; omega
    | ⟨1, _⟩ => show ((((b.val * 577 + n.val) * 3 + s.val) * 12 + h.val) * 64 + d.val) / 2304 % 577 = n.val; omega
    | ⟨2, _⟩ => show ((((b.val * 577 + n.val) * 3 + s.val) * 12 + h.val) * 64 + d.val) % 2304 = s.val * 768 + h.val * 64 + d.val; omega)

theorem idx_v7_ix (s : Fin 3) (b : Fin 32) (h : Fin 12) (n : Fin 577) (d : Fin 64) :
    idx_main_v7 (ix5 s b h n d) = ix5 b n s h d :=
  funext fun a => Fin.ext (by match a with | ⟨0, _⟩ => rfl | ⟨1, _⟩ => rfl | ⟨2, _⟩ => rfl | ⟨3, _⟩ => rfl | ⟨4, _⟩ => rfl)

/-- The transposed five-axis tensor at (s, b, h, n, d): part s of the projection. -/
theorem v7_apply (X : (⟨S32x577x768, .f32⟩ : BufTy).Contents (Elt Ideal)) (W : (⟨S2304x768, .f32⟩ : BufTy).Contents (Elt Ideal)) (QB VB : (⟨S768, .f32⟩ : BufTy).Contents (Elt Ideal)) (s : Fin 3) (b : Fin 32) (h : Fin 12) (n : Fin 577) (d : Fin 64) :
    val_main_v7 X W QB VB (ix5 s b h n d) = part (Aof X W QB VB b) s h n d := by
  rw [val_main_v7_apply, val_main_v6_apply, idx_v7_ix, idx_v6_ix, v5_apply]
  rfl

theorem idx_v9_ix (b : Fin 32) (h : Fin 12) (n : Fin 577) (d : Fin 64) :
    idx_main_v9 (ix4 b h n d) = ix5 (0 : Fin 1) b h n d :=
  funext fun a => Fin.ext (by
    have hb := b.isLt; have hn := n.isLt; have hh := h.isLt; have hd := d.isLt
    match a with
    | ⟨0, _⟩ => rfl
    | ⟨1, _⟩ => show (((b.val * 12 + h.val) * 577 + n.val) * 64 + d.val) / 443136 % 32 = b.val; omega
    | ⟨2, _⟩ => show (((b.val * 12 + h.val) * 577 + n.val) * 64 + d.val) / 36928 % 12 = h.val; omega
    | ⟨3, _⟩ => show (((b.val * 12 + h.val) * 577 + n.val) * 64 + d.val) / 64 % 577 = n.val; omega
    | ⟨4, _⟩ => show (((b.val * 12 + h.val) * 577 + n.val) * 64 + d.val) % 64 = d.val; omega)

theorem idx_v8_ix (b : Fin 32) (h : Fin 12) (n : Fin 577) (d : Fin 64) :
    idx_main_v8 (ix5 (0 : Fin 1) b h n d) = ix5 (0 : Fin 3) b h n d :=
  funext fun a => Fin.ext (by match a with | ⟨0, _⟩ => rfl | ⟨1, _⟩ => rfl | ⟨2, _⟩ => rfl | ⟨3, _⟩ => rfl | ⟨4, _⟩ => rfl)

theorem idx_v10_ix (b : Fin 32) (h : Fin 12) (n : Fin 577) (d : Fin 64) :
    idx_main_v10 (ix5 (0 : Fin 1) b h n d) = ix5 (1 : Fin 3) b h n d :=
  funext fun a => Fin.ext (by match a with | ⟨0, _⟩ => rfl | ⟨1, _⟩ => rfl | ⟨2, _⟩ => rfl | ⟨3, _⟩ => rfl | ⟨4, _⟩ => rfl)

theorem idx_v12_ix (b : Fin 32) (h : Fin 12) (n : Fin 577) (d : Fin 64) :
    idx_main_v12 (ix5 (0 : Fin 1) b h n d) = ix5 (2 : Fin 3) b h n d :=
  funext fun a => Fin.ext (by match a with | ⟨0, _⟩ => rfl | ⟨1, _⟩ => rfl | ⟨2, _⟩ => rfl | ⟨3, _⟩ => rfl | ⟨4, _⟩ => rfl)

/-- The reference's query tensor at (b, h, n, d). -/
theorem v9_apply (X : (⟨S32x577x768, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n : Fin 577) (d : Fin 64) :
    val_main_v9 X W QB VB (ix4 b h n d) = part (Aof X W QB VB b) 0 h n d := by
  rw [val_main_v9_apply, val_main_v8_apply, idx_v9_ix, idx_v8_ix, v7_apply]

/-- The reference's key tensor at (b, h, n, d). -/
theorem v11_apply (X : (⟨S32x577x768, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n : Fin 577) (d : Fin 64) :
    val_main_v11 X W QB VB (ix4 b h n d) = part (Aof X W QB VB b) 1 h n d := by
  rw [val_main_v11_apply, val_main_v10_apply, show idx_main_v11 (ix4 b h n d) = idx_main_v9 (ix4 b h n d) from rfl, idx_v9_ix, idx_v10_ix, v7_apply]

/-- The reference's value tensor at (b, h, n, d). -/
theorem v13_apply (X : (⟨S32x577x768, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n : Fin 577) (d : Fin 64) :
    val_main_v13 X W QB VB (ix4 b h n d) = part (Aof X W QB VB b) 2 h n d := by
  rw [val_main_v13_apply, val_main_v12_apply, show idx_main_v13 (ix4 b h n d) = idx_main_v9 (ix4 b h n d) from rfl, idx_v9_ix, idx_v12_ix, v7_apply]

end Cert.ReferenceIdeal.RefValue

end
-- ==== Proof.Ref2.lean ====
/-
  The reference's rotary embedding read at an index: the query and key tensors after the prefix row is set aside, the
  pair rotation is built by reshape, slice, negate and concatenate, and the two halves of rope are multiplied in.
-/
import proofs.«400891_j29738353557841_3_alg».proof.Proof.Ref1

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.Attn

/-! ## The query: the rotary embedding over the query tensor -/

section
variable (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal))

/-- The second half of row m of rope, spread over batch and head. -/
theorem q_cos (b : Fin 32) (h : Fin 12) (m : Fin 576) (d : Fin 64) (c : Fin 128) (hc : c.val = 64 + d.val) :
    val_main_v19 ROPE (ix4 b h m d) = ROPE (ix2 m c) := by
  rw [val_main_v19_apply, val_main_v18_apply, val_main_v17_apply]
  congr 1
  funext a
  apply Fin.ext
  match a with
  | ⟨0, _⟩ => rfl
  | ⟨1, _⟩ => show 64 + d.val = c.val; omega

/-- The first half of row m of rope, spread over batch and head. -/
theorem q_sin (b : Fin 32) (h : Fin 12) (m : Fin 576) (d : Fin 64) (c : Fin 128) (hc : c.val = d.val) :
    val_main_v32 ROPE (ix4 b h m d) = ROPE (ix2 m c) := by
  rw [val_main_v32_apply, val_main_v31_apply, val_main_v16_apply]
  congr 1
  funext a
  apply Fin.ext
  match a with
  | ⟨0, _⟩ => rfl
  | ⟨1, _⟩ => show d.val = c.val; omega

/-- The prefix row set aside. -/
theorem q_head (b : Fin 32) (h : Fin 12) (z : Fin 1) (d : Fin 64) (n : Fin 577) (hn : n.val = 0) :
    val_main_v14 X W QB VB (ix4 b h z d) = val_main_v9 X W QB VB (ix4 b h n d) := by
  rw [val_main_v14_apply]
  congr 1
  funext a
  apply Fin.ext
  have := z.isLt
  match a with
  | ⟨0, _⟩ => rfl
  | ⟨1, _⟩ => rfl
  | ⟨2, _⟩ => show z.val = n.val; omega
  | ⟨3, _⟩ => rfl

/-- The rows after the prefix row. -/
theorem q_tail (b : Fin 32) (h : Fin 12) (m : Fin 576) (d : Fin 64) (n : Fin 577) (hn : n.val = m.val + 1) :
    val_main_v15 X W QB VB (ix4 b h m d) = val_main_v9 X W QB VB (ix4 b h n d) := by
  rw [val_main_v15_apply]
  congr 1
  funext a
  apply Fin.ext
  match a with
  | ⟨0, _⟩ => rfl
  | ⟨1, _⟩ => rfl
  | ⟨2, _⟩ => show 1 + m.val = n.val; omega
  | ⟨3, _⟩ => rfl

/-- The tail with its columns in pairs: entry (k, e) is column 2k + e. -/
theorem q_pairs (b : Fin 32) (h : Fin 12) (m : Fin 576) (k : Fin 32) (e : Fin 2) (c : Fin 64) (hc : c.val = 2 * k.val + e.val) :
    val_main_v21 X W QB VB (ix5 b h m k e) = val_main_v15 X W QB VB (ix4 b h m c) := by
  rw [val_main_v21_apply]
  congr 1
  funext a
  apply Fin.ext
  have := b.isLt; have := h.isLt; have := m.isLt; have := k.isLt; have := e.isLt; have := c.isLt
  match a with
  | ⟨0, _⟩ => show ((((b.val * 12 + h.val) * 576 + m.val) * 32 + k.val) * 2 + e.val) / 442368 = b.val; omega
  | ⟨1, _⟩ => show ((((b.val * 12 + h.val) * 576 + m.val) * 32 + k.val) * 2 + e.val) / 36864 % 12 = h.val; omega
  | ⟨2, _⟩ => show ((((b.val * 12 + h.val) * 576 + m.val) * 32 + k.val) * 2 + e.val) / 64 % 576 = m.val; omega
  | ⟨3, _⟩ => show ((((b.val * 12 + h.val) * 576 + m.val) * 32 + k.val) * 2 + e.val) % 64 = c.val; omega

/-- Dropping the trailing unit axis of a pair-indexed tensor. -/
theorem q_drop_odd (b : Fin 32) (h : Fin 12) (m : Fin 576) (k : Fin 32) :
    val_main_v23 X W QB VB (ix4 b h m k) = val_main_v22 X W QB VB (ix5 b h m k (0 : Fin 1)) := by
  rw [val_main_v23_apply]
  congr 1
  funext a
  apply Fin.ext
  have := b.isLt; have := h.isLt; have := m.isLt; have := k.isLt
  match a with
  | ⟨0, _⟩ => show (((b.val * 12 + h.val) * 576 + m.val) * 32 + k.val) / 221184 = b.val; omega
  | ⟨1, _⟩ => show (((b.val * 12 + h.val) * 576 + m.val) * 32 + k.val) / 18432 % 12 = h.val; omega
  | ⟨2, _⟩ => show (((b.val * 12 + h.val) * 576 + m.val) * 32 + k.val) / 32 % 576 = m.val; omega
  | ⟨3, _⟩ => show (((b.val * 12 + h.val) * 576 + m.val) * 32 + k.val) / 1 % 32 = k.val; omega
  | ⟨4, _⟩ => rfl

/-- The same for the even entries' tensor. -/
theorem q_drop_even (b : Fin 32) (h : Fin 12) (m : Fin 576) (k : Fin 32) :
    val_main_v26 X W QB VB (ix4 b h m k) = val_main_v25 X W QB VB (ix5 b h m k (0 : Fin 1)) := by
  rw [val_main_v26_apply]
  congr 1
  funext a
  apply Fin.ext
  have := b.isLt; have := h.isLt; have := m.isLt; have := k.isLt
  match a with
  | ⟨0, _⟩ => show (((b.val * 12 + h.val) * 576 + m.val) * 32 + k.val) / 221184 = b.val; omega
  | ⟨1, _⟩ => show (((b.val * 12 + h.val) * 576 + m.val) * 32 + k.val) / 18432 % 12 = h.val; omega
  | ⟨2, _⟩ => show (((b.val * 12 + h.val) * 576 + m.val) * 32 + k.val) / 32 % 576 = m.val; omega
  | ⟨3, _⟩ => show (((b.val * 12 + h.val) * 576 + m.val) * 32 + k.val) / 1 % 32 = k.val; omega
  | ⟨4, _⟩ => rfl

/-- The odd entry of each pair, negated, on a trailing unit axis: minus column 2k + 1. -/
theorem q_negodd (b : Fin 32) (h : Fin 12) (m : Fin 576) (k : Fin 32) (z : Fin 1) (c : Fin 64) (hc : c.val = 2 * k.val + 1) :
    val_main_v27 X W QB VB (ix5 b h m k z) = -(val_main_v15 X W QB VB (ix4 b h m c)) := by
  have e27 : idx_main_v27 (ix5 b h m k z) = ix4 b h m k := by
    funext a
    apply Fin.ext
    match a with
    | ⟨0, _⟩ => rfl
    | ⟨1, _⟩ => rfl
    | ⟨2, _⟩ => rfl
    | ⟨3, _⟩ => rfl
  have e22 : idx_main_v22 (ix5 b h m k (0 : Fin 1)) = ix5 b h m k (1 : Fin 2) := by
    funext a
    apply Fin.ext
    match a with
    | ⟨0, _⟩ => rfl
    | ⟨1, _⟩ => rfl
    | ⟨2, _⟩ => rfl
    | ⟨3, _⟩ => rfl
    | ⟨4, _⟩ => rfl
  rw [val_main_v27_apply, e27, val_main_v24_apply, Ideal.hostNegf_def, Ideal.negf_def, q_drop_odd, val_main_v22_apply, e22,
    q_pairs X W QB VB b h m k 1 c hc]

/-- The even entry of each pair on a trailing unit axis: column 2k. -/
theorem q_even (b : Fin 32) (h : Fin 12) (m : Fin 576) (k : Fin 32) (z : Fin 1) (c : Fin 64) (hc : c.val = 2 * k.val) :
    val_main_v28 X W QB VB (ix5 b h m k z) = val_main_v15 X W QB VB (ix4 b h m c) := by
  have e28 : idx_main_v28 (ix5 b h m k z) = ix4 b h m k := by
    funext a
    apply Fin.ext
    match a with
    | ⟨0, _⟩ => rfl
    | ⟨1, _⟩ => rfl
    | ⟨2, _⟩ => rfl
    | ⟨3, _⟩ => rfl
  have e25 : idx_main_v25 (ix5 b h m k (0 : Fin 1)) = ix5 b h m k (0 : Fin 2) := by
    funext a
    apply Fin.ext
    match a with
    | ⟨0, _⟩ => rfl
    | ⟨1, _⟩ => rfl
    | ⟨2, _⟩ => rfl
    | ⟨3, _⟩ => rfl
    | ⟨4, _⟩ => rfl
  rw [val_main_v28_apply, e28, q_drop_even, val_main_v25_apply, e25, q_pairs X W QB VB b h m k 0 c hc]

/-- The two unit-axis tensors joined: position 0 of pair k is the negated odd entry. -/
theorem q_cat0 (b : Fin 32) (h : Fin 12) (m : Fin 576) (k : Fin 32) (e : Fin 2) (he : e.val = 0) :
    val_main_v29 X W QB VB (ix5 b h m k e) = val_main_v27 X W QB VB (ix5 b h m k (0 : Fin 1)) := by
  unfold val_main_v29
  exact concatenate_pair_apply_left (t := S32x12x576x32x2) (s₁ := S32x12x576x32x1) (s₂ := S32x12x576x32x1) 4 _ _
    concatenates_S32x12x576x32x1_S32x12x576x32x1_S32x12x576x32x2_d4 (ix5 b h m k e) rfl (ix5 b h m k (0 : Fin 1)) (fun a => by
    match a with
    | ⟨0, _⟩ => rfl
    | ⟨1, _⟩ => rfl
    | ⟨2, _⟩ => rfl
    | ⟨3, _⟩ => rfl
    | ⟨4, _⟩ => show 0 = e.val; omega)

/-- The two unit-axis tensors joined: position 1 of pair k is the even entry. -/
theorem q_cat1 (b : Fin 32) (h : Fin 12) (m : Fin 576) (k : Fin 32) (e : Fin 2) (he : e.val = 1) :
    val_main_v29 X W QB VB (ix5 b h m k e) = val_main_v28 X W QB VB (ix5 b h m k (0 : Fin 1)) := by
  unfold val_main_v29
  exact concatenate_pair_apply_right (t := S32x12x576x32x2) (s₁ := S32x12x576x32x1) (s₂ := S32x12x576x32x1) 4 _ _
    concatenates_S32x12x576x32x1_S32x12x576x32x1_S32x12x576x32x2_d4 (ix5 b h m k e) rfl rfl (ix5 b h m k (0 : Fin 1)) (fun a ha => by
    match a with
    | ⟨0, _⟩ => rfl
    | ⟨1, _⟩ => rfl
    | ⟨2, _⟩ => rfl
    | ⟨3, _⟩ => rfl
    | ⟨4, _⟩ => exact absurd rfl ha) (by
    show 0 + 1 = e.val; omega)

/-- The joined pairs read back as 64 columns: column d is position d % 2 of pair d / 2. -/
theorem q_unpair (b : Fin 32) (h : Fin 12) (m : Fin 576) (d : Fin 64) (k : Fin 32) (e : Fin 2) (hk : k.val = d.val / 2) (he : e.val = d.val % 2) :
    val_main_v30 X W QB VB (ix4 b h m d) = val_main_v29 X W QB VB (ix5 b h m k e) := by
  rw [val_main_v30_apply]
  congr 1
  funext a
  apply Fin.ext
  have := b.isLt; have := h.isLt; have := m.isLt; have := d.isLt
  match a with
  | ⟨0, _⟩ => show (((b.val * 12 + h.val) * 576 + m.val) * 64 + d.val) / 442368 = b.val; omega
  | ⟨1, _⟩ => show (((b.val * 12 + h.val) * 576 + m.val) * 64 + d.val) / 36864 % 12 = h.val; omega
  | ⟨2, _⟩ => show (((b.val * 12 + h.val) * 576 + m.val) * 64 + d.val) / 64 % 576 = m.val; omega
  | ⟨3, _⟩ => show (((b.val * 12 + h.val) * 576 + m.val) * 64 + d.val) / 2 % 32 = k.val; omega
  | ⟨4, _⟩ => show (((b.val * 12 + h.val) * 576 + m.val) * 64 + d.val) % 2 = e.val; omega

/-- The rebuilt tensor is the pair rotation of the rows after the prefix row. -/
theorem q_rot (b : Fin 32) (h : Fin 12) (m : Fin 576) (d : Fin 64) (n : Fin 577) (hn : n.val = m.val + 1) :
    val_main_v30 X W QB VB (ix4 b h m d) = rot (part (Aof X W QB VB b) 0 h) n d := by
  have hd := d.isLt
  unfold rot
  by_cases hp : d.val % 2 = 0
  · rw [dif_pos hp, q_unpair X W QB VB b h m d ⟨d.val / 2, by omega⟩ ⟨0, by omega⟩ rfl (by show 0 = d.val % 2; omega),
      q_cat0 X W QB VB b h m _ _ rfl, q_negodd X W QB VB b h m _ _ ⟨d.val + 1, by omega⟩ (by show d.val + 1 = 2 * (d.val / 2) + 1; omega),
      q_tail X W QB VB b h m _ n hn, v9_apply]
  · rw [dif_neg hp, q_unpair X W QB VB b h m d ⟨d.val / 2, by omega⟩ ⟨1, by omega⟩ rfl (by show 1 = d.val % 2; omega),
      q_cat1 X W QB VB b h m _ _ rfl, q_even X W QB VB b h m _ _ ⟨d.val - 1, by omega⟩ (by show d.val - 1 = 2 * (d.val / 2); omega),
      q_tail X W QB VB b h m _ n hn, v9_apply]

end

/-- The reference's roped query at (b, h, n, d). -/
theorem v35_apply (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n : Fin 577) (d : Fin 64) :
    val_main_v35 X ROPE W QB VB (ix4 b h n d) = roped (mat2 ROPE) (part (Aof X W QB VB b) 0 h) n d := by
  have hN := n.isLt
  have hd := d.isLt
  unfold roped
  by_cases hn : n.val = 0
  · rw [dif_pos hn]
    unfold val_main_v35
    refine (concatenate_pair_apply_left (t := S32x12x577x64) (s₁ := S32x12x1x64) (s₂ := S32x12x576x64) 2 _ _
      concatenates_S32x12x1x64_S32x12x576x64_S32x12x577x64_d2 (ix4 b h n d) rfl (ix4 b h (0 : Fin 1) d) (fun a => by
      match a with
      | ⟨0, _⟩ => rfl
      | ⟨1, _⟩ => rfl
      | ⟨2, _⟩ => show 0 = n.val; omega
      | ⟨3, _⟩ => rfl)).trans ?_
    rw [q_head X W QB VB b h 0 d n hn, v9_apply]
  · rw [dif_neg hn]
    unfold val_main_v35
    refine (concatenate_pair_apply_right (t := S32x12x577x64) (s₁ := S32x12x1x64) (s₂ := S32x12x576x64) 2 _ _
      concatenates_S32x12x1x64_S32x12x576x64_S32x12x577x64_d2 (ix4 b h n d) rfl rfl (ix4 b h (⟨n.val - 1, by omega⟩ : Fin 576) d) (fun a ha => by
      match a with
      | ⟨0, _⟩ => rfl
      | ⟨1, _⟩ => rfl
      | ⟨2, _⟩ => exact absurd rfl ha
      | ⟨3, _⟩ => rfl) (by
      show n.val - 1 + 1 = n.val; omega)).trans ?_
    rw [val_main_v34_apply, val_main_v20_apply, val_main_v33_apply, Ideal.addf_def, Ideal.mulf_def, Ideal.mulf_def,
      q_tail X W QB VB b h _ d n (by show n.val = n.val - 1 + 1; omega), v9_apply,
      q_cos ROPE b h _ d ⟨64 + d.val, by omega⟩ rfl, q_sin ROPE b h _ d ⟨d.val, by omega⟩ rfl,
      q_rot X W QB VB b h _ d n (by show n.val = n.val - 1 + 1; omega)]
    rfl

/-! ## The key: the rotary embedding over the key tensor -/

section
variable (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal))

/-- The second half of row m of rope, spread over batch and head. -/
theorem k_cos (b : Fin 32) (h : Fin 12) (m : Fin 576) (d : Fin 64) (c : Fin 128) (hc : c.val = 64 + d.val) :
    val_main_v41 ROPE (ix4 b h m d) = ROPE (ix2 m c) := by
  rw [val_main_v41_apply, val_main_v40_apply, val_main_v39_apply]
  congr 1
  funext a
  apply Fin.ext
  match a with
  | ⟨0, _⟩ => rfl
  | ⟨1, _⟩ => show 64 + d.val = c.val; omega

/-- The first half of row m of rope, spread over batch and head. -/
theorem k_sin (b : Fin 32) (h : Fin 12) (m : Fin 576) (d : Fin 64) (c : Fin 128) (hc : c.val = d.val) :
    val_main_v54 ROPE (ix4 b h m d) = ROPE (ix2 m c) := by
  rw [val_main_v54_apply, val_main_v53_apply, val_main_v38_apply]
  congr 1
  funext a
  apply Fin.ext
  match a with
  | ⟨0, _⟩ => rfl
  | ⟨1, _⟩ => show d.val = c.val; omega

/-- The prefix row set aside. -/
theorem k_head (b : Fin 32) (h : Fin 12) (z : Fin 1) (d : Fin 64) (n : Fin 577) (hn : n.val = 0) :
    val_main_v36 X W QB VB (ix4 b h z d) = val_main_v11 X W QB VB (ix4 b h n d) := by
  rw [val_main_v36_apply]
  congr 1
  funext a
  apply Fin.ext
  have := z.isLt
  match a with
  | ⟨0, _⟩ => rfl
  | ⟨1, _⟩ => rfl
  | ⟨2, _⟩ => show z.val = n.val; omega
  | ⟨3, _⟩ => rfl

/-- The rows after the prefix row. -/
theorem k_tail (b : Fin 32) (h : Fin 12) (m : Fin 576) (d : Fin 64) (n : Fin 577) (hn : n.val = m.val + 1) :
    val_main_v37 X W QB VB (ix4 b h m d) = val_main_v11 X W QB VB (ix4 b h n d) := by
  rw [val_main_v37_apply]
  congr 1
  funext a
  apply Fin.ext
  match a with
  | ⟨0, _⟩ => rfl
  | ⟨1, _⟩ => rfl
  | ⟨2, _⟩ => show 1 + m.val = n.val; omega
  | ⟨3, _⟩ => rfl

/-- The tail with its columns in pairs: entry (k, e) is column 2k + e. -/
theorem k_pairs (b : Fin 32) (h : Fin 12) (m : Fin 576) (k : Fin 32) (e : Fin 2) (c : Fin 64) (hc : c.val = 2 * k.val + e.val) :
    val_main_v43 X W QB VB (ix5 b h m k e) = val_main_v37 X W QB VB (ix4 b h m c) := by
  rw [val_main_v43_apply]
  congr 1
  funext a
  apply Fin.ext
  have := b.isLt; have := h.isLt; have := m.isLt; have := k.isLt; have := e.isLt; have := c.isLt
  match a with
  | ⟨0, _⟩ => show ((((b.val * 12 + h.val) * 576 + m.val) * 32 + k.val) * 2 + e.val) / 442368 = b.val; omega
  | ⟨1, _⟩ => show ((((b.val * 12 + h.val) * 576 + m.val) * 32 + k.val) * 2 + e.val) / 36864 % 12 = h.val; omega
  | ⟨2, _⟩ => show ((((b.val * 12 + h.val) * 576 + m.val) * 32 + k.val) * 2 + e.val) / 64 % 576 = m.val; omega
  | ⟨3, _⟩ => show ((((b.val * 12 + h.val) * 576 + m.val) * 32 + k.val) * 2 + e.val) % 64 = c.val; omega

/-- Dropping the trailing unit axis of a pair-indexed tensor. -/
theorem k_drop_odd (b : Fin 32) (h : Fin 12) (m : Fin 576) (k : Fin 32) :
    val_main_v45 X W QB VB (ix4 b h m k) = val_main_v44 X W QB VB (ix5 b h m k (0 : Fin 1)) := by
  rw [val_main_v45_apply]
  congr 1
  funext a
  apply Fin.ext
  have := b.isLt; have := h.isLt; have := m.isLt; have := k.isLt
  match a with
  | ⟨0, _⟩ => show (((b.val * 12 + h.val) * 576 + m.val) * 32 + k.val) / 221184 = b.val; omega
  | ⟨1, _⟩ => show (((b.val * 12 + h.val) * 576 + m.val) * 32 + k.val) / 18432 % 12 = h.val; omega
  | ⟨2, _⟩ => show (((b.val * 12 + h.val) * 576 + m.val) * 32 + k.val) / 32 % 576 = m.val; omega
  | ⟨3, _⟩ => show (((b.val * 12 + h.val) * 576 + m.val) * 32 + k.val) / 1 % 32 = k.val; omega
  | ⟨4, _⟩ => rfl

/-- The same for the even entries' tensor. -/
theorem k_drop_even (b : Fin 32) (h : Fin 12) (m : Fin 576) (k : Fin 32) :
    val_main_v48 X W QB VB (ix4 b h m k) = val_main_v47 X W QB VB (ix5 b h m k (0 : Fin 1)) := by
  rw [val_main_v48_apply]
  congr 1
  funext a
  apply Fin.ext
  have := b.isLt; have := h.isLt; have := m.isLt; have := k.isLt
  match a with
  | ⟨0, _⟩ => show (((b.val * 12 + h.val) * 576 + m.val) * 32 + k.val) / 221184 = b.val; omega
  | ⟨1, _⟩ => show (((b.val * 12 + h.val) * 576 + m.val) * 32 + k.val) / 18432 % 12 = h.val; omega
  | ⟨2, _⟩ => show (((b.val * 12 + h.val) * 576 + m.val) * 32 + k.val) / 32 % 576 = m.val; omega
  | ⟨3, _⟩ => show (((b.val * 12 + h.val) * 576 + m.val) * 32 + k.val) / 1 % 32 = k.val; omega
  | ⟨4, _⟩ => rfl

/-- The odd entry of each pair, negated, on a trailing unit axis: minus column 2k + 1. -/
theorem k_negodd (b : Fin 32) (h : Fin 12) (m : Fin 576) (k : Fin 32) (z : Fin 1) (c : Fin 64) (hc : c.val = 2 * k.val + 1) :
    val_main_v49 X W QB VB (ix5 b h m k z) = -(val_main_v37 X W QB VB (ix4 b h m c)) := by
  have e27 : idx_main_v49 (ix5 b h m k z) = ix4 b h m k := by
    funext a
    apply Fin.ext
    match a with
    | ⟨0, _⟩ => rfl
    | ⟨1, _⟩ => rfl
    | ⟨2, _⟩ => rfl
    | ⟨3, _⟩ => rfl
  have e22 : idx_main_v44 (ix5 b h m k (0 : Fin 1)) = ix5 b h m k (1 : Fin 2) := by
    funext a
    apply Fin.ext
    match a with
    | ⟨0, _⟩ => rfl
    | ⟨1, _⟩ => rfl
    | ⟨2, _⟩ => rfl
    | ⟨3, _⟩ => rfl
    | ⟨4, _⟩ => rfl
  rw [val_main_v49_apply, e27, val_main_v46_apply, Ideal.hostNegf_def, Ideal.negf_def, k_drop_odd, val_main_v44_apply, e22,
    k_pairs X W QB VB b h m k 1 c hc]

/-- The even entry of each pair on a trailing unit axis: column 2k. -/
theorem k_even (b : Fin 32) (h : Fin 12) (m : Fin 576) (k : Fin 32) (z : Fin 1) (c : Fin 64) (hc : c.val = 2 * k.val) :
    val_main_v50 X W QB VB (ix5 b h m k z) = val_main_v37 X W QB VB (ix4 b h m c) := by
  have e28 : idx_main_v50 (ix5 b h m k z) = ix4 b h m k := by
    funext a
    apply Fin.ext
    match a with
    | ⟨0, _⟩ => rfl
    | ⟨1, _⟩ => rfl
    | ⟨2, _⟩ => rfl
    | ⟨3, _⟩ => rfl
  have e25 : idx_main_v47 (ix5 b h m k (0 : Fin 1)) = ix5 b h m k (0 : Fin 2) := by
    funext a
    apply Fin.ext
    match a with
    | ⟨0, _⟩ => rfl
    | ⟨1, _⟩ => rfl
    | ⟨2, _⟩ => rfl
    | ⟨3, _⟩ => rfl
    | ⟨4, _⟩ => rfl
  rw [val_main_v50_apply, e28, k_drop_even, val_main_v47_apply, e25, k_pairs X W QB VB b h m k 0 c hc]

/-- The two unit-axis tensors joined: position 0 of pair k is the negated odd entry. -/
theorem k_cat0 (b : Fin 32) (h : Fin 12) (m : Fin 576) (k : Fin 32) (e : Fin 2) (he : e.val = 0) :
    val_main_v51 X W QB VB (ix5 b h m k e) = val_main_v49 X W QB VB (ix5 b h m k (0 : Fin 1)) := by
  unfold val_main_v51
  exact concatenate_pair_apply_left (t := S32x12x576x32x2) (s₁ := S32x12x576x32x1) (s₂ := S32x12x576x32x1) 4 _ _
    concatenates_S32x12x576x32x1_S32x12x576x32x1_S32x12x576x32x2_d4 (ix5 b h m k e) rfl (ix5 b h m k (0 : Fin 1)) (fun a => by
    match a with
    | ⟨0, _⟩ => rfl
    | ⟨1, _⟩ => rfl
    | ⟨2, _⟩ => rfl
    | ⟨3, _⟩ => rfl
    | ⟨4, _⟩ => show 0 = e.val; omega)

/-- The two unit-axis tensors joined: position 1 of pair k is the even entry. -/
theorem k_cat1 (b : Fin 32) (h : Fin 12) (m : Fin 576) (k : Fin 32) (e : Fin 2) (he : e.val = 1) :
    val_main_v51 X W QB VB (ix5 b h m k e) = val_main_v50 X W QB VB (ix5 b h m k (0 : Fin 1)) := by
  unfold val_main_v51
  exact concatenate_pair_apply_right (t := S32x12x576x32x2) (s₁ := S32x12x576x32x1) (s₂ := S32x12x576x32x1) 4 _ _
    concatenates_S32x12x576x32x1_S32x12x576x32x1_S32x12x576x32x2_d4 (ix5 b h m k e) rfl rfl (ix5 b h m k (0 : Fin 1)) (fun a ha => by
    match a with
    | ⟨0, _⟩ => rfl
    | ⟨1, _⟩ => rfl
    | ⟨2, _⟩ => rfl
    | ⟨3, _⟩ => rfl
    | ⟨4, _⟩ => exact absurd rfl ha) (by
    show 0 + 1 = e.val; omega)

/-- The joined pairs read back as 64 columns: column d is position d % 2 of pair d / 2. -/
theorem k_unpair (b : Fin 32) (h : Fin 12) (m : Fin 576) (d : Fin 64) (k : Fin 32) (e : Fin 2) (hk : k.val = d.val / 2) (he : e.val = d.val % 2) :
    val_main_v52 X W QB VB (ix4 b h m d) = val_main_v51 X W QB VB (ix5 b h m k e) := by
  rw [val_main_v52_apply]
  congr 1
  funext a
  apply Fin.ext
  have := b.isLt; have := h.isLt; have := m.isLt; have := d.isLt
  match a with
  | ⟨0, _⟩ => show (((b.val * 12 + h.val) * 576 + m.val) * 64 + d.val) / 442368 = b.val; omega
  | ⟨1, _⟩ => show (((b.val * 12 + h.val) * 576 + m.val) * 64 + d.val) / 36864 % 12 = h.val; omega
  | ⟨2, _⟩ => show (((b.val * 12 + h.val) * 576 + m.val) * 64 + d.val) / 64 % 576 = m.val; omega
  | ⟨3, _⟩ => show (((b.val * 12 + h.val) * 576 + m.val) * 64 + d.val) / 2 % 32 = k.val; omega
  | ⟨4, _⟩ => show (((b.val * 12 + h.val) * 576 + m.val) * 64 + d.val) % 2 = e.val; omega

/-- The rebuilt tensor is the pair rotation of the rows after the prefix row. -/
theorem k_rot (b : Fin 32) (h : Fin 12) (m : Fin 576) (d : Fin 64) (n : Fin 577) (hn : n.val = m.val + 1) :
    val_main_v52 X W QB VB (ix4 b h m d) = rot (part (Aof X W QB VB b) 1 h) n d := by
  have hd := d.isLt
  unfold rot
  by_cases hp : d.val % 2 = 0
  · rw [dif_pos hp, k_unpair X W QB VB b h m d ⟨d.val / 2, by omega⟩ ⟨0, by omega⟩ rfl (by show 0 = d.val % 2; omega),
      k_cat0 X W QB VB b h m _ _ rfl, k_negodd X W QB VB b h m _ _ ⟨d.val + 1, by omega⟩ (by show d.val + 1 = 2 * (d.val / 2) + 1; omega),
      k_tail X W QB VB b h m _ n hn, v11_apply]
  · rw [dif_neg hp, k_unpair X W QB VB b h m d ⟨d.val / 2, by omega⟩ ⟨1, by omega⟩ rfl (by show 1 = d.val % 2; omega),
      k_cat1 X W QB VB b h m _ _ rfl, k_even X W QB VB b h m _ _ ⟨d.val - 1, by omega⟩ (by show d.val - 1 = 2 * (d.val / 2); omega),
      k_tail X W QB VB b h m _ n hn, v11_apply]

end

/-- The reference's roped key at (b, h, n, d). -/
theorem v57_apply (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n : Fin 577) (d : Fin 64) :
    val_main_v57 X ROPE W QB VB (ix4 b h n d) = roped (mat2 ROPE) (part (Aof X W QB VB b) 1 h) n d := by
  have hN := n.isLt
  have hd := d.isLt
  unfold roped
  by_cases hn : n.val = 0
  · rw [dif_pos hn]
    unfold val_main_v57
    refine (concatenate_pair_apply_left (t := S32x12x577x64) (s₁ := S32x12x1x64) (s₂ := S32x12x576x64) 2 _ _
      concatenates_S32x12x1x64_S32x12x576x64_S32x12x577x64_d2 (ix4 b h n d) rfl (ix4 b h (0 : Fin 1) d) (fun a => by
      match a with
      | ⟨0, _⟩ => rfl
      | ⟨1, _⟩ => rfl
      | ⟨2, _⟩ => show 0 = n.val; omega
      | ⟨3, _⟩ => rfl)).trans ?_
    rw [k_head X W QB VB b h 0 d n hn, v11_apply]
  · rw [dif_neg hn]
    unfold val_main_v57
    refine (concatenate_pair_apply_right (t := S32x12x577x64) (s₁ := S32x12x1x64) (s₂ := S32x12x576x64) 2 _ _
      concatenates_S32x12x1x64_S32x12x576x64_S32x12x577x64_d2 (ix4 b h n d) rfl rfl (ix4 b h (⟨n.val - 1, by omega⟩ : Fin 576) d) (fun a ha => by
      match a with
      | ⟨0, _⟩ => rfl
      | ⟨1, _⟩ => rfl
      | ⟨2, _⟩ => exact absurd rfl ha
      | ⟨3, _⟩ => rfl) (by
      show n.val - 1 + 1 = n.val; omega)).trans ?_
    rw [val_main_v56_apply, val_main_v42_apply, val_main_v55_apply, Ideal.addf_def, Ideal.mulf_def, Ideal.mulf_def,
      k_tail X W QB VB b h _ d n (by show n.val = n.val - 1 + 1; omega), v11_apply,
      k_cos ROPE b h _ d ⟨64 + d.val, by omega⟩ rfl, k_sin ROPE b h _ d ⟨d.val, by omega⟩ rfl,
      k_rot X W QB VB b h _ d n (by show n.val = n.val - 1 + 1; omega)]
    rfl

end Cert.ReferenceIdeal.RefValue

end
-- ==== Proof.Ref3.lean ====
/-
  The reference's attention and output projection read at an index: scores, row softmax, weighted values, the heads
  laid side by side, and the projection with its bias; then the reference's whole result is the block G of the arguments.
-/
import proofs.«400891_j29738353557841_3_alg».proof.Proof.Ref2
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.Attn

/-- The roped and scaled query of head h of batch row b. -/
def Qof (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) : Mat 577 64 :=
  scaled (roped (mat2 ROPE) (part (Aof X W QB VB b) 0 h))

/-- The roped key of head h of batch row b. -/
def Kof (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) : Mat 577 64 :=
  roped (mat2 ROPE) (part (Aof X W QB VB b) 1 h)

/-- The scores of head h of batch row b. -/
def Sof (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) : Mat 577 577 :=
  scores (Qof X ROPE W QB VB b h) (Kof X ROPE W QB VB b h)

/-- The scaled query at (b, h, n, d). -/
theorem v59_apply (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n : Fin 577) (d : Fin 64) :
    val_main_v59 X ROPE W QB VB (ix4 b h n d) = Qof X ROPE W QB VB b h n d := by
  rw [val_main_v59_apply, val_main_v58_apply, val_main_cst_0_apply, v35_apply]
  simp only [Ideal.mulf_def, Ideal.ofBits_def]
  rfl

/-- The scores at (b, h, n, j). -/
theorem v60_apply (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n j : Fin 577) :
    val_main_v60 X ROPE W QB VB (ix4 b h n j) = Sof X ROPE W QB VB b h n j := by
  rw [val_main_v60_apply]
  unfold Sof scores
  refine Finset.sum_congr rfl fun k _ => ?_
  have el : lidx_main_v60 (ix4 b h n j) k = ix4 b h n k := funext fun a => Fin.ext (by
    match a with | ⟨0, _⟩ => rfl | ⟨1, _⟩ => rfl | ⟨2, _⟩ => rfl | ⟨3, _⟩ => rfl)
  have er : ridx_main_v60 (ix4 b h n j) k = ix4 b h j k := funext fun a => Fin.ext (by
    match a with | ⟨0, _⟩ => rfl | ⟨1, _⟩ => rfl | ⟨2, _⟩ => rfl | ⟨3, _⟩ => rfl)
  rw [el, er, v59_apply, v57_apply]
  rfl

/-- The result index (b, h, n) with coordinate k put back on the last axis is (b, h, n, k). -/
theorem lift_ix3 (hr : S32x12x577x577.Reduces [3] S32x12x577) (b : Fin 32) (h : Fin 12) (n : Fin 577)
    (k : Fin (S32x12x577x577.size 3)) : hr.lift (ix3 b h n) k = ix4 b h n (⟨k.val, k.isLt⟩ : Fin 577) := by
  funext c; apply Fin.ext
  match c with | ⟨0, _⟩ => rfl | ⟨1, _⟩ => rfl | ⟨2, _⟩ => rfl | ⟨3, _⟩ => rfl

/-- The maximum of minus infinity and a value is the value. -/
theorem max_negInf (y : EReal) : max negInf y = y := by
  unfold negInf; simp [Ideal.ofBits, Ideal.ieee]

/-- The row maximum at (b, h, n). -/
theorem v61_apply (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n : Fin 577) :
    val_main_v61 X ROPE W QB VB (ix3 b h n) = rowMax (Sof X ROPE W QB VB b h) n := by
  have hr : S32x12x577x577.Reduces [3] S32x12x577 := by decide
  unfold val_main_v61
  rw [Host.reduce_eq_fold_single FloatOps.maximumf _ _ reducesTo_S32x12x577x577_S32x12x577_d3 hr h_S_]
  unfold rowMax
  have hf : (val_main_v60 X ROPE W QB VB ∘ hr.lift (ix3 b h n)) = Sof X ROPE W QB VB b h n :=
    funext fun k => by
      show val_main_v60 X ROPE W QB VB (hr.lift (ix3 b h n) k) = _
      rw [lift_ix3, v60_apply]
      rfl
  rw [hf]
  rfl

/-- The row maximum after the guard against minus infinity, at (b, h, n). -/
theorem v63_apply (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n : Fin 577) :
    val_main_v63 X ROPE W QB VB (ix3 b h n) = rowMax (Sof X ROPE W QB VB b h) n := by
  rw [val_main_v63_apply, val_main_v62_apply, val_main_cst_2_apply, v61_apply]
  simp only [Ideal.maximumf_def, Ideal.ofBits_def]
  exact max_negInf _

/-- The exponential of a score less its row maximum, at (b, h, n, j). -/
theorem v67_apply (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n j : Fin 577) :
    val_main_v67 X ROPE W QB VB (ix4 b h n j) = pexp (Sof X ROPE W QB VB b h) n j := by
  have e : idx_main_v64 (idx_main_v65 (ix4 b h n j)) = ix3 b h n := funext fun a => Fin.ext (by
    match a with | ⟨0, _⟩ => rfl | ⟨1, _⟩ => rfl | ⟨2, _⟩ => rfl)
  rw [val_main_v67_apply, val_main_v66_apply, val_main_v65_apply, val_main_v64_apply, e, v63_apply, v60_apply]
  simp only [Ideal.subf_def, Ideal.hostUnary_exp_def]
  rfl

/-- The row sum of the exponentials at (b, h, n). -/
theorem v68_apply (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n : Fin 577) :
    val_main_v68 X ROPE W QB VB (ix3 b h n) = rowSum (pexp (Sof X ROPE W QB VB b h)) n := by
  rw [val_main_v68_apply, val_main_cst_3_apply]
  simp only [Ideal.ofBits_def, Ideal.ofBits_zero_f32, zero_add]
  unfold rowSum
  refine Finset.sum_congr rfl fun k _ => ?_
  have e : idx_main_v68 (ix3 b h n) k = ix4 b h n k := funext fun a => Fin.ext (by
    match a with | ⟨0, _⟩ => rfl | ⟨1, _⟩ => rfl | ⟨2, _⟩ => rfl | ⟨3, _⟩ => rfl)
  rw [e, v67_apply]

/-- The softmax weight at (b, h, n, j). -/
theorem v71_apply (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n j : Fin 577) :
    val_main_v71 X ROPE W QB VB (ix4 b h n j) = attn (Sof X ROPE W QB VB b h) n j := by
  have e : idx_main_v69 (idx_main_v70 (ix4 b h n j)) = ix3 b h n := funext fun a => Fin.ext (by
    match a with | ⟨0, _⟩ => rfl | ⟨1, _⟩ => rfl | ⟨2, _⟩ => rfl)
  rw [val_main_v71_apply, val_main_v70_apply, val_main_v69_apply, e, v68_apply, v67_apply]
  simp only [Ideal.hostDivf_def]
  rfl

/-- The reference's head output at (b, h, n, d). -/
theorem v72_apply (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (h : Fin 12) (n : Fin 577) (d : Fin 64) :
    val_main_v72 X ROPE W QB VB (ix4 b h n d) = headOf (mat2 ROPE) (Aof X W QB VB b) h n d := by
  rw [val_main_v72_apply]
  unfold headOf headOut
  refine Finset.sum_congr rfl fun k _ => ?_
  have el : lidx_main_v72 (ix4 b h n d) k = ix4 b h n k := funext fun a => Fin.ext (by
    match a with | ⟨0, _⟩ => rfl | ⟨1, _⟩ => rfl | ⟨2, _⟩ => rfl | ⟨3, _⟩ => rfl)
  have er : ridx_main_v72 (ix4 b h n d) k = ix4 b h k d := funext fun a => Fin.ext (by
    match a with | ⟨0, _⟩ => rfl | ⟨1, _⟩ => rfl | ⟨2, _⟩ => rfl | ⟨3, _⟩ => rfl)
  rw [el, er, v71_apply, v13_apply]
  rfl

/-- The heads laid side by side at (b, n, c): head c / 64, entry c % 64. -/
theorem v74_apply (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (b : Fin 32) (n : Fin 577) (c : Fin 768) :
    val_main_v74 X ROPE W QB VB (ix3 b n c)
      = attnOut (mat3 X b) (mat2 ROPE) (mat2 W) (vec1 QB) (vec1 VB) n c := by
  have e : idx_main_v73 (idx_main_v74 (ix3 b n c))
      = ix4 b (⟨c.val / 64, by have := c.isLt; omega⟩ : Fin 12) n (⟨c.val % 64, Nat.mod_lt _ (by decide)⟩ : Fin 64) :=
    funext fun a => Fin.ext (by
      have hb := b.isLt; have hn := n.isLt; have hc := c.isLt
      match a with
      | ⟨0, _⟩ => show ((b.val * 577 + n.val) * 768 + c.val) / 443136 = b.val; omega
      | ⟨1, _⟩ => show ((b.val * 577 + n.val) * 768 + c.val) / 64 % 12 = c.val / 64; omega
      | ⟨2, _⟩ => show ((b.val * 577 + n.val) * 768 + c.val) / 768 % 577 = n.val; omega
      | ⟨3, _⟩ => show ((b.val * 577 + n.val) * 768 + c.val) % 64 = c.val % 64; omega)
  rw [val_main_v74_apply, val_main_v73_apply, e, v72_apply]
  rfl

/-- The reference's result at (b, n, o). -/
theorem v78_apply (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (PW : (⟨S768x768, .f32⟩ : BufTy).Contents (Elt Ideal)) (PB : (⟨S768, .f32⟩ : BufTy).Contents (Elt Ideal)) (b : Fin 32) (n : Fin 577) (o : Fin 768) :
    val_main_v78 X ROPE W QB VB PW PB (ix3 b n o)
      = G (mat3 X) (mat2 ROPE) (mat2 W) (vec1 QB) (vec1 VB) (mat2 PW) (vec1 PB) b n o := by
  have eb : idx_main_v76 (idx_main_v77 (ix3 b n o)) = ix1 o := funext fun a => Fin.ext (by
    match a with | ⟨0, _⟩ => rfl)
  rw [val_main_v78_apply, val_main_v77_apply, val_main_v76_apply, eb, val_main_v75_apply]
  simp only [Ideal.addf_def]
  unfold G proj
  refine congrArg (· + _) (Finset.sum_congr rfl fun k _ => ?_)
  have el : lidx_main_v75 (ix3 b n o) k = ix3 b n k := funext fun a => Fin.ext (by
    match a with | ⟨0, _⟩ => rfl | ⟨1, _⟩ => rfl | ⟨2, _⟩ => rfl)
  have er : ridx_main_v75 (ix3 b n o) k = ix2 o k := funext fun a => Fin.ext (by
    match a with | ⟨0, _⟩ => rfl | ⟨1, _⟩ => rfl)
  rw [el, er, v74_apply]
  rfl

/-- The reference's last stage is the block of the argument arrays. -/
theorem ref_eq (X : (⟨S32x577x768, .f32⟩ : BufTy).Contents (Elt Ideal)) (ROPE : (⟨S576x128, .f32⟩ : BufTy).Contents (Elt Ideal)) (W : (⟨S2304x768, .f32⟩ : BufTy).Contents (Elt Ideal)) (QB VB : (⟨S768, .f32⟩ : BufTy).Contents (Elt Ideal)) (PW : (⟨S768x768, .f32⟩ : BufTy).Contents (Elt Ideal)) (PB : (⟨S768, .f32⟩ : BufTy).Contents (Elt Ideal)) :
    val_main_v78 (F := Ideal) X ROPE W QB VB PW PB = Garr X ROPE W QB VB PW PB := by
  funext i
  obtain ⟨b, n, o, rfl⟩ : ∃ b n o, i = ix3 b n o := ⟨i 0, i 1, i 2, eq_ix3 i⟩
  rw [v78_apply, Garr_apply]

end Cert.ReferenceIdeal.RefValue

end
-- ==== Proof.lean ====
/-
  The certificate's claim is five statements, proved here from the facts the other modules state.
  1. The kernel as printed runs and leaves its seven argument arrays unchanged: the frame of its pipeline.
  2. The kernel read over the extended reals runs and leaves its arguments unchanged: the same frame at that instance.
  3. The reference read over the extended reals runs and leaves its arguments unchanged: its run, which also says what
     the result buffer holds, with that part dropped.
  4. The idealization rewrote no operation, so there is nothing to preserve: the statement is True.
  5. Over the extended reals, from memories that agree on the arguments, both programs run, leave the arguments
     unchanged and end with equal results: the kernel's result array is the attention block G of its arguments, the
     reference's result buffer is the last stage of its program, that stage is G of the reference's arguments, and
     the arguments agree.
-/
import proofs.«400891_j29738353557841_3_alg».proof.Defs
import proofs.«400891_j29738353557841_3_alg».proof.Proof.Gen.Kernel
import proofs.«400891_j29738353557841_3_alg».proof.Proof.Gen.Kernel.Skeleton
import proofs.«400891_j29738353557841_3_alg».proof.Proof.Gen.Kernel.Launch
import proofs.«400891_j29738353557841_3_alg».proof.Proof.Gen.Kernel.Points
import proofs.«400891_j29738353557841_3_alg».proof.Proof.Gen.KernelIdeal
import proofs.«400891_j29738353557841_3_alg».proof.Proof.Gen.KernelIdeal.Skeleton
import proofs.«400891_j29738353557841_3_alg».proof.Proof.Gen.KernelIdeal.Launch
import proofs.«400891_j29738353557841_3_alg».proof.Proof.Gen.KernelIdeal.Points
import proofs.«400891_j29738353557841_3_alg».proof.Proof.Gen.ReferenceIdeal
import proofs.«400891_j29738353557841_3_alg».proof.Proof.Gen.Pre_finite_inputs
import proofs.«400891_j29738353557841_3_alg».proof.Proof.KFrame
import proofs.«400891_j29738353557841_3_alg».proof.Proof.KIFrame
import proofs.«400891_j29738353557841_3_alg».proof.Proof.KValue
import proofs.«400891_j29738353557841_3_alg».proof.Proof.RefRun
import proofs.«400891_j29738353557841_3_alg».proof.Proof.Ref3
import Idealize.ShloMosaic.Adequacy
import Idealize.ShloMosaic.Init

noncomputable section

namespace Cert.Proof.Parts

open Idealize.ShloMosaic Idealize.SL.Sem

/-- The kernel as printed runs and its arguments end unchanged. -/
theorem frame_p : Cert.frame_Kernel := fun m ρ _ => Cert.Kernel.Hand.frame (F := Bits) m ρ

/-- The kernel over the extended reals runs and its arguments end unchanged. -/
theorem frame_pi : Cert.frame_KernelIdeal := fun m ρ _ => Cert.KernelIdeal.Hand.frame (F := Ideal) m ρ

/-- The reference over the extended reals runs and its arguments end unchanged. -/
theorem frame_ri : Cert.frame_ReferenceIdeal := fun m ρ _ =>
  (θ_run Cert.ReferenceIdeal.defs _ _).mono (fun _ h c => (h c).2) (Cert.ReferenceIdeal.RefValue.ref_run (F := Ideal) m ρ)

/-- The idealization rewrote nothing. -/
theorem preserves : Cert.preserves_Kernel_KernelIdeal := trivial

/-- Over the extended reals the kernel's result array is the attention block of its arguments, the reference's result
    buffer is the last stage of its program, which is the attention block of its own arguments, and the arguments
    agree. -/
theorem algebraic : Cert.algebraic_KernelIdeal_ReferenceIdeal := by
  intro m ρ m' ρ' _ hagree
  refine ⟨fun c => Cert.KernelIdeal.Hand.Gof m c, Cert.KernelIdeal.Hand.kernel_run m ρ, ?_⟩
  refine (θ_run Cert.ReferenceIdeal.defs _ _).mono (fun _ h c => ⟨(h c).1.trans ?_, (h c).2⟩)
    (Cert.ReferenceIdeal.RefValue.ref_run (F := Ideal) m' ρ')
  rw [Cert.ReferenceIdeal.RefValue.ref_eq, (hagree c).1, (hagree c).2.1, (hagree c).2.2.1, (hagree c).2.2.2.1,
    (hagree c).2.2.2.2.1, (hagree c).2.2.2.2.2.1, (hagree c).2.2.2.2.2.2]

end Cert.Proof.Parts

namespace Cert.Proof

open Cert.Proof.Parts

theorem claim : Cert.Claim := ⟨Cert.Kernel.Gen.facts, Cert.KernelIdeal.Gen.facts, Cert.ReferenceIdeal.Gen.facts, Cert.Pre_finite_inputs.Gen.facts, frame_p, frame_pi, frame_ri, preserves, algebraic⟩

end Cert.Proof

end
